-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x100x512 : Shape := ⟨3, ![128, 100, 512]⟩
abbrev S128 : Shape := ⟨1, ![128]⟩
abbrev S8x512x1024 : Shape := ⟨3, ![8, 512, 1024]⟩
abbrev S8x1024 : Shape := ⟨2, ![8, 1024]⟩
abbrev S8x1024x512 : Shape := ⟨3, ![8, 1024, 512]⟩
abbrev S8x512 : Shape := ⟨2, ![8, 512]⟩
abbrev S_ : Shape := ⟨0, ![]⟩

class Facts : Prop where
  bcast_S_S128x100x512 : S_.BroadcastsInDim S128x100x512 (![] : Fin 0 → Fin S128x100x512.rank)
  reducesTo_S128x100x512_S_d0_1_2 : S128x100x512.ReducesTo [0, 1, 2] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S8x1024x512 : S_.BroadcastsInDim S8x1024x512 (![] : Fin 0 → Fin S8x1024x512.rank)
  reducesTo_S8x1024x512_S_d0_1_2 : S8x1024x512.ReducesTo [0, 1, 2] S_
  bcast_S_S8x512 : S_.BroadcastsInDim S8x512 (![] : Fin 0 → Fin S8x512.rank)
  reducesTo_S8x512_S_d0_1 : S8x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg1 : IVec S128 32) (main_arg5 : FVec F S8x512 .f32) (main_v13 : IVec S_ 1) (main_v16 : IVec S8x1024x512 1) : IVec S_ 1 :=
  let main_c_5 : IVec S_ 1 := constantI S_ 1 1#1
  let main_v17 : IVec S_ 1 := (fun x v => Host.reduce IntOp.andi x v reducesTo_S8x1024x512_S_d0_1_2 h_S_) main_v16 main_c_5
  let main_v18 : IVec S_ 1 := andi main_v13 main_v17
  let main_v19 : FVec F S8x512 .f32 := Host.absf main_arg5
  let main_cst_6 : FVec F S_ .f32 := constant S_ .f32 0x7F800000#32
  let main_v20 : FVec F S8x512 .f32 := broadcastInDim S8x512 ![] bcast_S_S8x512 main_cst_6
  let main_v21 : IVec S8x512 1 := cmpf .olt main_v19 main_v20
  let main_c_7 : IVec S_ 1 := constantI S_ 1 1#1
  let main_v22 : IVec S_ 1 := (fun x v => Host.reduce IntOp.andi x v reducesTo_S8x512_S_d0_1 h_S_) main_v21 main_c_7
  let main_v23 : IVec S_ 1 := andi main_v18 main_v22
  let main_c_8 : IVec S_ 32 := constantI S_ 32 0#32
  let main_v24 : IVec S128 32 := broadcastInDim S128 ![] bcast_S_S128 main_c_8
  let main_v25 : IVec S128 1 := cmpi .sge main_arg1 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v23 main_v26
  main_v27

def fn {F : FTy → Type} [FloatOps F] (main_arg0 : FVec F S128x100x512 .f32) (main_arg1 : IVec S128 32) (main_arg2 : FVec F S8x512x1024 .f32) (main_arg3 : FVec F S8x1024 .f32) (main_arg4 : FVec F S8x1024x512 .f32) (main_arg5 : FVec F S8x512 .f32) : IVec S_ 1 :=
  let main_v0 : FVec F S128x100x512 .f32 := Host.absf main_arg0
  let main_cst : FVec F S_ .f32 := constant S_ .f32 0x7F800000#32
  let main_v1 : FVec F S128x100x512 .f32 := broadcastInDim S128x100x512 ![] bcast_S_S128x100x512 main_cst
  let main_v2 : IVec S128x100x512 1 := cmpf .olt main_v0 main_v1
  let main_c : IVec S_ 1 := constantI S_ 1 1#1
  let main_v3 : IVec S_ 1 := (fun x v => Host.reduce IntOp.andi x v reducesTo_S128x100x512_S_d0_1_2 h_S_) main_v2 main_c
  let main_v4 : FVec F S8x512x1024 .f32 := Host.absf main_arg2
  let main_cst_0 : FVec F S_ .f32 := constant S_ .f32 0x7F800000#32
  let main_v5 : FVec F S8x512x1024 .f32 := broadcastInDim S8x512x1024 ![] bcast_S_S8x512x1024 main_cst_0
  let main_v6 : IVec S8x512x1024 1 := cmpf .olt main_v4 main_v5
  let main_c_1 : IVec S_ 1 := constantI S_ 1 1#1
  let main_v7 : IVec S_ 1 := (fun x v => Host.reduce IntOp.andi x v reducesTo_S8x512x1024_S_d0_1_2 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S8x1024x512 .f32 := Host.absf main_arg4
  let main_cst_4 : FVec F S_ .f32 := constant S_ .f32 0x7F800000#32
  let main_v15 : FVec F S8x1024x512 .f32 := broadcastInDim S8x1024x512 ![] bcast_S_S8x1024x512 main_cst_4
  let main_v16 : IVec S8x1024x512 1 := cmpf .olt main_v14 main_v15
  fn_part1 (F := F) main_arg1 main_arg5 main_v13 main_v16
-- ==== Kernel.lean ====
abbrev S128x100x512 : Shape := ⟨3, ![128, 100, 512]⟩
abbrev S128 : Shape := ⟨1, ![128]⟩
abbrev S8x512x1024 : Shape := ⟨3, ![8, 512, 1024]⟩
abbrev S8x1024 : Shape := ⟨2, ![8, 1024]⟩
abbrev S8x1024x512 : Shape := ⟨3, ![8, 1024, 512]⟩
abbrev S8x512 : Shape := ⟨2, ![8, 512]⟩
abbrev S_ : Shape := ⟨0, ![]⟩
abbrev S8x1x1024 : Shape := ⟨3, ![8, 1, 1024]⟩
abbrev S8x1x512 : Shape := ⟨3, ![8, 1, 512]⟩
abbrev S16x100x512 : Shape := ⟨3, ![16, 100, 512]⟩
abbrev S1 : Shape := ⟨1, ![1]⟩
abbrev S1x100x512 : Shape := ⟨3, ![1, 100, 512]⟩
abbrev S100x512 : Shape := ⟨2, ![100, 512]⟩
abbrev S1x512x1024 : Shape := ⟨3, ![1, 512, 1024]⟩
abbrev S512x1024 : Shape := ⟨2, ![512, 1024]⟩
abbrev S1x1x1024 : Shape := ⟨3, ![1, 1, 1024]⟩
abbrev S1x1024 : Shape := ⟨2, ![1, 1024]⟩
abbrev S100x1024 : Shape := ⟨2, ![100, 1024]⟩
abbrev S1x1024x512 : Shape := ⟨3, ![1, 1024, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 18
  | .vmem => 8
  | .smem => 1
  | _ => 0

abbrev bufTy : (tb : Table) → Fin (tcTables nBuf tb) → BufTy
  | .hbm, ⟨0, _⟩ => ⟨S128x100x512, .f32⟩
  | .hbm, ⟨1, _⟩ => ⟨S128, .i32⟩
  | .hbm, ⟨2, _⟩ => ⟨S8x512x1024, .f32⟩
  | .hbm, ⟨3, _⟩ => ⟨S8x1024, .f32⟩
  | .hbm, ⟨4, _⟩ => ⟨S8x1024x512, .f32⟩
  | .hbm, ⟨5, _⟩ => ⟨S8x512, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S8x512x1024, .bf16⟩
  | .hbm, ⟨14, _⟩ => ⟨S8x1024x512, .bf16⟩
  | .hbm, ⟨15, _⟩ => ⟨S8x1x1024, .f32⟩
  | .hbm, ⟨16, _⟩ => ⟨S8x1x512, .f32⟩
  | .hbm, ⟨17, _⟩ => ⟨S128x100x512, .f32⟩
  | .local _ .vmem, ⟨0, _⟩ => ⟨S16x100x512, .f32⟩
  | .local _ .vmem, ⟨1, _⟩ => ⟨S16x100x512, .f32⟩
  | .local _ .vmem, ⟨2, _⟩ => ⟨S8x512x1024, .bf16⟩
  | .local _ .vmem, ⟨3, _⟩ => ⟨S8x1x1024, .f32⟩
  | .local _ .vmem, ⟨4, _⟩ => ⟨S8x1024x512, .bf16⟩
  | .local _ .vmem, ⟨5, _⟩ => ⟨S8x1x512, .f32⟩
  | .local _ .vmem, ⟨6, _⟩ => ⟨S16x100x512, .f32⟩
  | .local _ .vmem, ⟨7, _⟩ => ⟨S16x100x512, .f32⟩
  | .local _ .smem, ⟨0, _⟩ => ⟨S128, .i32⟩
  | _, _ => ⟨S128x100x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k0_off2 (v3 : BitVec 32) : Fin 3 → Nat :=
  let v8 : Index := Scalar.indexCast v3
  let c0_1 : Index := 0#32
  let c0_2 : Index := 0#32
  ![v8.toNat, 0, 0]

def k0_off3 (v3 : BitVec 32) : Fin 3 → Nat :=
  let v11 : Index := Scalar.indexCast v3
  let c0_3 : Index := 0#32
  let c0_4 : Index := 0#32
  ![v11.toNat, 0, 0]
def k0_off4 (v3 : BitVec 32) : Fin 3 → Nat :=
  let v24 : Index := Scalar.indexCast v3
  let c0_7 : Index := 0#32
  let c0_8 : Index := 0#32
  ![v24.toNat, 0, 0]
def k0_off5 (v3 : BitVec 32) : Fin 3 → Nat :=
  let v27 : Index := Scalar.indexCast v3
  let c0_9 : Index := 0#32
  let c0_10 : Index := 0#32
  ![v27.toNat, 0, 0]

def k0_chk1 (v3 : BitVec 32) : Prop :=
  (∀ a, (k0_off2 v3) a + S1x512x1024.size a ≤ S8x512x1024.size a) ∧
  (∀ a, (k0_off3 v3) a + S1x1x1024.size a ≤ S8x1x1024.size a) ∧
  (∀ a, (k0_off4 v3) a + S1x1024x512.size a ≤ S8x1024x512.size a) ∧
  (∀ a, (k0_off5 v3) a + S1x1x512.size a ≤ S8x1x512.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x512x1024.size a ≤ S8x512x1024.size a := fun v3 k0_hw1 => k0_hw1.1
theorem k0_off3_inb : ∀ (v3 : BitVec 32) (k0_hw1 : k0_chk1 v3), ∀ a, (k0_off3 v3) a + S1x1x1024.size a ≤ S8x1x1024.size a := fun v3 k0_hw1 => k0_hw1.2.1
theorem k0_off4_inb : ∀ (v3 : BitVec 32) (k0_hw1 : k0_chk1 v3), ∀ a, (k0_off4 v3) a + S1x1024x512.size a ≤ S8x1024x512.size a := fun v3 k0_hw1 => k0_hw1.2.2.1
theorem k0_off5_inb : ∀ (v3 : BitVec 32) (k0_hw1 : k0_chk1 v3), ∀ a, (k0_off5 v3) a + S1x1x512.size a ≤ S8x1x512.size a := fun v3 k0_hw1 => k0_hw1.2.2.2

def k0_off6 (i : grid0.Coords) : Fin 1 → Nat :=
  let arg0 : BitVec 32 := BitVec.ofNat 32 (i 0).val
  let c16_i32 : BitVec 32 := 16#32
  let v0 : BitVec 32 := Scalar.muli arg0 c16_i32
  let c1_i32 : BitVec 32 := 1#32
  let v37 : BitVec 32 := Scalar.addi v0 c1_i32
  let v38 : Index := Scalar.indexCast v37
  ![v38.toNat]
def k0_off7 (v39 : BitVec 32) : Fin 3 → Nat :=
  let v44 : Index := Scalar.indexCast v39
  let c0_16 : Index := 0#32
  let c0_17 : Index := 0#32
  ![v44.toNat, 0, 0]

def k0_off8 (v39 : BitVec 32) : Fin 3 → Nat :=
  let v47 : Index := Scalar.indexCast v39
  let c0_18 : Index := 0#32
  let c0_19 : Index := 0#32
  ![v47.toNat, 0, 0]
def k0_off9 (v39 : BitVec 32) : Fin 3 → Nat :=
  let v60 : Index := Scalar.indexCast v39
  let c0_23 : Index := 0#32
  let c0_24 : Index := 0#32
  ![v60.toNat, 0, 0]
def k0_off10 (v39 : BitVec 32) : Fin 3 → Nat :=
  let v63 : Index := Scalar.indexCast v39
  let c0_25 : Index := 0#32
  let c0_26 : Index := 0#32
  ![v63.toNat, 0, 0]

def k0_chk2 (v39 : BitVec 32) : Prop :=
  (∀ a, (k0_off7 v39) a + S1x512x1024.size a ≤ S8x512x1024.size a) ∧
  (∀ a, (k0_off8 v39) a + S1x1x1024.size a ≤ S8x1x1024.size a) ∧
  (∀ a, (k0_off9 v39) a + S1x1024x512.size a ≤ S8x1024x512.size a) ∧
  (∀ a, (k0_off10 v39) a + S1x1x512.size a ≤ S8x1x512.size a)
instance k0_chk2.dec : ∀ (v39 : BitVec 32), Decidable (k0_chk2 v39) := fun v39 => decidable_of_iff' _ (Iff.of_eq (k0_chk2.eq_1 v39))
theorem k0_off7_inb : ∀ (v39 : BitVec 32) (k0_hw2 : k0_chk2 v39), ∀ a, (k0_off7 v39) a + S1x512x1024.size a ≤ S8x512x1024.size a := fun v39 k0_hw2 => k0_hw2.1
theorem k0_off8_inb : ∀ (v39 : BitVec 32) (k0_hw2 : k0_chk2 v39), ∀ a, (k0_off8 v39) a + S1x1x1024.size a ≤ S8x1x1024.size a := fun v39 k0_hw2 => k0_hw2.2.1
theorem k0_off9_inb : ∀ (v39 : BitVec 32) (k0_hw2 : k0_chk2 v39), ∀ a, (k0_off9 v39) a + S1x1024x512.size a ≤ S8x1024x512.size a := fun v39 k0_hw2 => k0_hw2.2.2.1
theorem k0_off10_inb : ∀ (v39 : BitVec 32) (k0_hw2 : k0_chk2 v39), ∀ a, (k0_off10 v39) a + S1x1x512.size a ≤ S8x1x512.size a := fun v39 k0_hw2 => k0_hw2.2.2.2

def k0_off11 (i : grid0.Coords) : Fin 1 → Nat :=
  let arg0 : BitVec 32 := BitVec.ofNat 32 (i 0).val
  let c16_i32 : BitVec 32 := 16#32
  let v0 : BitVec 32 := Scalar.muli arg0 c16_i32
  let c2_i32 : BitVec 32 := 2#32
  let v73 : BitVec 32 := Scalar.addi v0 c2_i32
  let v74 : Index := Scalar.indexCast v73
  ![v74.toNat]
def k0_off12 (v75 : BitVec 32) : Fin 3 → Nat :=
  let v80 : Index := Scalar.indexCast v75
  let c0_32 : Index := 0#32
  let c0_33 : Index := 0#32
  ![v80.toNat, 0, 0]

def k0_off13 (v75 : BitVec 32) : Fin 3 → Nat :=
  let v83 : Index := Scalar.indexCast v75
  let c0_34 : Index := 0#32
  let c0_35 : Index := 0#32
  ![v83.toNat, 0, 0]
def k0_off14 (v75 : BitVec 32) : Fin 3 → Nat :=
  let v96 : Index := Scalar.indexCast v75
  let c0_39 : Index := 0#32
  let c0_40 : Index := 0#32
  ![v96.toNat, 0, 0]
def k0_off15 (v75 : BitVec 32) : Fin 3 → Nat :=
  let v99 : Index := Scalar.indexCast v75
  let c0_41 : Index := 0#32
  let c0_42 : Index := 0#32
  ![v99.toNat, 0, 0]

def k0_chk3 (v75 : BitVec 32) : Prop :=
  (∀ a, (k0_off12 v75) a + S1x512x1024.size a ≤ S8x512x1024.size a) ∧
  (∀ a, (k0_off13 v75) a + S1x1x1024.size a ≤ S8x1x1024.size a) ∧
  (∀ a, (k0_off14 v75) a + S1x1024x512.size a ≤ S8x1024x512.size a) ∧
  (∀ a, (k0_off15 v75) a + S1x1x512.size a ≤ S8x1x512.size a)
instance k0_chk3.dec : ∀ (v75 : BitVec 32), Decidable (k0_chk3 v75) := fun v75 => decidable_of_iff' _ (Iff.of_eq (k0_chk3.eq_1 v75))
theorem k0_off12_inb : ∀ (v75 : BitVec 32) (k0_hw3 : k0_chk3 v75), ∀ a, (k0_off12 v75) a + S1x512x1024.size a ≤ S8x512x1024.size a := fun v75 k0_hw3 => k0_hw3.1
theorem k0_off13_inb : ∀ (v75 : BitVec 32) (k0_hw3 : k0_chk3 v75), ∀ a, (k0_off13 v75) a + S1x1x1024.size a ≤ S8x1x1024.size a := fun v75 k0_hw3 => k0_hw3.2.1
theorem k0_off14_inb : ∀ (v75 : BitVec 32) (k0_hw3 : k0_chk3 v75), ∀ a, (k0_off14 v75) a + S1x1024x512.size a ≤ S8x1024x512.size a := fun v75 k0_hw3 => k0_hw3.2.2.1
theorem k0_off15_inb : ∀ (v75 : BitVec 32) (k0_hw3 : k0_chk3 v75), ∀ a, (k0_off15 v75) a + S1x1x512.size a ≤ S8x1x512.size a := fun v75 k0_hw3 => k0_hw3.2.2.2

def k0_off16 (i : grid0.Coords) : Fin 1 → Nat :=
  let arg0 : BitVec 32 := BitVec.ofNat 32 (i 0).val
  let c16_i32 : BitVec 32 := 16#32
  let v0 : BitVec 32 := Scalar.muli arg0 c16_i32
  let c3_i32 : BitVec 32 := 3#32
  let v109 : BitVec 32 := Scalar.addi v0 c3_i32
  let v110 : Index := Scalar.indexCast v109
  ![v110.toNat]
def k0_off17 (v111 : BitVec 32) : Fin 3 → Nat :=
  let v116 : Index := Scalar.indexCast v111
  let c0_48 : Index := 0#32
  let c0_49 : Index := 0#32
  ![v116.toNat, 0, 0]

def k0_off18 (v111 : BitVec 32) : Fin 3 → Nat :=
  let v119 : Index := Scalar.indexCast v111
  let c0_50 : Index := 0#32
  let c0_51 : Index := 0#32
  ![v119.toNat, 0, 0]
def k0_off19 (v111 : BitVec 32) : Fin 3 → Nat :=
  let v132 : Index := Scalar.indexCast v111
  let c0_55 : Index := 0#32
  let c0_56 : Index := 0#32
  ![v132.toNat, 0, 0]
def k0_off20 (v111 : BitVec 32) : Fin 3 → Nat :=
  let v135 : Index := Scalar.indexCast v111
  let c0_57 : Index := 0#32
  let c0_58 : Index := 0#32
  ![v135.toNat, 0, 0]

def k0_chk4 (v111 : BitVec 32) : Prop :=
  (∀ a, (k0_off17 v111) a + S1x512x1024.size a ≤ S8x512x1024.size a) ∧
  (∀ a, (k0_off18 v111) a + S1x1x1024.size a ≤ S8x1x1024.size a) ∧
  (∀ a, (k0_off19 v111) a + S1x1024x512.size a ≤ S8x1024x512.size a) ∧
  (∀ a, (k0_off20 v111) a + S1x1x512.size a ≤ S8x1x512.size a)
instance k0_chk4.dec : ∀ (v111 : BitVec 32), Decidable (k0_chk4 v111) := fun v111 => decidable_of_iff' _ (Iff.of_eq (k0_chk4.eq_1 v111))
theorem k0_off17_inb : ∀ (v111 : BitVec 32) (k0_hw4 : k0_chk4 v111), ∀ a, (k0_off17 v111) a + S1x512x1024.size a ≤ S8x512x1024.size a := fun v111 k0_hw4 => k0_hw4.1
theorem k0_off18_inb : ∀ (v111 : BitVec 32) (k0_hw4 : k0_chk4 v111), ∀ a, (k0_off18 v111) a + S1x1x1024.size a ≤ S8x1x1024.size a := fun v111 k0_hw4 => k0_hw4.2.1
theorem k0_off19_inb : ∀ (v111 : BitVec 32) (k0_hw4 : k0_chk4 v111), ∀ a, (k0_off19 v111) a + S1x1024x512.size a ≤ S8x1024x512.size a := fun v111 k0_hw4 => k0_hw4.2.2.1
theorem k0_off20_inb : ∀ (v111 : BitVec 32) (k0_hw4 : k0_chk4 v111), ∀ a, (k0_off20 v111) a + S1x1x512.size a ≤ S8x1x512.size a := fun v111 k0_hw4 => k0_hw4.2.2.2

def k0_off21 (i : grid0.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v145 : BitVec 32 := Scalar.addi v0 c4_i32
  let v146 : Index := Scalar.indexCast v145
  ![v146.toNat]
def k0_off22 (v147 : BitVec 32) : Fin 3 → Nat :=
  let v152 : Index := Scalar.indexCast v147
  let c0_64 : Index := 0#32
  let c0_65 : Index := 0#32
  ![v152.toNat, 0, 0]

def k0_off23 (v147 : BitVec 32) : Fin 3 → Nat :=
  let v155 : Index := Scalar.indexCast v147
  let c0_66 : Index := 0#32
  let c0_67 : Index := 0#32
  ![v155.toNat, 0, 0]
def k0_off24 (v147 : BitVec 32) : Fin 3 → Nat :=
  let v168 : Index := Scalar.indexCast v147
  let c0_71 : Index := 0#32
  let c0_72 : Index := 0#32
  ![v168.toNat, 0, 0]
def k0_off25 (v147 : BitVec 32) : Fin 3 → Nat :=
  let v171 : Index := Scalar.indexCast v147
  let c0_73 : Index := 0#32
  let c0_74 : Index := 0#32
  ![v171.toNat, 0, 0]

def k0_chk5 (v147 : BitVec 32) : Prop :=
  (∀ a, (k0_off22 v147) a + S1x512x1024.size a ≤ S8x512x1024.size a) ∧
  (∀ a, (k0_off23 v147) a + S1x1x1024.size a ≤ S8x1x1024.size a) ∧
  (∀ a, (k0_off24 v147) a + S1x1024x512.size a ≤ S8x1024x512.size a) ∧
  (∀ a, (k0_off25 v147) a + S1x1x512.size a ≤ S8x1x512.size a)
instance k0_chk5.dec : ∀ (v147 : BitVec 32), Decidable (k0_chk5 v147) := fun v147 => decidable_of_iff' _ (Iff.of_eq (k0_chk5.eq_1 v147))
theorem k0_off22_inb : ∀ (v147 : BitVec 32) (k0_hw5 : k0_chk5 v147), ∀ a, (k0_off22 v147) a + S1x512x1024.size a ≤ S8x512x1024.size a := fun v147 k0_hw5 => k0_hw5.1
theorem k0_off23_inb : ∀ (v147 : BitVec 32) (k0_hw5 : k0_chk5 v147), ∀ a, (k0_off23 v147) a + S1x1x1024.size a ≤ S8x1x1024.size a := fun v147 k0_hw5 => k0_hw5.2.1
theorem k0_off24_inb : ∀ (v147 : BitVec 32) (k0_hw5 : k0_chk5 v147), ∀ a, (k0_off24 v147) a + S1x1024x512.size a ≤ S8x1024x512.size a := fun v147 k0_hw5 => k0_hw5.2.2.1
theorem k0_off25_inb : ∀ (v147 : BitVec 32) (k0_hw5 : k0_chk5 v147), ∀ a, (k0_off25 v147) a + S1x1x512.size a ≤ S8x1x512.size a := fun v147 k0_hw5 => k0_hw5.2.2.2

def k0_off26 (i : grid0.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v181 : BitVec 32 := Scalar.addi v0 c5_i32
  let v182 : Index := Scalar.indexCast v181
  ![v182.toNat]
def k0_off27 (v183 : BitVec 32) : Fin 3 → Nat :=
  let v188 : Index := Scalar.indexCast v183
  let c0_80 : Index := 0#32
  let c0_81 : Index := 0#32
  ![v188.toNat, 0, 0]

def k0_off28 (v183 : BitVec 32) : Fin 3 → Nat :=
  let v191 : Index := Scalar.indexCast v183
  let c0_82 : Index := 0#32
  let c0_83 : Index := 0#32
  ![v191.toNat, 0, 0]
def k0_off29 (v183 : BitVec 32) : Fin 3 → Nat :=
  let v204 : Index := Scalar.indexCast v183
  let c0_87 : Index := 0#32
  let c0_88 : Index := 0#32
  ![v204.toNat, 0, 0]
def k0_off30 (v183 : BitVec 32) : Fin 3 → Nat :=
  let v207 : Index := Scalar.indexCast v183
  let c0_89 : Index := 0#32
  let c0_90 : Index := 0#32
  ![v207.toNat, 0, 0]

def k0_chk6 (v183 : BitVec 32) : Prop :=
  (∀ a, (k0_off27 v183) a + S1x512x1024.size a ≤ S8x512x1024.size a) ∧
  (∀ a, (k0_off28 v183) a + S1x1x1024.size a ≤ S8x1x1024.size a) ∧
  (∀ a, (k0_off29 v183) a + S1x1024x512.size a ≤ S8x1024x512.size a) ∧
  (∀ a, (k0_off30 v183) a + S1x1x512.size a ≤ S8x1x512.size a)
instance k0_chk6.dec : ∀ (v183 : BitVec 32), Decidable (k0_chk6 v183) := fun v183 => decidable_of_iff' _ (Iff.of_eq (k0_chk6.eq_1 v183))
theorem k0_off27_inb : ∀ (v183 : BitVec 32) (k0_hw6 : k0_chk6 v183), ∀ a, (k0_off27 v183) a + S1x512x1024.size a ≤ S8x512x1024.size a := fun v183 k0_hw6 => k0_hw6.1
theorem k0_off28_inb : ∀ (v183 : BitVec 32) (k0_hw6 : k0_chk6 v183), ∀ a, (k0_off28 v183) a + S1x1x1024.size a ≤ S8x1x1024.size a := fun v183 k0_hw6 => k0_hw6.2.1
theorem k0_off29_inb : ∀ (v183 : BitVec 32) (k0_hw6 : k0_chk6 v183), ∀ a, (k0_off29 v183) a + S1x1024x512.size a ≤ S8x1024x512.size a := fun v183 k0_hw6 => k0_hw6.2.2.1
theorem k0_off30_inb : ∀ (v183 : BitVec 32) (k0_hw6 : k0_chk6 v183), ∀ a, (k0_off30 v183) a + S1x1x512.size a ≤ S8x1x512.size a := fun v183 k0_hw6 => k0_hw6.2.2.2

def k0_off31 (i : grid0.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v217 : BitVec 32 := Scalar.addi v0 c6_i32
  let v218 : Index := Scalar.indexCast v217
  ![v218.toNat]
def k0_off32 (v219 : BitVec 32) : Fin 3 → Nat :=
  let v224 : Index := Scalar.indexCast v219
  let c0_96 : Index := 0#32
  let c0_97 : Index := 0#32
  ![v224.toNat, 0, 0]

def k0_off33 (v219 : BitVec 32) : Fin 3 → Nat :=
  let v227 : Index := Scalar.indexCast v219
  let c0_98 : Index := 0#32
  let c0_99 : Index := 0#32
  ![v227.toNat, 0, 0]
def k0_off34 (v219 : BitVec 32) : Fin 3 → Nat :=
  let v240 : Index := Scalar.indexCast v219
  let c0_103 : Index := 0#32
  let c0_104 : Index := 0#32
  ![v240.toNat, 0, 0]
def k0_off35 (v219 : BitVec 32) : Fin 3 → Nat :=
  let v243 : Index := Scalar.indexCast v219
  let c0_105 : Index := 0#32
  let c0_106 : Index := 0#32
  ![v243.toNat, 0, 0]

def k0_chk7 (v219 : BitVec 32) : Prop :=
  (∀ a, (k0_off32 v219) a + S1x512x1024.size a ≤ S8x512x1024.size a) ∧
  (∀ a, (k0_off33 v219) a + S1x1x1024.size a ≤ S8x1x1024.size a) ∧
  (∀ a, (k0_off34 v219) a + S1x1024x512.size a ≤ S8x1024x512.size a) ∧
  (∀ a, (k0_off35 v219) a + S1x1x512.size a ≤ S8x1x512.size a)
instance k0_chk7.dec : ∀ (v219 : BitVec 32), Decidable (k0_chk7 v219) := fun v219 => decidable_of_iff' _ (Iff.of_eq (k0_chk7.eq_1 v219))
theorem k0_off32_inb : ∀ (v219 : BitVec 32) (k0_hw7 : k0_chk7 v219), ∀ a, (k0_off32 v219) a + S1x512x1024.size a ≤ S8x512x1024.size a := fun v219 k0_hw7 => k0_hw7.1
theorem k0_off33_inb : ∀ (v219 : BitVec 32) (k0_hw7 : k0_chk7 v219), ∀ a, (k0_off33 v219) a + S1x1x1024.size a ≤ S8x1x1024.size a := fun v219 k0_hw7 => k0_hw7.2.1
theorem k0_off34_inb : ∀ (v219 : BitVec 32) (k0_hw7 : k0_chk7 v219), ∀ a, (k0_off34 v219) a + S1x1024x512.size a ≤ S8x1024x512.size a := fun v219 k0_hw7 => k0_hw7.2.2.1
theorem k0_off35_inb : ∀ (v219 : BitVec 32) (k0_hw7 : k0_chk7 v219), ∀ a, (k0_off35 v219) a + S1x1x512.size a ≤ S8x1x512.size a := fun v219 k0_hw7 => k0_hw7.2.2.2

def k0_off36 (i : grid0.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v253 : BitVec 32 := Scalar.addi v0 c7_i32
  let v254 : Index := Scalar.indexCast v253
  ![v254.toNat]
def k0_off37 (v255 : BitVec 32) : Fin 3 → Nat :=
  let v260 : Index := Scalar.indexCast v255
  let c0_112 : Index := 0#32
  let c0_113 : Index := 0#32
  ![v260.toNat, 0, 0]

def k0_off38 (v255 : BitVec 32) : Fin 3 → Nat :=
  let v263 : Index := Scalar.indexCast v255
  let c0_114 : Index := 0#32
  let c0_115 : Index := 0#32
  ![v263.toNat, 0, 0]
def k0_off39 (v255 : BitVec 32) : Fin 3 → Nat :=
  let v276 : Index := Scalar.indexCast v255
  let c0_119 : Index := 0#32
  let c0_120 : Index := 0#32
  ![v276.toNat, 0, 0]
def k0_off40 (v255 : BitVec 32) : Fin 3 → Nat :=
  let v279 : Index := Scalar.indexCast v255
  let c0_121 : Index := 0#32
  let c0_122 : Index := 0#32
  ![v279.toNat, 0, 0]

def k0_chk8 (v255 : BitVec 32) : Prop :=
  (∀ a, (k0_off37 v255) a + S1x512x1024.size a ≤ S8x512x1024.size a) ∧
  (∀ a, (k0_off38 v255) a + S1x1x1024.size a ≤ S8x1x1024.size a) ∧
  (∀ a, (k0_off39 v255) a + S1x1024x512.size a ≤ S8x1024x512.size a) ∧
  (∀ a, (k0_off40 v255) a + S1x1x512.size a ≤ S8x1x512.size a)
instance k0_chk8.dec : ∀ (v255 : BitVec 32), Decidable (k0_chk8 v255) := fun v255 => decidable_of_iff' _ (Iff.of_eq (k0_chk8.eq_1 v255))
theorem k0_off37_inb : ∀ (v255 : BitVec 32) (k0_hw8 : k0_chk8 v255), ∀ a, (k0_off37 v255) a + S1x512x1024.size a ≤ S8x512x1024.size a := fun v255 k0_hw8 => k0_hw8.1
theorem k0_off38_inb : ∀ (v255 : BitVec 32) (k0_hw8 : k0_chk8 v255), ∀ a, (k0_off38 v255) a + S1x1x1024.size a ≤ S8x1x1024.size a := fun v255 k0_hw8 => k0_hw8.2.1
theorem k0_off39_inb : ∀ (v255 : BitVec 32) (k0_hw8 : k0_chk8 v255), ∀ a, (k0_off39 v255) a + S1x1024x512.size a ≤ S8x1024x512.size a := fun v255 k0_hw8 => k0_hw8.2.2.1
theorem k0_off40_inb : ∀ (v255 : BitVec 32) (k0_hw8 : k0_chk8 v255), ∀ a, (k0_off40 v255) a + S1x1x512.size a ≤ S8x1x512.size a := fun v255 k0_hw8 => k0_hw8.2.2.2

def k0_off41 (i : grid0.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v289 : BitVec 32 := Scalar.addi v0 c8_i32
  let v290 : Index := Scalar.indexCast v289
  ![v290.toNat]
def k0_off42 (v291 : BitVec 32) : Fin 3 → Nat :=
  let v296 : Index := Scalar.indexCast v291
  let c0_128 : Index := 0#32
  let c0_129 : Index := 0#32
  ![v296.toNat, 0, 0]

def k0_off43 (v291 : BitVec 32) : Fin 3 → Nat :=
  let v299 : Index := Scalar.indexCast v291
  let c0_130 : Index := 0#32
  let c0_131 : Index := 0#32
  ![v299.toNat, 0, 0]
def k0_off44 (v291 : BitVec 32) : Fin 3 → Nat :=
  let v312 : Index := Scalar.indexCast v291
  let c0_135 : Index := 0#32
  let c0_136 : Index := 0#32
  ![v312.toNat, 0, 0]
def k0_off45 (v291 : BitVec 32) : Fin 3 → Nat :=
  let v315 : Index := Scalar.indexCast v291
  let c0_137 : Index := 0#32
  let c0_138 : Index := 0#32
  ![v315.toNat, 0, 0]

def k0_chk9 (v291 : BitVec 32) : Prop :=
  (∀ a, (k0_off42 v291) a + S1x512x1024.size a ≤ S8x512x1024.size a) ∧
  (∀ a, (k0_off43 v291) a + S1x1x1024.size a ≤ S8x1x1024.size a) ∧
  (∀ a, (k0_off44 v291) a + S1x1024x512.size a ≤ S8x1024x512.size a) ∧
  (∀ a, (k0_off45 v291) a + S1x1x512.size a ≤ S8x1x512.size a)
instance k0_chk9.dec : ∀ (v291 : BitVec 32), Decidable (k0_chk9 v291) := fun v291 => decidable_of_iff' _ (Iff.of_eq (k0_chk9.eq_1 v291))
theorem k0_off42_inb : ∀ (v291 : BitVec 32) (k0_hw9 : k0_chk9 v291), ∀ a, (k0_off42 v291) a + S1x512x1024.size a ≤ S8x512x1024.size a := fun v291 k0_hw9 => k0_hw9.1
theorem k0_off43_inb : ∀ (v291 : BitVec 32) (k0_hw9 : k0_chk9 v291), ∀ a, (k0_off43 v291) a + S1x1x1024.size a ≤ S8x1x1024.size a := fun v291 k0_hw9 => k0_hw9.2.1
theorem k0_off44_inb : ∀ (v291 : BitVec 32) (k0_hw9 : k0_chk9 v291), ∀ a, (k0_off44 v291) a + S1x1024x512.size a ≤ S8x1024x512.size a := fun v291 k0_hw9 => k0_hw9.2.2.1
theorem k0_off45_inb : ∀ (v291 : BitVec 32) (k0_hw9 : k0_chk9 v291), ∀ a, (k0_off45 v291) a + S1x1x512.size a ≤ S8x1x512.size a := fun v291 k0_hw9 => k0_hw9.2.2.2

def k0_off46 (i : grid0.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v325 : BitVec 32 := Scalar.addi v0 c9_i32
  let v326 : Index := Scalar.indexCast v325
  ![v326.toNat]
def k0_off47 (v327 : BitVec 32) : Fin 3 → Nat :=
  let v332 : Index := Scalar.indexCast v327
  let c0_144 : Index := 0#32
  let c0_145 : Index := 0#32
  ![v332.toNat, 0, 0]

def k0_off48 (v327 : BitVec 32) : Fin 3 → Nat :=
  let v335 : Index := Scalar.indexCast v327
  let c0_146 : Index := 0#32
  let c0_147 : Index := 0#32
  ![v335.toNat, 0, 0]
def k0_off49 (v327 : BitVec 32) : Fin 3 → Nat :=
  let v348 : Index := Scalar.indexCast v327
  let c0_151 : Index := 0#32
  let c0_152 : Index := 0#32
  ![v348.toNat, 0, 0]
def k0_off50 (v327 : BitVec 32) : Fin 3 → Nat :=
  let v351 : Index := Scalar.indexCast v327
  let c0_153 : Index := 0#32
  let c0_154 : Index := 0#32
  ![v351.toNat, 0, 0]

def k0_chk10 (v327 : BitVec 32) : Prop :=
  (∀ a, (k0_off47 v327) a + S1x512x1024.size a ≤ S8x512x1024.size a) ∧
  (∀ a, (k0_off48 v327) a + S1x1x1024.size a ≤ S8x1x1024.size a) ∧
  (∀ a, (k0_off49 v327) a + S1x1024x512.size a ≤ S8x1024x512.size a) ∧
  (∀ a, (k0_off50 v327) a + S1x1x512.size a ≤ S8x1x512.size a)
instance k0_chk10.dec : ∀ (v327 : BitVec 32), Decidable (k0_chk10 v327) := fun v327 => decidable_of_iff' _ (Iff.of_eq (k0_chk10.eq_1 v327))
theorem k0_off47_inb : ∀ (v327 : BitVec 32) (k0_hw10 : k0_chk10 v327), ∀ a, (k0_off47 v327) a + S1x512x1024.size a ≤ S8x512x1024.size a := fun v327 k0_hw10 => k0_hw10.1
theorem k0_off48_inb : ∀ (v327 : BitVec 32) (k0_hw10 : k0_chk10 v327), ∀ a, (k0_off48 v327) a + S1x1x1024.size a ≤ S8x1x1024.size a := fun v327 k0_hw10 => k0_hw10.2.1
theorem k0_off49_inb : ∀ (v327 : BitVec 32) (k0_hw10 : k0_chk10 v327), ∀ a, (k0_off49 v327) a + S1x1024x512.size a ≤ S8x1024x512.size a := fun v327 k0_hw10 => k0_hw10.2.2.1
theorem k0_off50_inb : ∀ (v327 : BitVec 32) (k0_hw10 : k0_chk10 v327), ∀ a, (k0_off50 v327) a + S1x1x512.size a ≤ S8x1x512.size a := fun v327 k0_hw10 => k0_hw10.2.2.2

def k0_off51 (i : grid0.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v361 : BitVec 32 := Scalar.addi v0 c10_i32
  let v362 : Index := Scalar.indexCast v361
  ![v362.toNat]
def k0_off52 (v363 : BitVec 32) : Fin 3 → Nat :=
  let v368 : Index := Scalar.indexCast v363
  let c0_160 : Index := 0#32
  let c0_161 : Index := 0#32
  ![v368.toNat, 0, 0]

def k0_off53 (v363 : BitVec 32) : Fin 3 → Nat :=
  let v371 : Index := Scalar.indexCast v363
  let c0_162 : Index := 0#32
  let c0_163 : Index := 0#32
  ![v371.toNat, 0, 0]
def k0_off54 (v363 : BitVec 32) : Fin 3 → Nat :=
  let v384 : Index := Scalar.indexCast v363
  let c0_167 : Index := 0#32
  let c0_168 : Index := 0#32
  ![v384.toNat, 0, 0]
def k0_off55 (v363 : BitVec 32) : Fin 3 → Nat :=
  let v387 : Index := Scalar.indexCast v363
  let c0_169 : Index := 0#32
  let c0_170 : Index := 0#32
  ![v387.toNat, 0, 0]

def k0_chk11 (v363 : BitVec 32) : Prop :=
  (∀ a, (k0_off52 v363) a + S1x512x1024.size a ≤ S8x512x1024.size a) ∧
  (∀ a, (k0_off53 v363) a + S1x1x1024.size a ≤ S8x1x1024.size a) ∧
  (∀ a, (k0_off54 v363) a + S1x1024x512.size a ≤ S8x1024x512.size a) ∧
  (∀ a, (k0_off55 v363) a + S1x1x512.size a ≤ S8x1x512.size a)
instance k0_chk11.dec : ∀ (v363 : BitVec 32), Decidable (k0_chk11 v363) := fun v363 => decidable_of_iff' _ (Iff.of_eq (k0_chk11.eq_1 v363))
theorem k0_off52_inb : ∀ (v363 : BitVec 32) (k0_hw11 : k0_chk11 v363), ∀ a, (k0_off52 v363) a + S1x512x1024.size a ≤ S8x512x1024.size a := fun v363 k0_hw11 => k0_hw11.1
theorem k0_off53_inb : ∀ (v363 : BitVec 32) (k0_hw11 : k0_chk11 v363), ∀ a, (k0_off53 v363) a + S1x1x1024.size a ≤ S8x1x1024.size a := fun v363 k0_hw11 => k0_hw11.2.1
theorem k0_off54_inb : ∀ (v363 : BitVec 32) (k0_hw11 : k0_chk11 v363), ∀ a, (k0_off54 v363) a + S1x1024x512.size a ≤ S8x1024x512.size a := fun v363 k0_hw11 => k0_hw11.2.2.1
theorem k0_off55_inb : ∀ (v363 : BitVec 32) (k0_hw11 : k0_chk11 v363), ∀ a, (k0_off55 v363) a + S1x1x512.size a ≤ S8x1x512.size a := fun v363 k0_hw11 => k0_hw11.2.2.2

def k0_off56 (i : grid0.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v397 : BitVec 32 := Scalar.addi v0 c11_i32
  let v398 : Index := Scalar.indexCast v397
  ![v398.toNat]
def k0_off57 (v399 : BitVec 32) : Fin 3 → Nat :=
  let v404 : Index := Scalar.indexCast v399
  let c0_176 : Index := 0#32
  let c0_177 : Index := 0#32
  ![v404.toNat, 0, 0]

def k0_off58 (v399 : BitVec 32) : Fin 3 → Nat :=
  let v407 : Index := Scalar.indexCast v399
  let c0_178 : Index := 0#32
  let c0_179 : Index := 0#32
  ![v407.toNat, 0, 0]
def k0_off59 (v399 : BitVec 32) : Fin 3 → Nat :=
  let v420 : Index := Scalar.indexCast v399
  let c0_183 : Index := 0#32
  let c0_184 : Index := 0#32
  ![v420.toNat, 0, 0]
def k0_off60 (v399 : BitVec 32) : Fin 3 → Nat :=
  let v423 : Index := Scalar.indexCast v399
  let c0_185 : Index := 0#32
  let c0_186 : Index := 0#32
  ![v423.toNat, 0, 0]

def k0_chk12 (v399 : BitVec 32) : Prop :=
  (∀ a, (k0_off57 v399) a + S1x512x1024.size a ≤ S8x512x1024.size a) ∧
  (∀ a, (k0_off58 v399) a + S1x1x1024.size a ≤ S8x1x1024.size a) ∧
  (∀ a, (k0_off59 v399) a + S1x1024x512.size a ≤ S8x1024x512.size a) ∧
  (∀ a, (k0_off60 v399) a + S1x1x512.size a ≤ S8x1x512.size a)
instance k0_chk12.dec : ∀ (v399 : BitVec 32), Decidable (k0_chk12 v399) := fun v399 => decidable_of_iff' _ (Iff.of_eq (k0_chk12.eq_1 v399))
theorem k0_off57_inb : ∀ (v399 : BitVec 32) (k0_hw12 : k0_chk12 v399), ∀ a, (k0_off57 v399) a + S1x512x1024.size a ≤ S8x512x1024.size a := fun v399 k0_hw12 => k0_hw12.1
theorem k0_off58_inb : ∀ (v399 : BitVec 32) (k0_hw12 : k0_chk12 v399), ∀ a, (k0_off58 v399) a + S1x1x1024.size a ≤ S8x1x1024.size a := fun v399 k0_hw12 => k0_hw12.2.1
theorem k0_off59_inb : ∀ (v399 : BitVec 32) (k0_hw12 : k0_chk12 v399), ∀ a, (k0_off59 v399) a + S1x1024x512.size a ≤ S8x1024x512.size a := fun v399 k0_hw12 => k0_hw12.2.2.1
theorem k0_off60_inb : ∀ (v399 : BitVec 32) (k0_hw12 : k0_chk12 v399), ∀ a, (k0_off60 v399) a + S1x1x512.size a ≤ S8x1x512.size a := fun v399 k0_hw12 => k0_hw12.2.2.2

def k0_off61 (i : grid0.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v433 : BitVec 32 := Scalar.addi v0 c12_i32
  let v434 : Index := Scalar.indexCast v433
  ![v434.toNat]
def k0_off62 (v435 : BitVec 32) : Fin 3 → Nat :=
  let v440 : Index := Scalar.indexCast v435
  let c0_192 : Index := 0#32
  let c0_193 : Index := 0#32
  ![v440.toNat, 0, 0]

def k0_off63 (v435 : BitVec 32) : Fin 3 → Nat :=
  let v443 : Index := Scalar.indexCast v435
  let c0_194 : Index := 0#32
  let c0_195 : Index := 0#32
  ![v443.toNat, 0, 0]
def k0_off64 (v435 : BitVec 32) : Fin 3 → Nat :=
  let v456 : Index := Scalar.indexCast v435
  let c0_199 : Index := 0#32
  let c0_200 : Index := 0#32
  ![v456.toNat, 0, 0]
def k0_off65 (v435 : BitVec 32) : Fin 3 → Nat :=
  let v459 : Index := Scalar.indexCast v435
  let c0_201 : Index := 0#32
  let c0_202 : Index := 0#32
  ![v459.toNat, 0, 0]

def k0_chk13 (v435 : BitVec 32) : Prop :=
  (∀ a, (k0_off62 v435) a + S1x512x1024.size a ≤ S8x512x1024.size a) ∧
  (∀ a, (k0_off63 v435) a + S1x1x1024.size a ≤ S8x1x1024.size a) ∧
  (∀ a, (k0_off64 v435) a + S1x1024x512.size a ≤ S8x1024x512.size a) ∧
  (∀ a, (k0_off65 v435) a + S1x1x512.size a ≤ S8x1x512.size a)
instance k0_chk13.dec : ∀ (v435 : BitVec 32), Decidable (k0_chk13 v435) := fun v435 => decidable_of_iff' _ (Iff.of_eq (k0_chk13.eq_1 v435))
theorem k0_off62_inb : ∀ (v435 : BitVec 32) (k0_hw13 : k0_chk13 v435), ∀ a, (k0_off62 v435) a + S1x512x1024.size a ≤ S8x512x1024.size a := fun v435 k0_hw13 => k0_hw13.1
theorem k0_off63_inb : ∀ (v435 : BitVec 32) (k0_hw13 : k0_chk13 v435), ∀ a, (k0_off63 v435) a + S1x1x1024.size a ≤ S8x1x1024.size a := fun v435 k0_hw13 => k0_hw13.2.1
theorem k0_off64_inb : ∀ (v435 : BitVec 32) (k0_hw13 : k0_chk13 v435), ∀ a, (k0_off64 v435) a + S1x1024x512.size a ≤ S8x1024x512.size a := fun v435 k0_hw13 => k0_hw13.2.2.1
theorem k0_off65_inb : ∀ (v435 : BitVec 32) (k0_hw13 : k0_chk13 v435), ∀ a, (k0_off65 v435) a + S1x1x512.size a ≤ S8x1x512.size a := fun v435 k0_hw13 => k0_hw13.2.2.2

def k0_off66 (i : grid0.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v469 : BitVec 32 := Scalar.addi v0 c13_i32
  let v470 : Index := Scalar.indexCast v469
  ![v470.toNat]
def k0_off67 (v471 : BitVec 32) : Fin 3 → Nat :=
  let v476 : Index := Scalar.indexCast v471
  let c0_208 : Index := 0#32
  let c0_209 : Index := 0#32
  ![v476.toNat, 0, 0]

def k0_off68 (v471 : BitVec 32) : Fin 3 → Nat :=
  let v479 : Index := Scalar.indexCast v471
  let c0_210 : Index := 0#32
  let c0_211 : Index := 0#32
  ![v479.toNat, 0, 0]
def k0_off69 (v471 : BitVec 32) : Fin 3 → Nat :=
  let v492 : Index := Scalar.indexCast v471
  let c0_215 : Index := 0#32
  let c0_216 : Index := 0#32
  ![v492.toNat, 0, 0]
def k0_off70 (v471 : BitVec 32) : Fin 3 → Nat :=
  let v495 : Index := Scalar.indexCast v471
  let c0_217 : Index := 0#32
  let c0_218 : Index := 0#32
  ![v495.toNat, 0, 0]

def k0_chk14 (v471 : BitVec 32) : Prop :=
  (∀ a, (k0_off67 v471) a + S1x512x1024.size a ≤ S8x512x1024.size a) ∧
  (∀ a, (k0_off68 v471) a + S1x1x1024.size a ≤ S8x1x1024.size a) ∧
  (∀ a, (k0_off69 v471) a + S1x1024x512.size a ≤ S8x1024x512.size a) ∧
  (∀ a, (k0_off70 v471) a + S1x1x512.size a ≤ S8x1x512.size a)
instance k0_chk14.dec : ∀ (v471 : BitVec 32), Decidable (k0_chk14 v471) := fun v471 => decidable_of_iff' _ (Iff.of_eq (k0_chk14.eq_1 v471))
theorem k0_off67_inb : ∀ (v471 : BitVec 32) (k0_hw14 : k0_chk14 v471), ∀ a, (k0_off67 v471) a + S1x512x1024.size a ≤ S8x512x1024.size a := fun v471 k0_hw14 => k0_hw14.1
theorem k0_off68_inb : ∀ (v471 : BitVec 32) (k0_hw14 : k0_chk14 v471), ∀ a, (k0_off68 v471) a + S1x1x1024.size a ≤ S8x1x1024.size a := fun v471 k0_hw14 => k0_hw14.2.1
theorem k0_off69_inb : ∀ (v471 : BitVec 32) (k0_hw14 : k0_chk14 v471), ∀ a, (k0_off69 v471) a + S1x1024x512.size a ≤ S8x1024x512.size a := fun v471 k0_hw14 => k0_hw14.2.2.1
theorem k0_off70_inb : ∀ (v471 : BitVec 32) (k0_hw14 : k0_chk14 v471), ∀ a, (k0_off70 v471) a + S1x1x512.size a ≤ S8x1x512.size a := fun v471 k0_hw14 => k0_hw14.2.2.2

def k0_off71 (i : grid0.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v505 : BitVec 32 := Scalar.addi v0 c14_i32
  let v506 : Index := Scalar.indexCast v505
  ![v506.toNat]
def k0_off72 (v507 : BitVec 32) : Fin 3 → Nat :=
  let v512 : Index := Scalar.indexCast v507
  let c0_224 : Index := 0#32
  let c0_225 : Index := 0#32
  ![v512.toNat, 0, 0]

def k0_off73 (v507 : BitVec 32) : Fin 3 → Nat :=
  let v515 : Index := Scalar.indexCast v507
  let c0_226 : Index := 0#32
  let c0_227 : Index := 0#32
  ![v515.toNat, 0, 0]
def k0_off74 (v507 : BitVec 32) : Fin 3 → Nat :=
  let v528 : Index := Scalar.indexCast v507
  let c0_231 : Index := 0#32
  let c0_232 : Index := 0#32
  ![v528.toNat, 0, 0]
def k0_off75 (v507 : BitVec 32) : Fin 3 → Nat :=
  let v531 : Index := Scalar.indexCast v507
  let c0_233 : Index := 0#32
  let c0_234 : Index := 0#32
  ![v531.toNat, 0, 0]

def k0_chk15 (v507 : BitVec 32) : Prop :=
  (∀ a, (k0_off72 v507) a + S1x512x1024.size a ≤ S8x512x1024.size a) ∧
  (∀ a, (k0_off73 v507) a + S1x1x1024.size a ≤ S8x1x1024.size a) ∧
  (∀ a, (k0_off74 v507) a + S1x1024x512.size a ≤ S8x1024x512.size a) ∧
  (∀ a, (k0_off75 v507) a + S1x1x512.size a ≤ S8x1x512.size a)
instance k0_chk15.dec : ∀ (v507 : BitVec 32), Decidable (k0_chk15 v507) := fun v507 => decidable_of_iff' _ (Iff.of_eq (k0_chk15.eq_1 v507))
theorem k0_off72_inb : ∀ (v507 : BitVec 32) (k0_hw15 : k0_chk15 v507), ∀ a, (k0_off72 v507) a + S1x512x1024.size a ≤ S8x512x1024.size a := fun v507 k0_hw15 => k0_hw15.1
theorem k0_off73_inb : ∀ (v507 : BitVec 32) (k0_hw15 : k0_chk15 v507), ∀ a, (k0_off73 v507) a + S1x1x1024.size a ≤ S8x1x1024.size a := fun v507 k0_hw15 => k0_hw15.2.1
theorem k0_off74_inb : ∀ (v507 : BitVec 32) (k0_hw15 : k0_chk15 v507), ∀ a, (k0_off74 v507) a + S1x1024x512.size a ≤ S8x1024x512.size a := fun v507 k0_hw15 => k0_hw15.2.2.1
theorem k0_off75_inb : ∀ (v507 : BitVec 32) (k0_hw15 : k0_chk15 v507), ∀ a, (k0_off75 v507) a + S1x1x512.size a ≤ S8x1x512.size a := fun v507 k0_hw15 => k0_hw15.2.2.2

def k0_off76 (i : grid0.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v541 : BitVec 32 := Scalar.addi v0 c15_i32
  let v542 : Index := Scalar.indexCast v541
  ![v542.toNat]
def k0_off77 (v543 : BitVec 32) : Fin 3 → Nat :=
  let v548 : Index := Scalar.indexCast v543
  let c0_240 : Index := 0#32
  let c0_241 : Index := 0#32
  ![v548.toNat, 0, 0]

def k0_off78 (v543 : BitVec 32) : Fin 3 → Nat :=
  let v551 : Index := Scalar.indexCast v543
  let c0_242 : Index := 0#32
  let c0_243 : Index := 0#32
  ![v551.toNat, 0, 0]
def k0_off79 (v543 : BitVec 32) : Fin 3 → Nat :=
  let v564 : Index := Scalar.indexCast v543
  let c0_247 : Index := 0#32
  let c0_248 : Index := 0#32
  ![v564.toNat, 0, 0]
def k0_off80 (v543 : BitVec 32) : Fin 3 → Nat :=
  let v567 : Index := Scalar.indexCast v543
  let c0_249 : Index := 0#32
  let c0_250 : Index := 0#32
  ![v567.toNat, 0, 0]

def k0_chk16 (v543 : BitVec 32) : Prop :=
  (∀ a, (k0_off77 v543) a + S1x512x1024.size a ≤ S8x512x1024.size a) ∧
  (∀ a, (k0_off78 v543) a + S1x1x1024.size a ≤ S8x1x1024.size a) ∧
  (∀ a, (k0_off79 v543) a + S1x1024x512.size a ≤ S8x1024x512.size a) ∧
  (∀ a, (k0_off80 v543) a + S1x1x512.size a ≤ S8x1x512.size a)
instance k0_chk16.dec : ∀ (v543 : BitVec 32), Decidable (k0_chk16 v543) := fun v543 => decidable_of_iff' _ (Iff.of_eq (k0_chk16.eq_1 v543))
theorem k0_off77_inb : ∀ (v543 : BitVec 32) (k0_hw16 : k0_chk16 v543), ∀ a, (k0_off77 v543) a + S1x512x1024.size a ≤ S8x512x1024.size a := fun v543 k0_hw16 => k0_hw16.1
theorem k0_off78_inb : ∀ (v543 : BitVec 32) (k0_hw16 : k0_chk16 v543), ∀ a, (k0_off78 v543) a + S1x1x1024.size a ≤ S8x1x1024.size a := fun v543 k0_hw16 => k0_hw16.2.1
theorem k0_off79_inb : ∀ (v543 : BitVec 32) (k0_hw16 : k0_chk16 v543), ∀ a, (k0_off79 v543) a + S1x1024x512.size a ≤ S8x1024x512.size a := fun v543 k0_hw16 => k0_hw16.2.2.1
theorem k0_off80_inb : ∀ (v543 : BitVec 32) (k0_hw16 : k0_chk16 v543), ∀ a, (k0_off80 v543) a + S1x1x512.size a ≤ S8x1x512.size a := fun v543 k0_hw16 => k0_hw16.2.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x100x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x100x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S128 : S_.BroadcastsInDim S128 (![] : Fin 0 → Fin S128.rank)
  bitsLt_bf16_f32 : FTy.bits .bf16 < FTy.bits .f32
  bcast_S8x1024_S8x1x1024_0_2 : S8x1024.BroadcastsInDim S8x1x1024 (![0, 2] : Fin 2 → Fin S8x1x1024.rank)
  bcast_S8x512_S8x1x512_0_2 : S8x512.BroadcastsInDim S8x1x512 (![0, 2] : Fin 2 → Fin S8x1x512.rank)
  numel1_S1 : S1.numel = 1
  inb_S16x100x512_S1x100x512_0_0_0 : ∀ a, (![0, 0, 0] : Fin 3 → Nat) a + S1x100x512.size a ≤ S16x100x512.size a
  h_S1x100x512 : 0 < S1x100x512.numel
  shapeCasts_S1x100x512_S100x512 : S1x100x512.ShapeCasts S100x512
  h_S1x512x1024 : 0 < S1x512x1024.numel
  shapeCasts_S1x512x1024_S512x1024 : S1x512x1024.ShapeCasts S512x1024
  h_S1x1x1024 : 0 < S1x1x1024.numel
  shapeCasts_S1x1x1024_S1x1024 : S1x1x1024.ShapeCasts S1x1024
  broadcasts_S1x1024_S100x1024 : S1x1024.Broadcasts S100x1024
  h_S1x1024x512 : 0 < S1x1024x512.numel
  shapeCasts_S1x1024x512_S1024x512 : S1x1024x512.ShapeCasts S1024x512
  h_S1x1x512 : 0 < S1x1x512.numel
  shapeCasts_S1x1x512_S1x512 : S1x1x512.ShapeCasts S1x512
  broadcasts_S1x512_S100x512 : S1x512.Broadcasts S100x512
  shapeCasts_S100x512_S1x100x512 : S100x512.ShapeCasts S1x100x512
  inb_S16x100x512_S1x100x512_1_0_0 : ∀ a, (![1, 0, 0] : Fin 3 → Nat) a + S1x100x512.size a ≤ S16x100x512.size a
  inb_S16x100x512_S1x100x512_2_0_0 : ∀ a, (![2, 0, 0] : Fin 3 → Nat) a + S1x100x512.size a ≤ S16x100x512.size a
  inb_S16x100x512_S1x100x512_3_0_0 : ∀ a, (![3, 0, 0] : Fin 3 → Nat) a + S1x100x512.size a ≤ S16x100x512.size a
  inb_S16x100x512_S1x100x512_4_0_0 : ∀ a, (![4, 0, 0] : Fin 3 → Nat) a + S1x100x512.size a ≤ S16x100x512.size a
  inb_S16x100x512_S1x100x512_5_0_0 : ∀ a, (![5, 0, 0] : Fin 3 → Nat) a + S1x100x512.size a ≤ S16x100x512.size a
  inb_S16x100x512_S1x100x512_6_0_0 : ∀ a, (![6, 0, 0] : Fin 3 → Nat) a + S1x100x512.size a ≤ S16x100x512.size a
  inb_S16x100x512_S1x100x512_7_0_0 : ∀ a, (![7, 0, 0] : Fin 3 → Nat) a + S1x100x512.size a ≤ S16x100x512.size a
  inb_S16x100x512_S1x100x512_8_0_0 : ∀ a, (![8, 0, 0] : Fin 3 → Nat) a + S1x100x512.size a ≤ S16x100x512.size a
  inb_S16x100x512_S1x100x512_9_0_0 : ∀ a, (![9, 0, 0] : Fin 3 → Nat) a + S1x100x512.size a ≤ S16x100x512.size a
  inb_S16x100x512_S1x100x512_10_0_0 : ∀ a, (![10, 0, 0] : Fin 3 → Nat) a + S1x100x512.size a ≤ S16x100x512.size a
  inb_S16x100x512_S1x100x512_11_0_0 : ∀ a, (![11, 0, 0] : Fin 3 → Nat) a + S1x100x512.size a ≤ S16x100x512.size a
  inb_S16x100x512_S1x100x512_12_0_0 : ∀ a, (![12, 0, 0] : Fin 3 → Nat) a + S1x100x512.size a ≤ S16x100x512.size a
  inb_S16x100x512_S1x100x512_13_0_0 : ∀ a, (![13, 0, 0] : Fin 3 → Nat) a + S1x100x512.size a ≤ S16x100x512.size a
  inb_S16x100x512_S1x100x512_14_0_0 : ∀ a, (![14, 0, 0] : Fin 3 → Nat) a + S1x100x512.size a ≤ S16x100x512.size a
  inb_S16x100x512_S1x100x512_15_0_0 : ∀ a, (![15, 0, 0] : Fin 3 → Nat) a + S1x100x512.size a ≤ S16x100x512.size a
  dot_S100x512_S512x1024_S100x1024_1_0_0_1_n_n_wf : DotDims.WF S100x512 S512x1024 S100x1024 [1] [0] [0] [1] [] []
  dot_S100x1024_S1024x512_S100x512_1_0_0_1_n_n_wf : DotDims.WF S100x1024 S1024x512 S100x512 [1] [0] [0] [1] [] []
  hrank0 : 0 < grid0.rank
  k0_off1_inb : ∀ i : grid0.Coords, ∀ a, (k0_off1 i) a + S1.size a ≤ S128.size a
  k0_off6_inb : ∀ i : grid0.Coords, ∀ a, (k0_off6 i) a + S1.size a ≤ S128.size a
  k0_off11_inb : ∀ i : grid0.Coords, ∀ a, (k0_off11 i) a + S1.size a ≤ S128.size a
  k0_off16_inb : ∀ i : grid0.Coords, ∀ a, (k0_off16 i) a + S1.size a ≤ S128.size a
  k0_off21_inb : ∀ i : grid0.Coords, ∀ a, (k0_off21 i) a + S1.size a ≤ S128.size a
  k0_off26_inb : ∀ i : grid0.Coords, ∀ a, (k0_off26 i) a + S1.size a ≤ S128.size a
  k0_off31_inb : ∀ i : grid0.Coords, ∀ a, (k0_off31 i) a + S1.size a ≤ S128.size a
  k0_off36_inb : ∀ i : grid0.Coords, ∀ a, (k0_off36 i) a + S1.size a ≤ S128.size a
  k0_off41_inb : ∀ i : grid0.Coords, ∀ a, (k0_off41 i) a + S1.size a ≤ S128.size a
  k0_off46_inb : ∀ i : grid0.Coords, ∀ a, (k0_off46 i) a + S1.size a ≤ S128.size a
  k0_off51_inb : ∀ i : grid0.Coords, ∀ a, (k0_off51 i) a + S1.size a ≤ S128.size a
  k0_off56_inb : ∀ i : grid0.Coords, ∀ a, (k0_off56 i) a + S1.size a ≤ S128.size a
  k0_off61_inb : ∀ i : grid0.Coords, ∀ a, (k0_off61 i) a + S1.size a ≤ S128.size a
  k0_off66_inb : ∀ i : grid0.Coords, ∀ a, (k0_off66 i) a + S1.size a ≤ S128.size a
  k0_off71_inb : ∀ i : grid0.Coords, ∀ a, (k0_off71 i) a + S1.size a ≤ S128.size a
  k0_off76_inb : ∀ i : grid0.Coords, ∀ a, (k0_off76 i) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x100x512.size a ≤ S128x100x512.size a
  hwx0_0 : ∀ i : grid0.Coords, EltTy.bits .f32 = 32 ∨ (Rect.block (s := S128x100x512) S16x100x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512x1024.size a ≤ S8x512x1024.size a
  hwx0_1 : ∀ i : grid0.Coords, EltTy.bits .bf16 = 32 ∨ (Rect.block (s := S8x512x1024) S8x512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1x1024.size a ≤ S8x1x1024.size a
  hwx0_2 : ∀ i : grid0.Coords, EltTy.bits .f32 = 32 ∨ (Rect.block (s := S8x1x1024) S8x1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1024x512.size a ≤ S8x1024x512.size a
  hwx0_3 : ∀ i : grid0.Coords, EltTy.bits .bf16 = 32 ∨ (Rect.block (s := S8x1024x512) S8x1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1x512.size a ≤ S8x1x512.size a
  hwx0_4 : ∀ i : grid0.Coords, EltTy.bits .f32 = 32 ∨ (Rect.block (s := S8x1x512) S8x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x100x512.size a ≤ S128x100x512.size a
  hwx0_5 : ∀ i : grid0.Coords, EltTy.bits .f32 = 32 ∨ (Rect.block (s := S128x100x512) S16x100x512.size (cc0_transform_5 i) (hinb0_5 i)).WholeWords (EltTy.packing .f32)

variable [Facts₀]

def dot_S100x512_S512x1024_S100x1024_1_0_0_1_n_n : DotDims S100x512 S512x1024 S100x1024 where
  lhsContracting := [1]
  rhsContracting := [0]
  lhsNonContracting := [0]
  rhsNonContracting := [1]
  lhsBatch := []
  rhsBatch := []
  wf := dot_S100x512_S512x1024_S100x1024_1_0_0_1_n_n_wf
def dot_S100x1024_S1024x512_S100x512_1_0_0_1_n_n : DotDims S100x1024 S1024x512 S100x512 where
  lhsContracting := [1]
  rhsContracting := [0]
  lhsNonContracting := [0]
  rhsNonContracting := [1]
  lhsBatch := []
  rhsBatch := []
  wf := dot_S100x1024_S1024x512_S100x512_1_0_0_1_n_n_wf

abbrev spec0_0 : Pipeline.WinSpec sig grid0.rank :=
  Pipeline.WinSpec.ofSpec (Memref.whole main_arg0) S16x100x512.size reads0_0 false false 2 stage0_0 sem0_0 nbuf0_0 hstage0_0

abbrev spec0_1 : Pipeline.WinSpec sig grid0.rank :=
  Pipeline.WinSpec.ofSpec (Memref.whole main_v1) S8x512x1024.size reads0_1 false true 1 stage0_1 sem0_1 nbuf0_1 hstage0_1

abbrev spec0_2 : Pipeline.WinSpec sig grid0.rank :=
  Pipeline.WinSpec.ofSpec (Memref.whole main_v3) S8x1x1024.size reads0_2 false true 1 stage0_2 sem0_2 nbuf0_2 hstage0_2

abbrev spec0_3 : Pipeline.WinSpec sig grid0.rank :=
  Pipeline.WinSpec.ofSpec (Memref.whole main_v2) S8x1024x512.size reads0_3 false true 1 stage0_3 sem0_3 nbuf0_3 hstage0_3

abbrev spec0_4 : Pipeline.WinSpec sig grid0.rank :=
  Pipeline.WinSpec.ofSpec (Memref.whole main_v4) S8x1x512.size reads0_4 false true 1 stage0_4 sem0_4 nbuf0_4 hstage0_4

abbrev spec0_5 : Pipeline.WinSpec sig grid0.rank :=
  Pipeline.WinSpec.ofSpec (Memref.whole main_v5) S16x100x512.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S128x100x512 : Shape := ⟨3, ![128, 100, 512]⟩
abbrev S128 : Shape := ⟨1, ![128]⟩
abbrev S8x512x1024 : Shape := ⟨3, ![8, 512, 1024]⟩
abbrev S8x1024 : Shape := ⟨2, ![8, 1024]⟩
abbrev S8x1024x512 : Shape := ⟨3, ![8, 1024, 512]⟩
abbrev S8x512 : Shape := ⟨2, ![8, 512]⟩
abbrev S_ : Shape := ⟨0, ![]⟩
abbrev S128x1 : Shape := ⟨2, ![128, 1]⟩
abbrev S128x512x1024 : Shape := ⟨3, ![128, 512, 1024]⟩
abbrev S128x100x1024 : Shape := ⟨3, ![128, 100, 1024]⟩
abbrev S128x1024 : Shape := ⟨2, ![128, 1024]⟩
abbrev S128x1x1024 : Shape := ⟨3, ![128, 1, 1024]⟩
abbrev S128x1024x512 : Shape := ⟨3, ![128, 1024, 512]⟩
abbrev S128x512 : Shape := ⟨2, ![128, 512]⟩
abbrev S128x1x512 : Shape := ⟨3, ![128, 1, 512]⟩

abbrev nBuf : Space → Nat
  | .hbm => 58
  | .vmem => 0
  | .smem => 0
  | _ => 0

abbrev bufTy : (tb : Table) → Fin (tcTables nBuf tb) → BufTy
  | .hbm, ⟨0, _⟩ => ⟨S128x100x512, .f32⟩
  | .hbm, ⟨1, _⟩ => ⟨S128, .i32⟩
  | .hbm, ⟨2, _⟩ => ⟨S8x512x1024, .f32⟩
  | .hbm, ⟨3, _⟩ => ⟨S8x1024, .f32⟩
  | .hbm, ⟨4, _⟩ => ⟨S8x1024x512, .f32⟩
  | .hbm, ⟨5, _⟩ => ⟨S8x512, .f32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S128x512x1024, .f32⟩
  | .hbm, ⟨15, _⟩ => ⟨S128x100x1024, .f32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S128x1, .i32⟩
  | .hbm, ⟨24, _⟩ => ⟨S128x1024, .f32⟩
  | .hbm, ⟨25, _⟩ => ⟨S128x1x1024, .f32⟩
  | .hbm, ⟨26, _⟩ => ⟨S128x100x1024, .f32⟩
  | .hbm, ⟨27, _⟩ => ⟨S128x100x1024, .f32⟩
  | .hbm, ⟨28, _⟩ => ⟨S128x100x1024, .f32⟩
  | .hbm, ⟨29, _⟩ => ⟨S_, .f32⟩
  | .hbm, ⟨30, _⟩ => ⟨S128x100x1024, .f32⟩
  | .hbm, ⟨31, _⟩ => ⟨S128x100x1024, .f32⟩
  | .hbm, ⟨32, _⟩ => ⟨S128x100x1024, .f32⟩
  | .hbm, ⟨33, _⟩ => ⟨S_, .f32⟩
  | .hbm, ⟨34, _⟩ => ⟨S128x100x1024, .f32⟩
  | .hbm, ⟨35, _⟩ => ⟨S128x100x1024, .f32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S128x1, .i32⟩
  | .hbm, ⟨44, _⟩ => ⟨S128x1024x512, .f32⟩
  | .hbm, ⟨45, _⟩ => ⟨S128x100x512, .f32⟩
  | .hbm, ⟨46, _⟩ => ⟨S_, .i32⟩
  | .hbm, ⟨47, _⟩ => ⟨S128, .i32⟩
  | .hbm, ⟨48, _⟩ => ⟨S128, .i1⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S128, .i32⟩
  | .hbm, ⟨53, _⟩ => ⟨S128x1, .i32⟩
  | .hbm, ⟨54, _⟩ => ⟨S128x512, .f32⟩
  | .hbm, ⟨55, _⟩ => ⟨S128x1x512, .f32⟩
  | .hbm, ⟨56, _⟩ => ⟨S128x100x512, .f32⟩
  | .hbm, ⟨57, _⟩ => ⟨S128x100x512, .f32⟩
  | _, _ => ⟨S128x100x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128x1024_S128x1x1024_0_2 : S128x1024.BroadcastsInDim S128x1x1024 (![0, 2] : Fin 2 → Fin S128x1x1024.rank)
  bcast_S128x1x1024_S128x100x1024_0_1_2 : S128x1x1024.BroadcastsInDim S128x100x1024 (![0, 1, 2] : Fin 3 → Fin S128x100x1024.rank)
  bcast_S_S128x100x1024 : S_.BroadcastsInDim S128x100x1024 (![] : Fin 0 → Fin S128x100x1024.rank)
  bcast_S128x512_S128x1x512_0_2 : S128x512.BroadcastsInDim S128x1x512 (![0, 2] : Fin 2 → Fin S128x1x512.rank)
  bcast_S128x1x512_S128x100x512_0_1_2 : S128x1x512.BroadcastsInDim S128x100x512 (![0, 1, 2] : Fin 3 → Fin S128x100x512.rank)
  gather_S8x512x1024_S128x1_S128x512x1024_12_0_n_n_0_1_15121024_wf : GatherDims.WF S8x512x1024 S128x1 S128x512x1024 [1, 2] [0] [] [0] [] 1 ![1, 512, 1024]
  dot_S128x100x512_S128x512x1024_S128x100x1024_2_1_1_2_0_0_wf : DotDims.WF S128x100x512 S128x512x1024 S128x100x1024 [2] [1] [1] [2] [0] [0]
  gather_S8x1024_S128x1_S128x1024_1_0_n_n_0_1_11024_wf : GatherDims.WF S8x1024 S128x1 S128x1024 [1] [0] [] [0] [] 1 ![1, 1024]
  gather_S8x1024x512_S128x1_S128x1024x512_12_0_n_n_0_1_11024512_wf : GatherDims.WF S8x1024x512 S128x1 S128x1024x512 [1, 2] [0] [] [0] [] 1 ![1, 1024, 512]
  dot_S128x100x1024_S128x1024x512_S128x100x512_2_1_1_2_0_0_wf : DotDims.WF S128x100x1024 S128x1024x512 S128x100x512 [2] [1] [1] [2] [0] [0]
  gather_S8x512_S128x1_S128x512_1_0_n_n_0_1_1512_wf : GatherDims.WF S8x512 S128x1 S128x512 [1] [0] [] [0] [] 1 ![1, 512]

variable [Facts₀]

def gather_S8x512x1024_S128x1_S128x512x1024_12_0_n_n_0_1_15121024 : GatherDims S8x512x1024 S128x1 S128x512x1024 where
  offsetDims := [1, 2]
  collapsedSliceDims := [0]
  operandBatchingDims := []
  startIndicesBatchingDims := []
  startIndexMap := [0]
  indexVectorDim := 1
  sliceSizes := ![1, 512, 1024]
  wf := gather_S8x512x1024_S128x1_S128x512x1024_12_0_n_n_0_1_15121024_wf
def dot_S128x100x512_S128x512x1024_S128x100x1024_2_1_1_2_0_0 : DotDims S128x100x512 S128x512x1024 S128x100x1024 where
  lhsContracting := [2]
  rhsContracting := [1]
  lhsNonContracting := [1]
  rhsNonContracting := [2]
  lhsBatch := [0]
  rhsBatch := [0]
  wf := dot_S128x100x512_S128x512x1024_S128x100x1024_2_1_1_2_0_0_wf
def gather_S8x1024_S128x1_S128x1024_1_0_n_n_0_1_11024 : GatherDims S8x1024 S128x1 S128x1024 where
  offsetDims := [1]
  collapsedSliceDims := [0]
  operandBatchingDims := []
  startIndicesBatchingDims := []
  startIndexMap := [0]
  indexVectorDim := 1
  sliceSizes := ![1, 1024]
  wf := gather_S8x1024_S128x1_S128x1024_1_0_n_n_0_1_11024_wf
def gather_S8x1024x512_S128x1_S128x1024x512_12_0_n_n_0_1_11024512 : GatherDims S8x1024x512 S128x1 S128x1024x512 where
  offsetDims := [1, 2]
  collapsedSliceDims := [0]
  operandBatchingDims := []
  startIndicesBatchingDims := []
  startIndexMap := [0]
  indexVectorDim := 1
  sliceSizes := ![1, 1024, 512]
  wf := gather_S8x1024x512_S128x1_S128x1024x512_12_0_n_n_0_1_11024512_wf
def dot_S128x100x1024_S128x1024x512_S128x100x512_2_1_1_2_0_0 : DotDims S128x100x1024 S128x1024x512 S128x100x512 where
  lhsContracting := [2]
  rhsContracting := [1]
  lhsNonContracting := [1]
  rhsNonContracting := [2]
  lhsBatch := [0]
  rhsBatch := [0]
  wf := dot_S128x100x1024_S128x1024x512_S128x100x512_2_1_1_2_0_0_wf
def gather_S8x512_S128x1_S128x512_1_0_n_n_0_1_1512 : GatherDims S8x512 S128x1 S128x512 where
  offsetDims := [1]
  collapsedSliceDims := [0]
  operandBatchingDims := []
  startIndicesBatchingDims := []
  startIndexMap := [0]
  indexVectorDim := 1
  sliceSizes := ![1, 512]
  wf := gather_S8x512_S128x1_S128x512_1_0_n_n_0_1_1512_wf

class Facts : Prop extends Facts₀ where

variable [Facts]
-- ==== Proof.Spec.lean ====
/-
  The result both programs compute, as one function of the argument arrays.

  A batch of 128 trials, each a [100, 512] block of activity, is sent through a two-layer map whose weights are
  chosen per trial among 8 experts: with e the trial's expert,
      hidden[b, f, h] = (sum over n of x[b, f, n] * W1[e, n, h]) + b1[e, h]
      act             = hidden / (1 + |hidden|) * 1                       (softsign, then the unit scale)
      out[b, f, p]    = (sum over h of act[b, f, h] * W2[e, h, p]) + b2[e, p]
  on the extended reals. The expert is read off the trial's id word: the id as a signed integer, clamped into
  [0, 7]. One program clamps the word itself (max with 0, then min with 7) and indexes with the result; the other
  first adds 8 to a negative id and leaves the clamping to the indexing operation. For an id that is not negative
  the two agree, and the words' part of the proof is the two lemmas at the end.
-/
import Idealize.ShloMosaic.PureOps.Ideal
import Idealize.ShloMosaic.Lib.ValueIdx

noncomputable section

open scoped BigOperators

namespace Cert.Stitch

open Idealize.ShloMosaic Idealize.ShloMosaic.ValueIdx

/-- The literal 1.0 of both programs, as the extended real its word encodes. -/
abbrev one : EReal := Ideal.ofBits .f32 0x3F800000#32

/-- Softsign followed by the unit scale: s / (1 + |s|) * 1, the absolute value as max s (-s). -/
def softsign (s : EReal) : EReal := Ideal.div s (one + max s (-s)) * one

variable (x : (⟨3, ![128, 100, 512]⟩ : Shape).Idx → EReal)
  (W1 : (⟨3, ![8, 512, 1024]⟩ : Shape).Idx → EReal) (b1 : (⟨2, ![8, 1024]⟩ : Shape).Idx → EReal)
  (W2 : (⟨3, ![8, 1024, 512]⟩ : Shape).Idx → EReal) (b2 : (⟨2, ![8, 512]⟩ : Shape).Idx → EReal)
  (ex : Fin 128 → Fin 8)

/-- The first layer at trial b, time bin f, hidden unit h, with the trial's expert's weights and bias. -/
def hidden (b : Fin 128) (f : Fin 100) (h : Fin 1024) : EReal :=
  (∑ n : Fin 512, x (ix3 b f n) * W1 (ix3 (ex b) n h)) + b1 (ix2 (ex b) h)

/-- The second layer over the softsign of the first, with the same expert's weights and bias. -/
def outAt (b : Fin 128) (f : Fin 100) (p : Fin 512) : EReal :=
  (∑ h : Fin 1024, softsign (hidden x W1 b1 ex b f h) * W2 (ix3 (ex b) h p)) + b2 (ix2 (ex b) p)

/-- The whole result array. -/
def G : (⟨3, ![128, 100, 512]⟩ : Shape).Idx → EReal := fun i => outAt x W1 b1 W2 b2 ex (i 0) (i 1) (i 2)

theorem G_apply (b : Fin 128) (f : Fin 100) (p : Fin 512) :
    G x W1 b1 W2 b2 ex (ix3 b f p) = outAt x W1 b1 W2 b2 ex b f p := rfl

/-! ## The expert a trial's id word selects -/

/-- The id as a signed integer, clamped into [0, 7]. -/
def expert (e : BitVec 32) : Fin 8 := ⟨min e.toInt.toNat 7, by omega⟩

/-- The word clamped by max with 0 then min with 7 (both signed), read as a natural number, is that expert:
    whatever the id. -/
theorem clip_toNat (e : BitVec 32) :
    (IntOp.minsi 7#32 (IntOp.maxsi 0#32 e)).toNat = (expert e).val := by
  unfold IntOp.minsi IntOp.maxsi expert
  simp only [BitVec.slt]
  have h7 : (7#32 : BitVec 32).toInt = 7 := by decide
  have h0 : (0#32 : BitVec 32).toInt = 0 := by decide
  by_cases he : e.toInt < 0
  · have c1 : decide (e.toInt < (0#32 : BitVec 32).toInt) = true := by rw [h0]; exact decide_eq_true he
    have c2 : decide ((7#32 : BitVec 32).toInt < (0#32 : BitVec 32).toInt) = false := by decide
    simp only [c1, c2, Bool.false_eq_true, if_true, if_false]
    show (0#32 : BitVec 32).toNat = min e.toInt.toNat 7
    have : e.toInt.toNat = 0 := by omega
    rw [this]; rfl
  · have c1 : decide (e.toInt < (0#32 : BitVec 32).toInt) = false := by rw [h0]; exact decide_eq_false he
    have htn : e.toInt = (e.toNat : Int) := by
      have hc := BitVec.toInt_eq_toNat_cond e
      have hl := e.isLt
      split at hc
      · exact hc
      · omega
    by_cases h : (7 : Int) < e.toInt
    · have c2 : decide ((7#32 : BitVec 32).toInt < e.toInt) = true := by rw [h7]; exact decide_eq_true h
      simp only [c1, c2, Bool.false_eq_true, if_true, if_false]
      show (7#32 : BitVec 32).toNat = min e.toInt.toNat 7
      have : (7#32 : BitVec 32).toNat = 7 := by decide
      rw [this]; omega
    · have c2 : decide ((7#32 : BitVec 32).toInt < e.toInt) = false := by rw [h7]; exact decide_eq_false h
      simp only [c1, c2, Bool.false_eq_true, if_true, if_false]
      show e.toNat = min e.toInt.toNat 7
      omega

/-- In particular the clamped word is below 8. -/
theorem clip_lt (e : BitVec 32) : (IntOp.minsi 7#32 (IntOp.maxsi 0#32 e)).toNat < 8 := by
  rw [clip_toNat]; exact (expert e).isLt

/-- For an id that is not negative, "add 8 if negative" leaves the word alone, and the indexing operation's own
    clamp of it is that expert. -/
theorem wrap_of_nonneg (e : BitVec 32) (h : IntOp.cmpi .sge e 0#32 = 1#1) :
    Scalar.select (IntOp.cmpi .slt e 0#32) (IntOp.addi e 8#32) e = e := by
  unfold Scalar.select
  have : IntOp.cmpi .slt e 0#32 ≠ 1#1 := by
    unfold IntOp.cmpi at h ⊢
    simp only [BitVec.slt, BitVec.sle] at h ⊢
    intro h'
    have h0 : (0#32 : BitVec 32).toInt = 0 := by decide
    rw [h0] at h h'
    by_cases c : e.toInt < 0
    · have : decide ((0:Int) ≤ e.toInt) = false := decide_eq_false (by omega)
      rw [this] at h; exact absurd h (by decide)
    · have : decide (e.toInt < 0) = false := decide_eq_false c
      rw [this] at h'; exact absurd h' (by decide)
  exact if_neg this

end Cert.Stitch

end
-- ==== Proof.KTable.lean ====
/-
  The table the kernel prefetches (this module is over the word-level kernel's text): each id word clamped into [0, 7] by the program's own host operations
  (max with 0, then min with 7), so every word the body reads from it is a valid expert index, whatever the ids.
-/
import proofs.«414796_j75995151335989_2_alg».proof.Proof.Gen.Kernel.Frame.Runs
import proofs.«414796_j75995151335989_2_alg».proof.Proof.Spec
import Idealize.ShloMosaic.Lib.StableHlo.Run
import Idealize.ShloMosaic.Lib.ValueIdx

set_option maxRecDepth 16384

noncomputable section

namespace Cert.Kernel.Tab

open Cert.Kernel Cert.Kernel.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-! ## What the host operations leave in the table -/

/-- On any core, when the region is entered the table array is the id array clamped: the constant 7 spread over the
    128 trials, min with (the constant 0 spread likewise, max with the ids). -/
theorem V_tbl (c : Dev nD) :
    (V m c main_v0 : S128.Idx → BitVec 32)
      = minsi (broadcastInDim S128 ![] Facts₀.bcast_S_S128 (constantI S_ 32 7#32))
          (maxsi (broadcastInDim S128 ![] Facts₀.bcast_S_S128 (constantI S_ 32 0#32))
            (m ((c : Thread nD τ).loc main_arg1) : S128.Idx → BitVec 32)) := by
  dsimp only [V]
  simp only [hostOps0, hostOps0_1, hostOps0_2, List.flatten_cons, List.flatten_nil, List.append_nil, List.cons_append,
    List.nil_append]
  after_results
  rfl

/-- The table's contents: the ids clamped, word by word. -/
theorem tbl_apply (i : S128.Idx) :
    (tbl m 0 : S128.Idx → BitVec 32) i
      = IntOp.minsi 7#32 (IntOp.maxsi 0#32 ((m (((0 : Dev nD).tc : Thread nD τ).loc main_arg1) : S128.Idx → BitVec 32) i)) := by
  have h : (tbl m 0 : S128.Idx → BitVec 32) = (V m (0 : Dev nD) main_v0 : S128.Idx → BitVec 32) := rfl
  rw [h, V_tbl]
  rfl

/-- Every word of the table is below 8, whatever the ids: a clamp into [0, 7] lands there. -/
theorem tbl_lt (i : S128.Idx) : ((tbl m 0 : S128.Idx → BitVec 32) i).toNat < 8 := by
  rw [tbl_apply]; exact Cert.Stitch.clip_lt _

/-- The pipeline's side condition on the table is empty. -/
theorem ok : Ok m := trivial

/-! ## The range checks, over a word and over an array that are variables -/

/-- Reading a word as an index changes nothing. -/
theorem idx_toNat (v : BitVec 32) : (Scalar.indexCast v).toNat = v.toNat := rfl

/-- A word below 8 picks one of the 8 experts' [512, 1024] weight slabs: the slab lies inside the stack. -/
theorem inb_w1 (v : BitVec 32) (hv : v.toNat < 8) :
    ∀ a, (![(Scalar.indexCast v).toNat, 0, 0] : Fin 3 → Nat) a + S1x512x1024.size a ≤ S8x512x1024.size a := by
  intro a
  fin_cases a <;> simp [idx_toNat, S1x512x1024, S8x512x1024] <;> omega

/-- Likewise one of the 8 first-layer bias rows. -/
theorem inb_b1 (v : BitVec 32) (hv : v.toNat < 8) :
    ∀ a, (![(Scalar.indexCast v).toNat, 0, 0] : Fin 3 → Nat) a + S1x1x1024.size a ≤ S8x1x1024.size a := by
  intro a
  fin_cases a <;> simp [idx_toNat, S1x1x1024, S8x1x1024] <;> omega

/-- Likewise one of the 8 [1024, 512] second-layer weight slabs. -/
theorem inb_w2 (v : BitVec 32) (hv : v.toNat < 8) :
    ∀ a, (![(Scalar.indexCast v).toNat, 0, 0] : Fin 3 → Nat) a + S1x1024x512.size a ≤ S8x1024x512.size a := by
  intro a
  fin_cases a <;> simp [idx_toNat, S1x1024x512, S8x1024x512] <;> omega

/-- Likewise one of the 8 second-layer bias rows. -/
theorem inb_b2 (v : BitVec 32) (hv : v.toNat < 8) :
    ∀ a, (![(Scalar.indexCast v).toNat, 0, 0] : Fin 3 → Nat) a + S1x1x512.size a ≤ S8x1x512.size a := by
  intro a
  fin_cases a <;> simp [idx_toNat, S1x1x512, S8x1x512] <;> omega

/-! The body makes the same four checks of each of the 16 words it reads at a grid point: one lemma per read. -/

theorem chk1_of_lt (v : BitVec 32) (hv : v.toNat < 8) : k0_chk1 v := ⟨inb_w1 v hv, inb_b1 v hv, inb_w2 v hv, inb_b2 v hv⟩
theorem chk2_of_lt (v : BitVec 32) (hv : v.toNat < 8) : k0_chk2 v := ⟨inb_w1 v hv, inb_b1 v hv, inb_w2 v hv, inb_b2 v hv⟩
theorem chk3_of_lt (v : BitVec 32) (hv : v.toNat < 8) : k0_chk3 v := ⟨inb_w1 v hv, inb_b1 v hv, inb_w2 v hv, inb_b2 v hv⟩
theorem chk4_of_lt (v : BitVec 32) (hv : v.toNat < 8) : k0_chk4 v := ⟨inb_w1 v hv, inb_b1 v hv, inb_w2 v hv, inb_b2 v hv⟩
theorem chk5_of_lt (v : BitVec 32) (hv : v.toNat < 8) : k0_chk5 v := ⟨inb_w1 v hv, inb_b1 v hv, inb_w2 v hv, inb_b2 v hv⟩
theorem chk6_of_lt (v : BitVec 32) (hv : v.toNat < 8) : k0_chk6 v := ⟨inb_w1 v hv, inb_b1 v hv, inb_w2 v hv, inb_b2 v hv⟩
theorem chk7_of_lt (v : BitVec 32) (hv : v.toNat < 8) : k0_chk7 v := ⟨inb_w1 v hv, inb_b1 v hv, inb_w2 v hv, inb_b2 v hv⟩
theorem chk8_of_lt (v : BitVec 32) (hv : v.toNat < 8) : k0_chk8 v := ⟨inb_w1 v hv, inb_b1 v hv, inb_w2 v hv, inb_b2 v hv⟩
theorem chk9_of_lt (v : BitVec 32) (hv : v.toNat < 8) : k0_chk9 v := ⟨inb_w1 v hv, inb_b1 v hv, inb_w2 v hv, inb_b2 v hv⟩
theorem chk10_of_lt (v : BitVec 32) (hv : v.toNat < 8) : k0_chk10 v := ⟨inb_w1 v hv, inb_b1 v hv, inb_w2 v hv, inb_b2 v hv⟩
theorem chk11_of_lt (v : BitVec 32) (hv : v.toNat < 8) : k0_chk11 v := ⟨inb_w1 v hv, inb_b1 v hv, inb_w2 v hv, inb_b2 v hv⟩
theorem chk12_of_lt (v : BitVec 32) (hv : v.toNat < 8) : k0_chk12 v := ⟨inb_w1 v hv, inb_b1 v hv, inb_w2 v hv, inb_b2 v hv⟩
theorem chk13_of_lt (v : BitVec 32) (hv : v.toNat < 8) : k0_chk13 v := ⟨inb_w1 v hv, inb_b1 v hv, inb_w2 v hv, inb_b2 v hv⟩
theorem chk14_of_lt (v : BitVec 32) (hv : v.toNat < 8) : k0_chk14 v := ⟨inb_w1 v hv, inb_b1 v hv, inb_w2 v hv, inb_b2 v hv⟩
theorem chk15_of_lt (v : BitVec 32) (hv : v.toNat < 8) : k0_chk15 v := ⟨inb_w1 v hv, inb_b1 v hv, inb_w2 v hv, inb_b2 v hv⟩
theorem chk16_of_lt (v : BitVec 32) (hv : v.toNat < 8) : k0_chk16 v := ⟨inb_w1 v hv, inb_b1 v hv, inb_w2 v hv, inb_b2 v hv⟩

/-- A one-word read through the whole table is the array's value at some index; so a bound on every value of the
    array bounds the word read, wherever the read sits. The array is a variable here. -/
theorem word_lt (f : S128.Idx → BitVec 32) (hf : ∀ i, (f i).toNat < 8) (off : Fin 1 → Nat)
    (inb : ∀ a, off a + S1.size a ≤ S128.size a) (h1 : 0 < S1.numel) :
    (tbM0_0.view.readAt (Elt F) (Rect.unit (s := S128) off S1.size inb).toLoadRect f (Shape.Idx.first h1)).toNat < 8 :=
  hf _

theorem chk1_word (f : S128.Idx → BitVec 32) (hf : ∀ i, (f i).toNat < 8) (off : Fin 1 → Nat)
    (inb : ∀ a, off a + S1.size a ≤ S128.size a) (h1 : 0 < S1.numel) :
    k0_chk1 (tbM0_0.view.readAt (Elt F) (Rect.unit (s := S128) off S1.size inb).toLoadRect f (Shape.Idx.first h1)) :=
  chk1_of_lt _ (word_lt f hf off inb h1)
theorem chk2_word (f : S128.Idx → BitVec 32) (hf : ∀ i, (f i).toNat < 8) (off : Fin 1 → Nat)
    (inb : ∀ a, off a + S1.size a ≤ S128.size a) (h1 : 0 < S1.numel) :
    k0_chk2 (tbM0_0.view.readAt (Elt F) (Rect.unit (s := S128) off S1.size inb).toLoadRect f (Shape.Idx.first h1)) :=
  chk2_of_lt _ (word_lt f hf off inb h1)
theorem chk3_word (f : S128.Idx → BitVec 32) (hf : ∀ i, (f i).toNat < 8) (off : Fin 1 → Nat)
    (inb : ∀ a, off a + S1.size a ≤ S128.size a) (h1 : 0 < S1.numel) :
    k0_chk3 (tbM0_0.view.readAt (Elt F) (Rect.unit (s := S128) off S1.size inb).toLoadRect f (Shape.Idx.first h1)) :=
  chk3_of_lt _ (word_lt f hf off inb h1)
theorem chk4_word (f : S128.Idx → BitVec 32) (hf : ∀ i, (f i).toNat < 8) (off : Fin 1 → Nat)
    (inb : ∀ a, off a + S1.size a ≤ S128.size a) (h1 : 0 < S1.numel) :
    k0_chk4 (tbM0_0.view.readAt (Elt F) (Rect.unit (s := S128) off S1.size inb).toLoadRect f (Shape.Idx.first h1)) :=
  chk4_of_lt _ (word_lt f hf off inb h1)
theorem chk5_word (f : S128.Idx → BitVec 32) (hf : ∀ i, (f i).toNat < 8) (off : Fin 1 → Nat)
    (inb : ∀ a, off a + S1.size a ≤ S128.size a) (h1 : 0 < S1.numel) :
    k0_chk5 (tbM0_0.view.readAt (Elt F) (Rect.unit (s := S128) off S1.size inb).toLoadRect f (Shape.Idx.first h1)) :=
  chk5_of_lt _ (word_lt f hf off inb h1)
theorem chk6_word (f : S128.Idx → BitVec 32) (hf : ∀ i, (f i).toNat < 8) (off : Fin 1 → Nat)
    (inb : ∀ a, off a + S1.size a ≤ S128.size a) (h1 : 0 < S1.numel) :
    k0_chk6 (tbM0_0.view.readAt (Elt F) (Rect.unit (s := S128) off S1.size inb).toLoadRect f (Shape.Idx.first h1)) :=
  chk6_of_lt _ (word_lt f hf off inb h1)
theorem chk7_word (f : S128.Idx → BitVec 32) (hf : ∀ i, (f i).toNat < 8) (off : Fin 1 → Nat)
    (inb : ∀ a, off a + S1.size a ≤ S128.size a) (h1 : 0 < S1.numel) :
    k0_chk7 (tbM0_0.view.readAt (Elt F) (Rect.unit (s := S128) off S1.size inb).toLoadRect f (Shape.Idx.first h1)) :=
  chk7_of_lt _ (word_lt f hf off inb h1)
theorem chk8_word (f : S128.Idx → BitVec 32) (hf : ∀ i, (f i).toNat < 8) (off : Fin 1 → Nat)
    (inb : ∀ a, off a + S1.size a ≤ S128.size a) (h1 : 0 < S1.numel) :
    k0_chk8 (tbM0_0.view.readAt (Elt F) (Rect.unit (s := S128) off S1.size inb).toLoadRect f (Shape.Idx.first h1)) :=
  chk8_of_lt _ (word_lt f hf off inb h1)
theorem chk9_word (f : S128.Idx → BitVec 32) (hf : ∀ i, (f i).toNat < 8) (off : Fin 1 → Nat)
    (inb : ∀ a, off a + S1.size a ≤ S128.size a) (h1 : 0 < S1.numel) :
    k0_chk9 (tbM0_0.view.readAt (Elt F) (Rect.unit (s := S128) off S1.size inb).toLoadRect f (Shape.Idx.first h1)) :=
  chk9_of_lt _ (word_lt f hf off inb h1)
theorem chk10_word (f : S128.Idx → BitVec 32) (hf : ∀ i, (f i).toNat < 8) (off : Fin 1 → Nat)
    (inb : ∀ a, off a + S1.size a ≤ S128.size a) (h1 : 0 < S1.numel) :
    k0_chk10 (tbM0_0.view.readAt (Elt F) (Rect.unit (s := S128) off S1.size inb).toLoadRect f (Shape.Idx.first h1)) :=
  chk10_of_lt _ (word_lt f hf off inb h1)
theorem chk11_word (f : S128.Idx → BitVec 32) (hf : ∀ i, (f i).toNat < 8) (off : Fin 1 → Nat)
    (inb : ∀ a, off a + S1.size a ≤ S128.size a) (h1 : 0 < S1.numel) :
    k0_chk11 (tbM0_0.view.readAt (Elt F) (Rect.unit (s := S128) off S1.size inb).toLoadRect f (Shape.Idx.first h1)) :=
  chk11_of_lt _ (word_lt f hf off inb h1)
theorem chk12_word (f : S128.Idx → BitVec 32) (hf : ∀ i, (f i).toNat < 8) (off : Fin 1 → Nat)
    (inb : ∀ a, off a + S1.size a ≤ S128.size a) (h1 : 0 < S1.numel) :
    k0_chk12 (tbM0_0.view.readAt (Elt F) (Rect.unit (s := S128) off S1.size inb).toLoadRect f (Shape.Idx.first h1)) :=
  chk12_of_lt _ (word_lt f hf off inb h1)
theorem chk13_word (f : S128.Idx → BitVec 32) (hf : ∀ i, (f i).toNat < 8) (off : Fin 1 → Nat)
    (inb : ∀ a, off a + S1.size a ≤ S128.size a) (h1 : 0 < S1.numel) :
    k0_chk13 (tbM0_0.view.readAt (Elt F) (Rect.unit (s := S128) off S1.size inb).toLoadRect f (Shape.Idx.first h1)) :=
  chk13_of_lt _ (word_lt f hf off inb h1)
theorem chk14_word (f : S128.Idx → BitVec 32) (hf : ∀ i, (f i).toNat < 8) (off : Fin 1 → Nat)
    (inb : ∀ a, off a + S1.size a ≤ S128.size a) (h1 : 0 < S1.numel) :
    k0_chk14 (tbM0_0.view.readAt (Elt F) (Rect.unit (s := S128) off S1.size inb).toLoadRect f (Shape.Idx.first h1)) :=
  chk14_of_lt _ (word_lt f hf off inb h1)
theorem chk15_word (f : S128.Idx → BitVec 32) (hf : ∀ i, (f i).toNat < 8) (off : Fin 1 → Nat)
    (inb : ∀ a, off a + S1.size a ≤ S128.size a) (h1 : 0 < S1.numel) :
    k0_chk15 (tbM0_0.view.readAt (Elt F) (Rect.unit (s := S128) off S1.size inb).toLoadRect f (Shape.Idx.first h1)) :=
  chk15_of_lt _ (word_lt f hf off inb h1)
theorem chk16_word (f : S128.Idx → BitVec 32) (hf : ∀ i, (f i).toNat < 8) (off : Fin 1 → Nat)
    (inb : ∀ a, off a + S1.size a ≤ S128.size a) (h1 : 0 < S1.numel) :
    k0_chk16 (tbM0_0.view.readAt (Elt F) (Rect.unit (s := S128) off S1.size inb).toLoadRect f (Shape.Idx.first h1)) :=
  chk16_of_lt _ (word_lt f hf off inb h1)

/-- Every word the body reads off the table passes the range check it assumes. -/
theorem hyps : Hyps m (ok m) :=
  Hyps.of
    (fun _ t => chk1_word _ (tbl_lt m) _ _ _)
    (fun _ t => chk2_word _ (tbl_lt m) _ _ _)
    (fun _ t => chk3_word _ (tbl_lt m) _ _ _)
    (fun _ t => chk4_word _ (tbl_lt m) _ _ _)
    (fun _ t => chk5_word _ (tbl_lt m) _ _ _)
    (fun _ t => chk6_word _ (tbl_lt m) _ _ _)
    (fun _ t => chk7_word _ (tbl_lt m) _ _ _)
    (fun _ t => chk8_word _ (tbl_lt m) _ _ _)
    (fun _ t => chk9_word _ (tbl_lt m) _ _ _)
    (fun _ t => chk10_word _ (tbl_lt m) _ _ _)
    (fun _ t => chk11_word _ (tbl_lt m) _ _ _)
    (fun _ t => chk12_word _ (tbl_lt m) _ _ _)
    (fun _ t => chk13_word _ (tbl_lt m) _ _ _)
    (fun _ t => chk14_word _ (tbl_lt m) _ _ _)
    (fun _ t => chk15_word _ (tbl_lt m) _ _ _)
    (fun _ t => chk16_word _ (tbl_lt m) _ _ _)

end Cert.Kernel.Tab

end
-- ==== Proof.KITable.lean ====
/-
  The table the kernel prefetches (this module is over the idealized kernel's text): each id word clamped into [0, 7] by the program's own host operations
  (max with 0, then min with 7), so every word the body reads from it is a valid expert index, whatever the ids.
-/
import proofs.«414796_j75995151335989_2_alg».proof.Proof.Gen.KernelIdeal.Frame.Runs
import proofs.«414796_j75995151335989_2_alg».proof.Proof.Spec
import Idealize.ShloMosaic.Lib.StableHlo.Run
import Idealize.ShloMosaic.Lib.ValueIdx

set_option maxRecDepth 16384

noncomputable section

namespace Cert.KernelIdeal.Tab

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-! ## What the host operations leave in the table -/

/-- On any core, when the region is entered the table array is the id array clamped: the constant 7 spread over the
    128 trials, min with (the constant 0 spread likewise, max with the ids). -/
theorem V_tbl (c : Dev nD) :
    (V m c main_v0 : S128.Idx → BitVec 32)
      = minsi (broadcastInDim S128 ![] Facts₀.bcast_S_S128 (constantI S_ 32 7#32))
          (maxsi (broadcastInDim S128 ![] Facts₀.bcast_S_S128 (constantI S_ 32 0#32))
            (m ((c : Thread nD τ).loc main_arg1) : S128.Idx → BitVec 32)) := by
  dsimp only [V]
  simp only [hostOps0, hostOps0_1, hostOps0_2, List.flatten_cons, List.flatten_nil, List.append_nil, List.cons_append,
    List.nil_append]
  after_results
  rfl

/-- The table's contents: the ids clamped, word by word. -/
theorem tbl_apply (i : S128.Idx) :
    (tbl m 0 : S128.Idx → BitVec 32) i
      = IntOp.minsi 7#32 (IntOp.maxsi 0#32 ((m (((0 : Dev nD).tc : Thread nD τ).loc main_arg1) : S128.Idx → BitVec 32) i)) := by
  have h : (tbl m 0 : S128.Idx → BitVec 32) = (V m (0 : Dev nD) main_v0 : S128.Idx → BitVec 32) := rfl
  rw [h, V_tbl]
  rfl

/-- Every word of the table is below 8, whatever the ids: a clamp into [0, 7] lands there. -/
theorem tbl_lt (i : S128.Idx) : ((tbl m 0 : S128.Idx → BitVec 32) i).toNat < 8 := by
  rw [tbl_apply]; exact Cert.Stitch.clip_lt _

/-- The pipeline's side condition on the table is empty. -/
theorem ok : Ok m := trivial

/-! ## The range checks, over a word and over an array that are variables -/

/-- Reading a word as an index changes nothing. -/
theorem idx_toNat (v : BitVec 32) : (Scalar.indexCast v).toNat = v.toNat := rfl

/-- A word below 8 picks one of the 8 experts' [512, 1024] weight slabs: the slab lies inside the stack. -/
theorem inb_w1 (v : BitVec 32) (hv : v.toNat < 8) :
    ∀ a, (![(Scalar.indexCast v).toNat, 0, 0] : Fin 3 → Nat) a + S1x512x1024.size a ≤ S8x512x1024.size a := by
  intro a
  fin_cases a <;> simp [idx_toNat, S1x512x1024, S8x512x1024] <;> omega

/-- Likewise one of the 8 first-layer bias rows. -/
theorem inb_b1 (v : BitVec 32) (hv : v.toNat < 8) :
    ∀ a, (![(Scalar.indexCast v).toNat, 0, 0] : Fin 3 → Nat) a + S1x1x1024.size a ≤ S8x1x1024.size a := by
  intro a
  fin_cases a <;> simp [idx_toNat, S1x1x1024, S8x1x1024] <;> omega

/-- Likewise one of the 8 [1024, 512] second-layer weight slabs. -/
theorem inb_w2 (v : BitVec 32) (hv : v.toNat < 8) :
    ∀ a, (![(Scalar.indexCast v).toNat, 0, 0] : Fin 3 → Nat) a + S1x1024x512.size a ≤ S8x1024x512.size a := by
  intro a
  fin_cases a <;> simp [idx_toNat, S1x1024x512, S8x1024x512] <;> omega

/-- Likewise one of the 8 second-layer bias rows. -/
theorem inb_b2 (v : BitVec 32) (hv : v.toNat < 8) :
    ∀ a, (![(Scalar.indexCast v).toNat, 0, 0] : Fin 3 → Nat) a + S1x1x512.size a ≤ S8x1x512.size a := by
  intro a
  fin_cases a <;> simp [idx_toNat, S1x1x512, S8x1x512] <;> omega

/-! The body makes the same four checks of each of the 16 words it reads at a grid point: one lemma per read. -/

theorem chk1_of_lt (v : BitVec 32) (hv : v.toNat < 8) : k0_chk1 v := ⟨inb_w1 v hv, inb_b1 v hv, inb_w2 v hv, inb_b2 v hv⟩
theorem chk2_of_lt (v : BitVec 32) (hv : v.toNat < 8) : k0_chk2 v := ⟨inb_w1 v hv, inb_b1 v hv, inb_w2 v hv, inb_b2 v hv⟩
theorem chk3_of_lt (v : BitVec 32) (hv : v.toNat < 8) : k0_chk3 v := ⟨inb_w1 v hv, inb_b1 v hv, inb_w2 v hv, inb_b2 v hv⟩
theorem chk4_of_lt (v : BitVec 32) (hv : v.toNat < 8) : k0_chk4 v := ⟨inb_w1 v hv, inb_b1 v hv, inb_w2 v hv, inb_b2 v hv⟩
theorem chk5_of_lt (v : BitVec 32) (hv : v.toNat < 8) : k0_chk5 v := ⟨inb_w1 v hv, inb_b1 v hv, inb_w2 v hv, inb_b2 v hv⟩
theorem chk6_of_lt (v : BitVec 32) (hv : v.toNat < 8) : k0_chk6 v := ⟨inb_w1 v hv, inb_b1 v hv, inb_w2 v hv, inb_b2 v hv⟩
theorem chk7_of_lt (v : BitVec 32) (hv : v.toNat < 8) : k0_chk7 v := ⟨inb_w1 v hv, inb_b1 v hv, inb_w2 v hv, inb_b2 v hv⟩
theorem chk8_of_lt (v : BitVec 32) (hv : v.toNat < 8) : k0_chk8 v := ⟨inb_w1 v hv, inb_b1 v hv, inb_w2 v hv, inb_b2 v hv⟩
theorem chk9_of_lt (v : BitVec 32) (hv : v.toNat < 8) : k0_chk9 v := ⟨inb_w1 v hv, inb_b1 v hv, inb_w2 v hv, inb_b2 v hv⟩
theorem chk10_of_lt (v : BitVec 32) (hv : v.toNat < 8) : k0_chk10 v := ⟨inb_w1 v hv, inb_b1 v hv, inb_w2 v hv, inb_b2 v hv⟩
theorem chk11_of_lt (v : BitVec 32) (hv : v.toNat < 8) : k0_chk11 v := ⟨inb_w1 v hv, inb_b1 v hv, inb_w2 v hv, inb_b2 v hv⟩
theorem chk12_of_lt (v : BitVec 32) (hv : v.toNat < 8) : k0_chk12 v := ⟨inb_w1 v hv, inb_b1 v hv, inb_w2 v hv, inb_b2 v hv⟩
theorem chk13_of_lt (v : BitVec 32) (hv : v.toNat < 8) : k0_chk13 v := ⟨inb_w1 v hv, inb_b1 v hv, inb_w2 v hv, inb_b2 v hv⟩
theorem chk14_of_lt (v : BitVec 32) (hv : v.toNat < 8) : k0_chk14 v := ⟨inb_w1 v hv, inb_b1 v hv, inb_w2 v hv, inb_b2 v hv⟩
theorem chk15_of_lt (v : BitVec 32) (hv : v.toNat < 8) : k0_chk15 v := ⟨inb_w1 v hv, inb_b1 v hv, inb_w2 v hv, inb_b2 v hv⟩
theorem chk16_of_lt (v : BitVec 32) (hv : v.toNat < 8) : k0_chk16 v := ⟨inb_w1 v hv, inb_b1 v hv, inb_w2 v hv, inb_b2 v hv⟩

/-- A one-word read through the whole table is the array's value at some index; so a bound on every value of the
    array bounds the word read, wherever the read sits. The array is a variable here. -/
theorem word_lt (f : S128.Idx → BitVec 32) (hf : ∀ i, (f i).toNat < 8) (off : Fin 1 → Nat)
    (inb : ∀ a, off a + S1.size a ≤ S128.size a) (h1 : 0 < S1.numel) :
    (tbM0_0.view.readAt (Elt F) (Rect.unit (s := S128) off S1.size inb).toLoadRect f (Shape.Idx.first h1)).toNat < 8 :=
  hf _

theorem chk1_word (f : S128.Idx → BitVec 32) (hf : ∀ i, (f i).toNat < 8) (off : Fin 1 → Nat)
    (inb : ∀ a, off a + S1.size a ≤ S128.size a) (h1 : 0 < S1.numel) :
    k0_chk1 (tbM0_0.view.readAt (Elt F) (Rect.unit (s := S128) off S1.size inb).toLoadRect f (Shape.Idx.first h1)) :=
  chk1_of_lt _ (word_lt f hf off inb h1)
theorem chk2_word (f : S128.Idx → BitVec 32) (hf : ∀ i, (f i).toNat < 8) (off : Fin 1 → Nat)
    (inb : ∀ a, off a + S1.size a ≤ S128.size a) (h1 : 0 < S1.numel) :
    k0_chk2 (tbM0_0.view.readAt (Elt F) (Rect.unit (s := S128) off S1.size inb).toLoadRect f (Shape.Idx.first h1)) :=
  chk2_of_lt _ (word_lt f hf off inb h1)
theorem chk3_word (f : S128.Idx → BitVec 32) (hf : ∀ i, (f i).toNat < 8) (off : Fin 1 → Nat)
    (inb : ∀ a, off a + S1.size a ≤ S128.size a) (h1 : 0 < S1.numel) :
    k0_chk3 (tbM0_0.view.readAt (Elt F) (Rect.unit (s := S128) off S1.size inb).toLoadRect f (Shape.Idx.first h1)) :=
  chk3_of_lt _ (word_lt f hf off inb h1)
theorem chk4_word (f : S128.Idx → BitVec 32) (hf : ∀ i, (f i).toNat < 8) (off : Fin 1 → Nat)
    (inb : ∀ a, off a + S1.size a ≤ S128.size a) (h1 : 0 < S1.numel) :
    k0_chk4 (tbM0_0.view.readAt (Elt F) (Rect.unit (s := S128) off S1.size inb).toLoadRect f (Shape.Idx.first h1)) :=
  chk4_of_lt _ (word_lt f hf off inb h1)
theorem chk5_word (f : S128.Idx → BitVec 32) (hf : ∀ i, (f i).toNat < 8) (off : Fin 1 → Nat)
    (inb : ∀ a, off a + S1.size a ≤ S128.size a) (h1 : 0 < S1.numel) :
    k0_chk5 (tbM0_0.view.readAt (Elt F) (Rect.unit (s := S128) off S1.size inb).toLoadRect f (Shape.Idx.first h1)) :=
  chk5_of_lt _ (word_lt f hf off inb h1)
theorem chk6_word (f : S128.Idx → BitVec 32) (hf : ∀ i, (f i).toNat < 8) (off : Fin 1 → Nat)
    (inb : ∀ a, off a + S1.size a ≤ S128.size a) (h1 : 0 < S1.numel) :
    k0_chk6 (tbM0_0.view.readAt (Elt F) (Rect.unit (s := S128) off S1.size inb).toLoadRect f (Shape.Idx.first h1)) :=
  chk6_of_lt _ (word_lt f hf off inb h1)
theorem chk7_word (f : S128.Idx → BitVec 32) (hf : ∀ i, (f i).toNat < 8) (off : Fin 1 → Nat)
    (inb : ∀ a, off a + S1.size a ≤ S128.size a) (h1 : 0 < S1.numel) :
    k0_chk7 (tbM0_0.view.readAt (Elt F) (Rect.unit (s := S128) off S1.size inb).toLoadRect f (Shape.Idx.first h1)) :=
  chk7_of_lt _ (word_lt f hf off inb h1)
theorem chk8_word (f : S128.Idx → BitVec 32) (hf : ∀ i, (f i).toNat < 8) (off : Fin 1 → Nat)
    (inb : ∀ a, off a + S1.size a ≤ S128.size a) (h1 : 0 < S1.numel) :
    k0_chk8 (tbM0_0.view.readAt (Elt F) (Rect.unit (s := S128) off S1.size inb).toLoadRect f (Shape.Idx.first h1)) :=
  chk8_of_lt _ (word_lt f hf off inb h1)
theorem chk9_word (f : S128.Idx → BitVec 32) (hf : ∀ i, (f i).toNat < 8) (off : Fin 1 → Nat)
    (inb : ∀ a, off a + S1.size a ≤ S128.size a) (h1 : 0 < S1.numel) :
    k0_chk9 (tbM0_0.view.readAt (Elt F) (Rect.unit (s := S128) off S1.size inb).toLoadRect f (Shape.Idx.first h1)) :=
  chk9_of_lt _ (word_lt f hf off inb h1)
theorem chk10_word (f : S128.Idx → BitVec 32) (hf : ∀ i, (f i).toNat < 8) (off : Fin 1 → Nat)
    (inb : ∀ a, off a + S1.size a ≤ S128.size a) (h1 : 0 < S1.numel) :
    k0_chk10 (tbM0_0.view.readAt (Elt F) (Rect.unit (s := S128) off S1.size inb).toLoadRect f (Shape.Idx.first h1)) :=
  chk10_of_lt _ (word_lt f hf off inb h1)
theorem chk11_word (f : S128.Idx → BitVec 32) (hf : ∀ i, (f i).toNat < 8) (off : Fin 1 → Nat)
    (inb : ∀ a, off a + S1.size a ≤ S128.size a) (h1 : 0 < S1.numel) :
    k0_chk11 (tbM0_0.view.readAt (Elt F) (Rect.unit (s := S128) off S1.size inb).toLoadRect f (Shape.Idx.first h1)) :=
  chk11_of_lt _ (word_lt f hf off inb h1)
theorem chk12_word (f : S128.Idx → BitVec 32) (hf : ∀ i, (f i).toNat < 8) (off : Fin 1 → Nat)
    (inb : ∀ a, off a + S1.size a ≤ S128.size a) (h1 : 0 < S1.numel) :
    k0_chk12 (tbM0_0.view.readAt (Elt F) (Rect.unit (s := S128) off S1.size inb).toLoadRect f (Shape.Idx.first h1)) :=
  chk12_of_lt _ (word_lt f hf off inb h1)
theorem chk13_word (f : S128.Idx → BitVec 32) (hf : ∀ i, (f i).toNat < 8) (off : Fin 1 → Nat)
    (inb : ∀ a, off a + S1.size a ≤ S128.size a) (h1 : 0 < S1.numel) :
    k0_chk13 (tbM0_0.view.readAt (Elt F) (Rect.unit (s := S128) off S1.size inb).toLoadRect f (Shape.Idx.first h1)) :=
  chk13_of_lt _ (word_lt f hf off inb h1)
theorem chk14_word (f : S128.Idx → BitVec 32) (hf : ∀ i, (f i).toNat < 8) (off : Fin 1 → Nat)
    (inb : ∀ a, off a + S1.size a ≤ S128.size a) (h1 : 0 < S1.numel) :
    k0_chk14 (tbM0_0.view.readAt (Elt F) (Rect.unit (s := S128) off S1.size inb).toLoadRect f (Shape.Idx.first h1)) :=
  chk14_of_lt _ (word_lt f hf off inb h1)
theorem chk15_word (f : S128.Idx → BitVec 32) (hf : ∀ i, (f i).toNat < 8) (off : Fin 1 → Nat)
    (inb : ∀ a, off a + S1.size a ≤ S128.size a) (h1 : 0 < S1.numel) :
    k0_chk15 (tbM0_0.view.readAt (Elt F) (Rect.unit (s := S128) off S1.size inb).toLoadRect f (Shape.Idx.first h1)) :=
  chk15_of_lt _ (word_lt f hf off inb h1)
theorem chk16_word (f : S128.Idx → BitVec 32) (hf : ∀ i, (f i).toNat < 8) (off : Fin 1 → Nat)
    (inb : ∀ a, off a + S1.size a ≤ S128.size a) (h1 : 0 < S1.numel) :
    k0_chk16 (tbM0_0.view.readAt (Elt F) (Rect.unit (s := S128) off S1.size inb).toLoadRect f (Shape.Idx.first h1)) :=
  chk16_of_lt _ (word_lt f hf off inb h1)

/-- Every word the body reads off the table passes the range check it assumes. -/
theorem hyps : Hyps m (ok m) :=
  Hyps.of
    (fun _ t => chk1_word _ (tbl_lt m) _ _ _)
    (fun _ t => chk2_word _ (tbl_lt m) _ _ _)
    (fun _ t => chk3_word _ (tbl_lt m) _ _ _)
    (fun _ t => chk4_word _ (tbl_lt m) _ _ _)
    (fun _ t => chk5_word _ (tbl_lt m) _ _ _)
    (fun _ t => chk6_word _ (tbl_lt m) _ _ _)
    (fun _ t => chk7_word _ (tbl_lt m) _ _ _)
    (fun _ t => chk8_word _ (tbl_lt m) _ _ _)
    (fun _ t => chk9_word _ (tbl_lt m) _ _ _)
    (fun _ t => chk10_word _ (tbl_lt m) _ _ _)
    (fun _ t => chk11_word _ (tbl_lt m) _ _ _)
    (fun _ t => chk12_word _ (tbl_lt m) _ _ _)
    (fun _ t => chk13_word _ (tbl_lt m) _ _ _)
    (fun _ t => chk14_word _ (tbl_lt m) _ _ _)
    (fun _ t => chk15_word _ (tbl_lt m) _ _ _)
    (fun _ t => chk16_word _ (tbl_lt m) _ _ _)

end Cert.KernelIdeal.Tab

end
-- ==== Proof.KISample.lean ====
/-
  One trial's arithmetic in the idealized kernel, read at an index.

  The kernel handles a trial with five loads: the trial's [1, 100, 512] block of activity and, of the expert its id
  selects, the [1, 512, 1024] and [1, 1024, 512] weight slices and the [1, 1, 1024] and [1, 1, 512] bias rows. From them
  it forms  hidden = x · w1 + b1  (a matrix product into a zero accumulator, the bias row repeated down the 100 rows),
  the softsign  hidden / (1 + |hidden|) * 1,  and  out = act · w2 + b2.  On the extended reals the changes of float
  format in between are the identity and a product into a zero accumulator is the plain sum, so entry (f, p) of
  the result is
      (sum over h of softsign ((sum over n of x[0, f, n] * w1[0, n, h]) + b1[0, 0, h]) * w2[0, h, p]) + b2[0, 0, p].
-/
import proofs.«414796_j75995151335989_2_alg».proof.Proof.Gen.KernelIdeal.Skeleton
import proofs.«414796_j75995151335989_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Sample

open Cert.KernelIdeal Cert.KernelIdeal.Gen Idealize.ShloMosaic Idealize.ShloMosaic.ValueIdx

/-! ## The two matrix products at an index -/

theorem lhs1_0 (j : S100x1024.Idx) (q : dot_S100x512_S512x1024_S100x1024_1_0_0_1_n_n.contr.Idx) : (dot_S100x512_S512x1024_S100x1024_1_0_0_1_n_n.lhsIdx j q 0).val = (j 0).val := by
  unfold DotDims.lhsIdx
  rw [dif_neg (show ¬(0 : Fin S100x512.rank) ∈ dot_S100x512_S512x1024_S100x1024_1_0_0_1_n_n.lhsBatch by decide),
    dif_pos (show (0 : Fin S100x512.rank) ∈ dot_S100x512_S512x1024_S100x1024_1_0_0_1_n_n.lhsNonContracting by decide)]
  rfl
theorem lhs1_1 (j : S100x1024.Idx) (q : dot_S100x512_S512x1024_S100x1024_1_0_0_1_n_n.contr.Idx) : (dot_S100x512_S512x1024_S100x1024_1_0_0_1_n_n.lhsIdx j q 1).val = (q ⟨0, by decide⟩).val :=
  dot_S100x512_S512x1024_S100x1024_1_0_0_1_n_n.lhsIdx_val_of_single rfl j q
theorem rhs1_0 (j : S100x1024.Idx) (q : dot_S100x512_S512x1024_S100x1024_1_0_0_1_n_n.contr.Idx) : (dot_S100x512_S512x1024_S100x1024_1_0_0_1_n_n.rhsIdx j q 0).val = (q ⟨0, by decide⟩).val :=
  dot_S100x512_S512x1024_S100x1024_1_0_0_1_n_n.rhsIdx_val_of_single rfl j q
theorem rhs1_1 (j : S100x1024.Idx) (q : dot_S100x512_S512x1024_S100x1024_1_0_0_1_n_n.contr.Idx) : (dot_S100x512_S512x1024_S100x1024_1_0_0_1_n_n.rhsIdx j q 1).val = (j 1).val := by
  unfold DotDims.rhsIdx
  rw [dif_neg (show ¬(1 : Fin S512x1024.rank) ∈ dot_S100x512_S512x1024_S100x1024_1_0_0_1_n_n.rhsBatch by decide),
    dif_pos (show (1 : Fin S512x1024.rank) ∈ dot_S100x512_S512x1024_S100x1024_1_0_0_1_n_n.rhsNonContracting by decide)]
  rfl

/-- The first product into the zero accumulator: row f of the left operand against column h of the right. -/
theorem matmul1_apply (l : FVec Ideal S100x512 .bf16) (r : FVec Ideal S512x1024 .bf16) (f : Fin 100) (h : Fin 1024) :
    matmul dot_S100x512_S512x1024_S100x1024_1_0_0_1_n_n none l r (constant (F := Ideal) S100x1024 .f32 0x00000000#32) (ix2 f h)
      = ∑ n : Fin 512, l (ix2 f n) * r (ix2 n h) := by
  simp only [matmul]
  rw [Ideal.matmul_constant_zero_apply, ← Equiv.sum_comp (contrEquiv1 dot_S100x512_S512x1024_S100x1024_1_0_0_1_n_n 512 rfl rfl).symm]
  refine Finset.sum_congr rfl fun k _ => ?_
  have hk := contrEquiv1_symm_val dot_S100x512_S512x1024_S100x1024_1_0_0_1_n_n 512 rfl rfl k
  have el : dot_S100x512_S512x1024_S100x1024_1_0_0_1_n_n.lhsIdx (ix2 f h) ((contrEquiv1 dot_S100x512_S512x1024_S100x1024_1_0_0_1_n_n 512 rfl rfl).symm k) = ix2 f k := funext fun a => Fin.ext (by
    match a with
    | ⟨0, _⟩ => exact lhs1_0 _ _
    | ⟨1, _⟩ => exact (lhs1_1 _ _).trans hk)
  have er : dot_S100x512_S512x1024_S100x1024_1_0_0_1_n_n.rhsIdx (ix2 f h) ((contrEquiv1 dot_S100x512_S512x1024_S100x1024_1_0_0_1_n_n 512 rfl rfl).symm k) = ix2 k h := funext fun a => Fin.ext (by
    match a with
    | ⟨0, _⟩ => exact (rhs1_0 _ _).trans hk
    | ⟨1, _⟩ => exact rhs1_1 _ _)
  rw [el, er]

theorem lhs2_0 (j : S100x512.Idx) (q : dot_S100x1024_S1024x512_S100x512_1_0_0_1_n_n.contr.Idx) : (dot_S100x1024_S1024x512_S100x512_1_0_0_1_n_n.lhsIdx j q 0).val = (j 0).val := by
  unfold DotDims.lhsIdx
  rw [dif_neg (show ¬(0 : Fin S100x1024.rank) ∈ dot_S100x1024_S1024x512_S100x512_1_0_0_1_n_n.lhsBatch by decide),
    dif_pos (show (0 : Fin S100x1024.rank) ∈ dot_S100x1024_S1024x512_S100x512_1_0_0_1_n_n.lhsNonContracting by decide)]
  rfl
theorem lhs2_1 (j : S100x512.Idx) (q : dot_S100x1024_S1024x512_S100x512_1_0_0_1_n_n.contr.Idx) : (dot_S100x1024_S1024x512_S100x512_1_0_0_1_n_n.lhsIdx j q 1).val = (q ⟨0, by decide⟩).val :=
  dot_S100x1024_S1024x512_S100x512_1_0_0_1_n_n.lhsIdx_val_of_single rfl j q
theorem rhs2_0 (j : S100x512.Idx) (q : dot_S100x1024_S1024x512_S100x512_1_0_0_1_n_n.contr.Idx) : (dot_S100x1024_S1024x512_S100x512_1_0_0_1_n_n.rhsIdx j q 0).val = (q ⟨0, by decide⟩).val :=
  dot_S100x1024_S1024x512_S100x512_1_0_0_1_n_n.rhsIdx_val_of_single rfl j q
theorem rhs2_1 (j : S100x512.Idx) (q : dot_S100x1024_S1024x512_S100x512_1_0_0_1_n_n.contr.Idx) : (dot_S100x1024_S1024x512_S100x512_1_0_0_1_n_n.rhsIdx j q 1).val = (j 1).val := by
  unfold DotDims.rhsIdx
  rw [dif_neg (show ¬(1 : Fin S1024x512.rank) ∈ dot_S100x1024_S1024x512_S100x512_1_0_0_1_n_n.rhsBatch by decide),
    dif_pos (show (1 : Fin S1024x512.rank) ∈ dot_S100x1024_S1024x512_S100x512_1_0_0_1_n_n.rhsNonContracting by decide)]
  rfl

/-- The second product into the zero accumulator. -/
theorem matmul2_apply (l : FVec Ideal S100x1024 .bf16) (r : FVec Ideal S1024x512 .bf16) (f : Fin 100) (p : Fin 512) :
    matmul dot_S100x1024_S1024x512_S100x512_1_0_0_1_n_n none l r (constant (F := Ideal) S100x512 .f32 0x00000000#32) (ix2 f p)
      = ∑ h : Fin 1024, l (ix2 f h) * r (ix2 h p) := by
  simp only [matmul]
  rw [Ideal.matmul_constant_zero_apply, ← Equiv.sum_comp (contrEquiv1 dot_S100x1024_S1024x512_S100x512_1_0_0_1_n_n 1024 rfl rfl).symm]
  refine Finset.sum_congr rfl fun k _ => ?_
  have hk := contrEquiv1_symm_val dot_S100x1024_S1024x512_S100x512_1_0_0_1_n_n 1024 rfl rfl k
  have el : dot_S100x1024_S1024x512_S100x512_1_0_0_1_n_n.lhsIdx (ix2 f p) ((contrEquiv1 dot_S100x1024_S1024x512_S100x512_1_0_0_1_n_n 1024 rfl rfl).symm k) = ix2 f k := funext fun a => Fin.ext (by
    match a with
    | ⟨0, _⟩ => exact lhs2_0 _ _
    | ⟨1, _⟩ => exact (lhs2_1 _ _).trans hk)
  have er : dot_S100x1024_S1024x512_S100x512_1_0_0_1_n_n.rhsIdx (ix2 f p) ((contrEquiv1 dot_S100x1024_S1024x512_S100x512_1_0_0_1_n_n 1024 rfl rfl).symm k) = ix2 k p := funext fun a => Fin.ext (by
    match a with
    | ⟨0, _⟩ => exact (rhs2_0 _ _).trans hk
    | ⟨1, _⟩ => exact rhs2_1 _ _)
  rw [el, er]

/-! ## The stages of one trial -/

/-- The first layer of one trial: the product of the trial's block with the expert's first weights, plus its bias row. -/
def hid (x : Vec Ideal S1x100x512 .f32) (w1 : Vec Ideal S1x512x1024 .bf16) (b1 : Vec Ideal S1x1x1024 .f32) :
    FVec Ideal S100x1024 .f32 :=
  addf (matmul dot_S100x512_S512x1024_S100x1024_1_0_0_1_n_n none (truncf .bf16 (shapeCast S100x512 x shapeCasts_S1x100x512_S100x512 : FVec Ideal S100x512 .f32) bitsLt_bf16_f32)
      (shapeCast S512x1024 w1 shapeCasts_S1x512x1024_S512x1024 : FVec Ideal S512x1024 .bf16) (constant S100x1024 .f32 0x00000000#32))
    (broadcastTo S100x1024 (shapeCast S1x1024 b1 shapeCasts_S1x1x1024_S1x1024 : FVec Ideal S1x1024 .f32) broadcasts_S1x1024_S100x1024)

/-- Softsign and the unit scale, entry by entry. -/
def act (s : FVec Ideal S100x1024 .f32) : FVec Ideal S100x1024 .f32 :=
  mulf (divf s (addf (broadcast S100x1024 (Scalar.ofBits .f32 0x3F800000#32)) (absf s)))
    (broadcast S100x1024 (Scalar.ofBits .f32 0x3F800000#32))

/-- The whole trial: the second layer over the softsign of the first, as a [1, 100, 512] block. -/
def trial (x : Vec Ideal S1x100x512 .f32) (w1 : Vec Ideal S1x512x1024 .bf16) (b1 : Vec Ideal S1x1x1024 .f32)
    (w2 : Vec Ideal S1x1024x512 .bf16) (b2 : Vec Ideal S1x1x512 .f32) : FVec Ideal S1x100x512 .f32 :=
  shapeCast S1x100x512
    (addf (matmul dot_S100x1024_S1024x512_S100x512_1_0_0_1_n_n none (truncf .bf16 (act (hid x w1 b1)) bitsLt_bf16_f32)
        (shapeCast S1024x512 w2 shapeCasts_S1x1024x512_S1024x512 : FVec Ideal S1024x512 .bf16) (constant S100x512 .f32 0x00000000#32))
      (broadcastTo S100x512 (shapeCast S1x512 b2 shapeCasts_S1x1x512_S1x512 : FVec Ideal S1x512 .f32) broadcasts_S1x512_S100x512))
    shapeCasts_S100x512_S1x100x512

/-- The printed payload of a trial handled inside one window of the program text is this function. -/
theorem pay2_eq (x : Vec Ideal S1x100x512 .f32) (w1 : Vec Ideal S1x512x1024 .bf16) (b1 : Vec Ideal S1x1x1024 .f32)
    (w2 : Vec Ideal S1x1024x512 .bf16) (b2 : Vec Ideal S1x1x512 .f32) :
    k0_pay2 (F := Ideal) x w1 b1 w2 b2 = trial x w1 b1 w2 b2 := rfl

theorem hid_apply (x : Vec Ideal S1x100x512 .f32) (w1 : Vec Ideal S1x512x1024 .bf16) (b1 : Vec Ideal S1x1x1024 .f32)
    (f : Fin 100) (h : Fin 1024) :
    hid x w1 b1 (ix2 f h) = (∑ n : Fin 512, x (ix3 0 f n) * w1 (ix3 0 n h)) + b1 (ix3 0 0 h) := by
  unfold hid
  rw [addf_apply, matmul1_apply]
  refine congrArg₂ (· + ·) (Finset.sum_congr rfl fun n _ => congrArg₂ (· * ·) ?_ ?_) ?_
  · show shapeCast S100x512 x shapeCasts_S1x100x512_S100x512 (ix2 f n) = x (ix3 0 f n)
    exact shapeCast_apply x _ (ix2 f n) (ix3 0 f n) (by
      rw [Shape.rowMajor_val_three (d := ![1, 100, 512]), Shape.rowMajor_val_two (d := ![100, 512])]; simp)
  · exact shapeCast_apply w1 _ (ix2 n h) (ix3 0 n h) (by
      rw [Shape.rowMajor_val_three (d := ![1, 512, 1024]), Shape.rowMajor_val_two (d := ![512, 1024])]; simp)
  · refine (broadcastTo_apply _ broadcasts_S1x1024_S100x1024 (ix2 f h) (ix2 0 h) (fun a => ?_)).trans ?_
    · match a with
      | ⟨0, _⟩ => show (0 : Nat) = if (1 : Nat) = 1 then 0 else _; rw [if_pos rfl]
      | ⟨1, _⟩ => show h.val = if (1024 : Nat) = 1 then 0 else h.val; rw [if_neg (by decide)]
    · exact shapeCast_apply b1 _ (ix2 0 h) (ix3 0 0 h) (by
        rw [Shape.rowMajor_val_three (d := ![1, 1, 1024]), Shape.rowMajor_val_two (d := ![1, 1024])]; simp)

theorem act_apply (s : FVec Ideal S100x1024 .f32) (i : S100x1024.Idx) : act s i = Cert.Stitch.softsign (s i) := rfl

/-- One trial's result at entry (f, p). -/
theorem trial_apply (x : Vec Ideal S1x100x512 .f32) (w1 : Vec Ideal S1x512x1024 .bf16) (b1 : Vec Ideal S1x1x1024 .f32)
    (w2 : Vec Ideal S1x1024x512 .bf16) (b2 : Vec Ideal S1x1x512 .f32) (f : Fin 100) (p : Fin 512) :
    trial x w1 b1 w2 b2 (ix3 0 f p)
      = (∑ h : Fin 1024, Cert.Stitch.softsign ((∑ n : Fin 512, x (ix3 0 f n) * w1 (ix3 0 n h)) + b1 (ix3 0 0 h))
            * w2 (ix3 0 h p)) + b2 (ix3 0 0 p) := by
  unfold trial
  refine (shapeCast_apply _ shapeCasts_S100x512_S1x100x512 (ix3 0 f p) (ix2 f p) (by
    rw [Shape.rowMajor_val_three (d := ![1, 100, 512]), Shape.rowMajor_val_two (d := ![100, 512])]; simp)).trans ?_
  rw [addf_apply, matmul2_apply]
  refine congrArg₂ (· + ·) (Finset.sum_congr rfl fun h _ => congrArg₂ (· * ·) ?_ ?_) ?_
  · show act (hid x w1 b1) (ix2 f h) = _
    rw [act_apply, hid_apply]
  · exact shapeCast_apply w2 _ (ix2 h p) (ix3 0 h p) (by
      rw [Shape.rowMajor_val_three (d := ![1, 1024, 512]), Shape.rowMajor_val_two (d := ![1024, 512])]; simp)
  · refine (broadcastTo_apply _ broadcasts_S1x512_S100x512 (ix2 f p) (ix2 0 p) (fun a => ?_)).trans ?_
    · match a with
      | ⟨0, _⟩ => show (0 : Nat) = if (1 : Nat) = 1 then 0 else _; rw [if_pos rfl]
      | ⟨1, _⟩ => show p.val = if (512 : Nat) = 1 then 0 else p.val; rw [if_neg (by decide)]
    · exact shapeCast_apply b2 _ (ix2 0 p) (ix3 0 0 p) (by
        rw [Shape.rowMajor_val_three (d := ![1, 1, 512]), Shape.rowMajor_val_two (d := ![1, 512])]; simp)

end Cert.KernelIdeal.Sample

end
-- ==== Proof.KILoads.lean ====
/-
  Loads through unit rectangles, read at an index.

  The body of the kernel reads a trial's row of the activity block, and an expert's slab of each resident block,
  through a rectangle of extent 1 along the leading axis placed at an offset (k, 0, 0): entry (0, b, c) of what is
  loaded is entry (k, b, c) of the block. It reads a trial's expert number as the one word at an offset (k) of the
  prefetched table: that word is the table's entry k.
-/
import proofs.«414796_j75995151335989_2_alg».proof.Proof.Gen.KernelIdeal.Frame.Runs
import Idealize.ShloMosaic.Lib.ValueIdx
import Idealize.ShloMosaic.Lib.Pipeline.Value
import Idealize.ShloMosaic.Lib.Pipeline.FrameBody

noncomputable section

namespace Cert.KernelIdeal.Loads

open Cert.KernelIdeal Cert.KernelIdeal.Gen Idealize.ShloMosaic Idealize.ShloMosaic.TcCoe Idealize.SL.Sem Idealize.ShloMosaic.ValueIdx

variable {F : FTy → Type} [FloatOps F]

/-- A [1, B, C] load at offset (k, 0, 0) of a whole [A, B, C] staging memref holding X reads X's slab k. -/
theorem load3 {sp : Space} {A B C : Nat} {e : EltTy} (M : Memref sig .tc sp (⟨3, ![A, B, C]⟩ : Shape) e) (hM : M.IsWhole)
    (X : Vec F (⟨3, ![A, B, C]⟩ : Shape) e) (off : Fin 3 → Nat)
    (inb : ∀ a, off a + (⟨3, ![1, B, C]⟩ : Shape).size a ≤ (⟨3, ![A, B, C]⟩ : Shape).size a)
    (k : Fin A) (hoff : off = ![k.val, 0, 0]) (b : Fin B) (c : Fin C) :
    View.readAt (Elt F) M.view (Rect.unit (s := (⟨3, ![A, B, C]⟩ : Shape)) off (⟨3, ![1, B, C]⟩ : Shape).size inb).toLoadRect
        (hM.unread X) (ix3 0 b c)
      = X (ix3 k b c) := by
  subst hoff
  -- what is loaded is X at the rectangle's placement of the index: offset plus 1 times the coordinate, per axis
  refine (congrFun (hM.read_unread X) _).trans (congrArg X (funext fun a => Fin.ext ?_))
  match a with
  | ⟨0, _⟩ => show k.val + 1 * 0 = k.val; omega
  | ⟨1, _⟩ => show 0 + 1 * b.val = b.val; omega
  | ⟨2, _⟩ => show 0 + 1 * c.val = c.val; omega

/-- The one word read at offset (k) of the table is the table's entry k. -/
theorem word1 (f : S128.Idx → BitVec 32) (off : Fin 1 → Nat) (inb : ∀ a, off a + S1.size a ≤ S128.size a)
    (h1 : 0 < S1.numel) (k : Fin 128) (hoff : off = ![k.val]) :
    tbM0_0.view.readAt (Elt F) (Rect.unit (s := S128) off S1.size inb).toLoadRect f (Shape.Idx.first h1) = f (ix1 k) := by
  subst hoff
  refine congrArg f (funext fun a => Fin.ext ?_)
  match a with
  | ⟨0, _⟩ => show k.val + 1 * 0 = k.val; omega

/-- A grid point's one coordinate is the point's number. -/
theorem coords_val (t : Fin grid0.N) : (grid0.coords t 0).val = t.val := by
  revert t
  decide +kernel

end Cert.KernelIdeal.Loads

end
-- ==== Proof.KIBlock.lean ====
/-
  What one grid point of the idealized kernel leaves in the output's staging block, entry by entry.

  A grid point handles 16 trials. Trial j of the point reads its expert e off the prefetched table (the word at
  position 16 t + j), then row j of the activity block and the expert's slices of the resident weight and bias blocks,
  and stores its [1, 100, 512] result as row j of the output block. So entry (j, f, p) of the block is one trial's
  arithmetic over those rows.
-/
import proofs.«414796_j75995151335989_2_alg».proof.Proof.Gen.KernelIdeal.Frame
import proofs.«414796_j75995151335989_2_alg».proof.Proof.KISample
import proofs.«414796_j75995151335989_2_alg».proof.Proof.KILoads
import proofs.«414796_j75995151335989_2_alg».proof.Proof.KITable
import proofs.«414796_j75995151335989_2_alg».proof.Proof.Spec
import Idealize.ShloMosaic.PureOps.Ideal
import Idealize.ShloMosaic.Lib.ValueIdx
import Idealize.ShloMosaic.Lib.Pipeline.Value

set_option maxRecDepth 16384

noncomputable section

open scoped BigOperators

namespace Cert.KernelIdeal.Block

open Cert.KernelIdeal Cert.KernelIdeal.Gen Idealize.ShloMosaic Idealize.ShloMosaic.TcCoe Idealize.ShloMosaic.Tactic Idealize.SL.Sem Idealize.ShloMosaic.ValueIdx
open Cert.Stitch (softsign)

/-! ## One function for the whole block -/

/-- Entry (j, f, p) of a block whose trial j used expert wd j: that trial's arithmetic over row j of the activity block
    X0 and rows wd j of the resident blocks X1 .. X4. -/
def gbAt (X0 : Vec Ideal S16x100x512 .f32) (X1 : Vec Ideal S8x512x1024 .bf16) (X2 : Vec Ideal S8x1x1024 .f32)
    (X3 : Vec Ideal S8x1024x512 .bf16) (X4 : Vec Ideal S8x1x512 .f32) (wd : Fin 16 → Fin 8)
    (j : Fin 16) (f : Fin 100) (p : Fin 512) : EReal :=
  (∑ h : Fin 1024, softsign ((∑ n : Fin 512, X0 (ix3 j f n) * X1 (ix3 (wd j) n h)) + X2 (ix3 (wd j) 0 h))
      * X3 (ix3 (wd j) h p))
    + X4 (ix3 (wd j) 0 p)

/-- The same as a function of the block's index. -/
def Gb (X0 : Vec Ideal S16x100x512 .f32) (X1 : Vec Ideal S8x512x1024 .bf16) (X2 : Vec Ideal S8x1x1024 .f32)
    (X3 : Vec Ideal S8x1024x512 .bf16) (X4 : Vec Ideal S8x1x512 .f32) (wd : Fin 16 → Fin 8) : S16x100x512.Idx → EReal :=
  fun y => gbAt X0 X1 X2 X3 X4 wd (y 0) (y 1) (y 2)

theorem Gb_apply (X0 : Vec Ideal S16x100x512 .f32) (X1 : Vec Ideal S8x512x1024 .bf16) (X2 : Vec Ideal S8x1x1024 .f32)
    (X3 : Vec Ideal S8x1024x512 .bf16) (X4 : Vec Ideal S8x1x512 .f32) (wd : Fin 16 → Fin 8) (j : Fin 16) (f : Fin 100)
    (p : Fin 512) : Gb X0 X1 X2 X3 X4 wd (ix3 j f p) = gbAt X0 X1 X2 X3 X4 wd j f p := rfl

/-- An index of a [1, 100, 512] piece has leading coordinate 0. -/
theorem eq_ix3_zero (x : (⟨3, ![1, 100, 512]⟩ : Shape).Idx) : x = ix3 0 (x 1) (x 2) := by
  funext a
  match a with
  | ⟨0, _⟩ => exact Fin.ext (Nat.lt_one_iff.mp (x 0).isLt)
  | ⟨1, _⟩ => rfl
  | ⟨2, _⟩ => rfl

/-- Row k of the block: the piece at offset (k, 0, 0) sends its entry (0, f, p) to the block's entry (k, f, p). -/
theorem emb_row (k : Nat) (inb : ∀ a, (![k, 0, 0] : Fin 3 → Nat) a + (![1, 100, 512] : Fin 3 → Nat) a ≤ S16x100x512.size a)
    (hk : k < 16) (f : Fin 100) (p : Fin 512) :
    (Rect.unit (s := S16x100x512) ![k, 0, 0] ![1, 100, 512] inb).emb (ix3 0 f p) = ix3 ⟨k, hk⟩ f p := by
  funext a
  apply Fin.ext
  match a with
  | ⟨0, _⟩ => show k + 1 * 0 = k; omega
  | ⟨1, _⟩ => show 0 + 1 * f.val = f.val; omega
  | ⟨2, _⟩ => show 0 + 1 * p.val = p.val; omega

/-- A table word that is the number e selects slab e: the printed offsets of the four slab loads. -/
theorem slab_off (v : BitVec 32) (e : Fin 8) (h : v.toNat = e.val) :
    (![(Scalar.indexCast v).toNat, 0, 0] : Fin 3 → Nat) = ![e.val, 0, 0] := by
  rw [show (Scalar.indexCast v).toNat = v.toNat from rfl, h]

/-- One trial over five loads — row k of the activity block, slab wd k of each resident block — is row k of Gb. -/
theorem piece_ok (X0 : Vec Ideal S16x100x512 .f32) (X1 : Vec Ideal S8x512x1024 .bf16) (X2 : Vec Ideal S8x1x1024 .f32)
    (X3 : Vec Ideal S8x1024x512 .bf16) (X4 : Vec Ideal S8x1x512 .f32) (wd : Fin 16 → Fin 8) (k : Fin 16)
    (M0 : Memref sig .tc .vmem S16x100x512 .f32) (h0 : M0.IsWhole) (M1 : Memref sig .tc .vmem S8x512x1024 .bf16) (h1 : M1.IsWhole)
    (M2 : Memref sig .tc .vmem S8x1x1024 .f32) (h2 : M2.IsWhole) (M3 : Memref sig .tc .vmem S8x1024x512 .bf16) (h3 : M3.IsWhole)
    (M4 : Memref sig .tc .vmem S8x1x512 .f32) (h4 : M4.IsWhole)
    (o0 o1 o2 o3 o4 : Fin 3 → Nat)
    (i0 : ∀ a, o0 a + S1x100x512.size a ≤ S16x100x512.size a) (i1 : ∀ a, o1 a + S1x512x1024.size a ≤ S8x512x1024.size a)
    (i2 : ∀ a, o2 a + S1x1x1024.size a ≤ S8x1x1024.size a) (i3 : ∀ a, o3 a + S1x1024x512.size a ≤ S8x1024x512.size a)
    (i4 : ∀ a, o4 a + S1x1x512.size a ≤ S8x1x512.size a)
    (e0 : o0 = ![k.val, 0, 0]) (e1 : o1 = ![(wd k).val, 0, 0]) (e2 : o2 = ![(wd k).val, 0, 0])
    (e3 : o3 = ![(wd k).val, 0, 0]) (e4 : o4 = ![(wd k).val, 0, 0]) (f : Fin 100) (p : Fin 512) :
    Sample.trial
        (View.readAt (Elt Ideal) M0.view (Rect.unit (s := S16x100x512) o0 S1x100x512.size i0).toLoadRect (h0.unread X0))
        (View.readAt (Elt Ideal) M1.view (Rect.unit (s := S8x512x1024) o1 S1x512x1024.size i1).toLoadRect (h1.unread X1))
        (View.readAt (Elt Ideal) M2.view (Rect.unit (s := S8x1x1024) o2 S1x1x1024.size i2).toLoadRect (h2.unread X2))
        (View.readAt (Elt Ideal) M3.view (Rect.unit (s := S8x1024x512) o3 S1x1024x512.size i3).toLoadRect (h3.unread X3))
        (View.readAt (Elt Ideal) M4.view (Rect.unit (s := S8x1x512) o4 S1x1x512.size i4).toLoadRect (h4.unread X4))
        (ix3 0 f p)
      = Gb X0 X1 X2 X3 X4 wd (ix3 k f p) := by
  rw [Sample.trial_apply, Gb_apply]
  unfold gbAt
  simp only [Loads.load3 M0 h0 X0 o0 i0 k e0, Loads.load3 M1 h1 X1 o1 i1 (wd k) e1, Loads.load3 M2 h2 X2 o2 i2 (wd k) e2,
    Loads.load3 M3 h3 X3 o3 i3 (wd k) e3, Loads.load3 M4 h4 X4 o4 i4 (wd k) e4]

variable (m : (ℓ : Loc nD τ sig) → Buf (Elt Ideal) ℓ)

/-- The blocks of point t, each under its literal type: the activity rows, the resident weights and biases, and what
    the point leaves in the output's staging block. -/
abbrev xblk (hO : Ok m) (c : Dev nD) (t : Fin (cfgM m hO).N) : Vec Ideal S16x100x512 .f32 := iblk m hO c 0 t
abbrev w1blk (hO : Ok m) (c : Dev nD) (t : Fin (cfgM m hO).N) : Vec Ideal S8x512x1024 .bf16 := iblk m hO c 1 t
abbrev b1blk (hO : Ok m) (c : Dev nD) (t : Fin (cfgM m hO).N) : Vec Ideal S8x1x1024 .f32 := iblk m hO c 2 t
abbrev w2blk (hO : Ok m) (c : Dev nD) (t : Fin (cfgM m hO).N) : Vec Ideal S8x1024x512 .bf16 := iblk m hO c 3 t
abbrev b2blk (hO : Ok m) (c : Dev nD) (t : Fin (cfgM m hO).N) : Vec Ideal S8x1x512 .f32 := iblk m hO c 4 t
abbrev oblk (hO : Ok m) (hH : Hyps m hO) (c : Dev nD) (t : Fin (cfgM m hO).N) : Vec Ideal S16x100x512 .f32 :=
  outsAt0 m hO hH c t

/-- Piece k of the 16: its payload is one trial over the point's loads, so it is row k of Gb. The arguments are the
    row number, the closed form of the position the trial's word is read at, and the local facts about the words. -/
local macro "piece_case " k:num oe:ident wd:ident hw:ident t:ident : tactic =>
  `(tactic| (
    intro x
    obtain ⟨f', p', hx⟩ : ∃ (f' : Fin 100) (p' : Fin 512), x = ix3 0 f' p' := ⟨x 1, x 2, eq_ix3_zero x⟩
    subst hx
    have hoff : ∀ i : grid0.Coords, (i 0).val = ($t).val → _ = (![16 * ($t).val + $k] : Fin 1 → Nat) :=
      fun i hi => ($oe i).trans (by simp only [hi, Nat.add_zero])
    have hwk := fun inb h1 => $hw ⟨$k, by decide⟩ _ inb h1 (hoff (grid0.coords $t) (Loads.coords_val $t))
    refine (piece_ok _ _ _ _ _ $wd ⟨$k, by decide⟩ _ _ _ _ _ _ _ _ _ _ _ _ _ _ _ _ _ _ _ _ (Eq.refl _)
      (slab_off _ _ (hwk _ _)) (slab_off _ _ (hwk _ _)) (slab_off _ _ (hwk _ _)) (slab_off _ _ (hwk _ _)) f' p').trans ?_
    dsimp only
    rw [emb_row $k _ (by decide) f' p']))

/-- Entry (j, f, p) of the block point t leaves: trial j's arithmetic over row j of the activity block and rows e of
    the weight and bias blocks, e the number the table holds at position 16 t + j. -/
theorem outs_apply (hO : Ok m) (hH : Hyps m hO) (c : Dev nD) (t : Fin (cfgM m hO).N) (j : Fin 16) (f : Fin 100) (p : Fin 512)
    (e : Fin 8) (hb : 16 * t.val + j.val < 128)
    (he : ((tbl m 0 : S128.Idx → BitVec 32) (ix1 ⟨16 * t.val + j.val, hb⟩)).toNat = e.val) :
    oblk m hO hH c t (ix3 j f p)
      = (∑ h : Fin 1024, Cert.Stitch.softsign
            ((∑ n : Fin 512, xblk m hO c t (ix3 j f n) * w1blk m hO c t (ix3 e n h)) + b1blk m hO c t (ix3 e 0 h))
          * w2blk m hO c t (ix3 e h p))
        + b2blk m hO c t (ix3 e 0 p) := by
  have hN : t.val < 8 := by
    have h8 : (cfgM m hO).N = 8 := N_0
    have := t.isLt
    omega
  obtain ⟨wd, hwd⟩ : ∃ wd : Fin 16 → Fin 8, ∀ (k : Fin 16) (hk : 16 * t.val + k.val < 128),
      ((tbl m 0 : S128.Idx → BitVec 32) (ix1 ⟨16 * t.val + k.val, hk⟩)).toNat = (wd k).val :=
    ⟨fun k => ⟨((tbl m 0 : S128.Idx → BitVec 32) (ix1 ⟨16 * t.val + k.val, by have := k.isLt; omega⟩)).toNat,
      Tab.tbl_lt m _⟩, fun k hk => rfl⟩
  have hwe : wd j = e := Fin.ext ((hwd j hb).symm.trans he)
  -- the word each trial reads off the table is the table's entry at the trial's position
  have hw : ∀ (k : Fin 16) (off : Fin 1 → Nat) (inb : ∀ a, off a + S1.size a ≤ S128.size a) (h1 : 0 < S1.numel),
      off = ![16 * t.val + k.val] →
      (tbM0_0.view.readAt (Elt Ideal) (Rect.unit (s := S128) off S1.size inb).toLoadRect (tbl m 0) (Shape.Idx.first h1)).toNat
        = (wd k).val := by
    intro k off inb h1 hoff
    have hk : 16 * t.val + k.val < 128 := by have := k.isLt; omega
    rw [Loads.word1 (tbl m 0) off inb h1 ⟨16 * t.val + k.val, hk⟩ hoff]
    exact hwd k hk
  show outsAt0 m hO hH c t (ix3 j f p) = _
  unfold outsAt0 out0_A_5
  rw [View.read_writes_junk_eq_canon]
  refine (View.canon_apply_of_pieces
    (Gb (xblk m hO c t) (w1blk m hO c t) (b1blk m hO c t) (w2blk m hO c t) (b2blk m hO c t) wd) _ ?_ (ix3 j f p)
    (cover0_A_5 c _ _ _ _ _ _ _ _ _ _ _ _ _ _ _ _ _ _ _ _ _ _ _ _ _ _ _ _ _ _ _ _ _ _ _ (ix3 j f p))).trans ?_
  · unfold kernelRun0_A
    dsimp only
    sl_unfold_run_names
    intro pc hpc
    simp only [List.mem_cons, List.not_mem_nil, or_false] at hpc
    rcases hpc with rfl | rfl | rfl | rfl | rfl | rfl | rfl | rfl | rfl | rfl | rfl | rfl | rfl | rfl | rfl | rfl
    · piece_case 15 k0_off76_eq wd hw t
    · piece_case 14 k0_off71_eq wd hw t
    · piece_case 13 k0_off66_eq wd hw t
    · piece_case 12 k0_off61_eq wd hw t
    · piece_case 11 k0_off56_eq wd hw t
    · piece_case 10 k0_off51_eq wd hw t
    · piece_case 9 k0_off46_eq wd hw t
    · piece_case 8 k0_off41_eq wd hw t
    · piece_case 7 k0_off36_eq wd hw t
    · piece_case 6 k0_off31_eq wd hw t
    · piece_case 5 k0_off26_eq wd hw t
    · piece_case 4 k0_off21_eq wd hw t
    · piece_case 3 k0_off16_eq wd hw t
    · piece_case 2 k0_off11_eq wd hw t
    · piece_case 1 k0_off6_eq wd hw t
    · piece_case 0 k0_off1_eq wd hw t
  · rw [Gb_apply]
    unfold gbAt
    rw [hwe]

end Cert.KernelIdeal.Block

end
-- ==== Proof.KIArrays.lean ====
/-
  The arrays the idealized kernel's windows stage, as the region finds them, read at an index: the two weight arrays
  after their change of float format (the identity on the extended reals) and the two bias arrays after a unit axis is
  inserted, each in terms of the program's own arguments.
-/
import proofs.«414796_j75995151335989_2_alg».proof.Proof.Gen.KernelIdeal.Frame
import Idealize.ShloMosaic.PureOps.Ideal
import Idealize.ShloMosaic.Lib.StableHlo.Run
import Idealize.ShloMosaic.Lib.ValueIdx
import Idealize.ShloMosaic.Lib.Pipeline.Value

noncomputable section

namespace Cert.KernelIdeal.Arr

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The whole arrays when the region is entered

Before the region the program writes four arrays from its arguments, one operation each: the two weight stacks with
their float format narrowed, the two bias arrays with a unit axis inserted in the middle. Nothing else writes them. -/

/-- The first weight stack: the argument, narrowed. -/
theorem V_w1 (c : Dev nD) :
    (V m c main_v1 : S8x512x1024.Idx → EReal)
      = truncf (F := Ideal) (φ := .f32) .bf16 (m ((c : Thread nD τ).loc main_arg2) : S8x512x1024.Idx → EReal)
          Facts₀.bitsLt_bf16_f32 := by
  dsimp only [V]
  simp only [hostOps0, hostOps0_1, hostOps0_2, List.flatten_cons, List.flatten_nil, List.append_nil, List.cons_append,
    List.nil_append]
  after_results

/-- The second weight stack: the argument, narrowed. -/
theorem V_w2 (c : Dev nD) :
    (V m c main_v2 : S8x1024x512.Idx → EReal)
      = truncf (F := Ideal) (φ := .f32) .bf16 (m ((c : Thread nD τ).loc main_arg4) : S8x1024x512.Idx → EReal)
          Facts₀.bitsLt_bf16_f32 := by
  dsimp only [V]
  simp only [hostOps0, hostOps0_1, hostOps0_2, List.flatten_cons, List.flatten_nil, List.append_nil, List.cons_append,
    List.nil_append]
  after_results

/-- The first bias as [8, 1, 1024]: the [8, 1024] argument laid on axes 0 and 2. -/
theorem V_b1 (c : Dev nD) :
    (V m c main_v3 : S8x1x1024.Idx → EReal)
      = broadcastInDim S8x1x1024 ![0, 2] Facts₀.bcast_S8x1024_S8x1x1024_0_2
          (m ((c : Thread nD τ).loc main_arg3) : S8x1024.Idx → EReal) := by
  dsimp only [V]
  simp only [hostOps0, hostOps0_1, hostOps0_2, List.flatten_cons, List.flatten_nil, List.append_nil, List.cons_append,
    List.nil_append]
  after_results

/-- The second bias as [8, 1, 512]: the [8, 512] argument laid on axes 0 and 2. -/
theorem V_b2 (c : Dev nD) :
    (V m c main_v4 : S8x1x512.Idx → EReal)
      = broadcastInDim S8x1x512 ![0, 2] Facts₀.bcast_S8x512_S8x1x512_0_2
          (m ((c : Thread nD τ).loc main_arg5) : S8x512.Idx → EReal) := by
  dsimp only [V]
  simp only [hostOps0, hostOps0_1, hostOps0_2, List.flatten_cons, List.flatten_nil, List.append_nil, List.cons_append,
    List.nil_append]
  after_results

/-! ## Read at an index -/

/-- Laying an [8, A] array on axes 0 and 2 of [8, 1, A]: entry (e, 0, a) is the array's (e, a). The array is a
    variable here. -/
theorem lay_apply {A : Nat} (hA : A ≠ 1) (hb : (⟨2, ![8, A]⟩ : Shape).BroadcastsInDim ⟨3, ![8, 1, A]⟩ ![0, 2])
    (y : (⟨2, ![8, A]⟩ : Shape).Idx → EReal) (e : Fin 8) (a : Fin A) :
    broadcastInDim (⟨3, ![8, 1, A]⟩ : Shape) ![0, 2] hb y (ix3 e 0 a) = y (ix2 e a) :=
  broadcastInDim_apply _ hb y (ix3 e 0 a) (ix2 e a) (fun k => match k with
    | ⟨0, _⟩ => by show e.val = if (8 : Nat) = 1 then 0 else e.val; rw [if_neg (by decide)]
    | ⟨1, _⟩ => by show a.val = if A = 1 then 0 else a.val; rw [if_neg hA])

/-- The first weights, converted: entry by entry the argument's. -/
theorem w1_apply (c : Dev nD) (e : Fin 8) (n : Fin 512) (h : Fin 1024) :
    (V m c main_v1 : S8x512x1024.Idx → EReal) (ix3 e n h)
      = (m ((c : Thread nD τ).loc main_arg2) : S8x512x1024.Idx → EReal) (ix3 e n h) := by
  rw [V_w1]
  rfl

/-- The first bias with a unit middle axis: row e, column h of the argument. -/
theorem b1_apply (c : Dev nD) (e : Fin 8) (h : Fin 1024) :
    (V m c main_v3 : S8x1x1024.Idx → EReal) (ix3 e 0 h)
      = (m ((c : Thread nD τ).loc main_arg3) : S8x1024.Idx → EReal) (ix2 e h) := by
  rw [V_b1]
  exact lay_apply (by decide) _ _ e h

/-- The second weights, converted. -/
theorem w2_apply (c : Dev nD) (e : Fin 8) (h : Fin 1024) (p : Fin 512) :
    (V m c main_v2 : S8x1024x512.Idx → EReal) (ix3 e h p)
      = (m ((c : Thread nD τ).loc main_arg4) : S8x1024x512.Idx → EReal) (ix3 e h p) := by
  rw [V_w2]
  rfl

/-- The second bias with a unit middle axis. -/
theorem b2_apply (c : Dev nD) (e : Fin 8) (p : Fin 512) :
    (V m c main_v4 : S8x1x512.Idx → EReal) (ix3 e 0 p)
      = (m ((c : Thread nD τ).loc main_arg5) : S8x512.Idx → EReal) (ix2 e p) := by
  rw [V_b2]
  exact lay_apply (by decide) _ _ e p

end Cert.KernelIdeal.Arr

end
-- ==== Proof.KIFinal.lean ====
/-
  From the blocks to the array: what the idealized kernel's output array holds after the run.

  Grid point t writes back rows 16 t .. 16 t + 15 of the [128, 100, 512] output, and the eight points cover every row;
  the activity block of point t is rows 16 t .. 16 t + 15 of the input, the weight and bias blocks are the whole
  (converted, re-shaped) arrays at every point. Read through these windows, a block's entry (j, f, p) is the
  specification's value at trial 16 t + j with the expert the table holds for that trial, which is the clamp of the
  trial's id. So the output array ends at G of the program's arguments.
-/
import proofs.«414796_j75995151335989_2_alg».proof.Proof.Gen.KernelIdeal.Frame
import proofs.«414796_j75995151335989_2_alg».proof.Proof.KIBlock
import proofs.«414796_j75995151335989_2_alg».proof.Proof.KIArrays
import proofs.«414796_j75995151335989_2_alg».proof.Proof.KITable
import proofs.«414796_j75995151335989_2_alg».proof.Proof.Spec
import Idealize.ShloMosaic.PureOps.Ideal
import Idealize.ShloMosaic.Lib.ValueIdx
import Idealize.ShloMosaic.Lib.Pipeline.Value

set_option maxRecDepth 16384

noncomputable section

open scoped BigOperators

namespace Cert.KernelIdeal.Final

open Cert.KernelIdeal Cert.KernelIdeal.Gen Cert.KernelIdeal.Block Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- The specification at the program's arguments as core c holds them, each trial's expert the clamp of its id. -/
abbrev Gm (c : Dev nD) : S128x100x512.Idx → EReal :=
  Cert.Stitch.G (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))
    (fun b => Cert.Stitch.expert ((m ((c.tc : Thread nD τ).loc main_arg1) : S128.Idx → BitVec 32) (ix1 b)))

/-! ## Where the blocks sit, at any contents of the table

The index maps read no table word: the activity and the output move along the trials, 16 rows a point; the weights and
biases stay put. Everything here is stated over the pipeline at ANY admissible table contents. -/

/-- The activity's block index at point t is (t, 0, 0): decided over the eight points. -/
theorem x_index : ∀ t : Fin grid0.N, cc0_transform_0 (grid0.coords t) (0 : Fin 3) = t.val
    ∧ cc0_transform_0 (grid0.coords t) (1 : Fin 3) = 0 ∧ cc0_transform_0 (grid0.coords t) (2 : Fin 3) = 0 := by
  decide +kernel

/-- So is the output's. -/
theorem out_index : ∀ t : Fin grid0.N, cc0_transform_5 (grid0.coords t) (0 : Fin 3) = t.val
    ∧ cc0_transform_5 (grid0.coords t) (1 : Fin 3) = 0 ∧ cc0_transform_5 (grid0.coords t) (2 : Fin 3) = 0 := by
  decide +kernel

/-- The weight and bias windows sit at block (0, 0, 0) at every point. -/
theorem w1_index (i : grid0.Coords) (k : Fin 3) : cc0_transform_1 i k = 0 := by fin_cases k <;> rfl
theorem b1_index (i : grid0.Coords) (k : Fin 3) : cc0_transform_2 i k = 0 := by fin_cases k <;> rfl
theorem w2_index (i : grid0.Coords) (k : Fin 3) : cc0_transform_3 i k = 0 := by fin_cases k <;> rfl
theorem b2_index (i : grid0.Coords) (k : Fin 3) : cc0_transform_4 i k = 0 := by fin_cases k <;> rfl

/-- There are eight points. -/
theorem N_eq (a : (pcfg0 (F := Ideal)).Adm) : (cfg0 a).N = 8 := N_0

/-- Entry (j, f, n) of the activity block at point t is entry (16 t + j, f, n) of the activity. -/
theorem x_emb (a : (pcfg0 (F := Ideal)).Adm) (t : Fin (cfg0 a).N) (j : Fin 16) (f : Fin 100) (n : Fin 512)
    (hb : 16 * t.val + j.val < 128) :
    (((cfg0 a).win 0).blk t).view.emb (ix3 j f n) = (ix3 ⟨16 * t.val + j.val, hb⟩ f n : S128x100x512.Idx) := by
  obtain ⟨e0, e1, e2⟩ := x_index t
  funext k; apply Fin.ext
  match k with
  | ⟨0, _⟩ => show cc0_transform_0 (grid0.coords t) (0 : Fin 3) * 16 + 1 * j.val = 16 * t.val + j.val; omega
  | ⟨1, _⟩ => show cc0_transform_0 (grid0.coords t) (1 : Fin 3) * 100 + 1 * f.val = f.val; omega
  | ⟨2, _⟩ => show cc0_transform_0 (grid0.coords t) (2 : Fin 3) * 512 + 1 * n.val = n.val; omega

/-- Likewise the output block. -/
theorem out_emb (a : (pcfg0 (F := Ideal)).Adm) (t : Fin (cfg0 a).N) (j : Fin 16) (f : Fin 100) (p : Fin 512)
    (hb : 16 * t.val + j.val < 128) :
    (((cfg0 a).win 5).blk t).view.emb (ix3 j f p) = (ix3 ⟨16 * t.val + j.val, hb⟩ f p : S128x100x512.Idx) := by
  obtain ⟨e0, e1, e2⟩ := out_index t
  funext k; apply Fin.ext
  match k with
  | ⟨0, _⟩ => show cc0_transform_5 (grid0.coords t) (0 : Fin 3) * 16 + 1 * j.val = 16 * t.val + j.val; omega
  | ⟨1, _⟩ => show cc0_transform_5 (grid0.coords t) (1 : Fin 3) * 100 + 1 * f.val = f.val; omega
  | ⟨2, _⟩ => show cc0_transform_5 (grid0.coords t) (2 : Fin 3) * 512 + 1 * p.val = p.val; omega

/-- A weight or bias block is the whole array: an entry of the block is that entry of the array. -/
theorem w1_emb (a : (pcfg0 (F := Ideal)).Adm) (t : Fin (cfg0 a).N) (y : S8x512x1024.Idx) :
    (((cfg0 a).win 1).blk t).view.emb y = y := by
  funext k; apply Fin.ext
  have hk : cc0_transform_1 (grid0.coords t) k = 0 := w1_index _ k
  show cc0_transform_1 (grid0.coords t) k * S8x512x1024.size k + 1 * (y k).val = (y k).val
  rw [hk, Nat.zero_mul, Nat.zero_add, Nat.one_mul]
theorem b1_emb (a : (pcfg0 (F := Ideal)).Adm) (t : Fin (cfg0 a).N) (y : S8x1x1024.Idx) :
    (((cfg0 a).win 2).blk t).view.emb y = y := by
  funext k; apply Fin.ext
  have hk : cc0_transform_2 (grid0.coords t) k = 0 := b1_index _ k
  show cc0_transform_2 (grid0.coords t) k * S8x1x1024.size k + 1 * (y k).val = (y k).val
  rw [hk, Nat.zero_mul, Nat.zero_add, Nat.one_mul]
theorem w2_emb (a : (pcfg0 (F := Ideal)).Adm) (t : Fin (cfg0 a).N) (y : S8x1024x512.Idx) :
    (((cfg0 a).win 3).blk t).view.emb y = y := by
  funext k; apply Fin.ext
  have hk : cc0_transform_3 (grid0.coords t) k = 0 := w2_index _ k
  show cc0_transform_3 (grid0.coords t) k * S8x1024x512.size k + 1 * (y k).val = (y k).val
  rw [hk, Nat.zero_mul, Nat.zero_add, Nat.one_mul]
theorem b2_emb (a : (pcfg0 (F := Ideal)).Adm) (t : Fin (cfg0 a).N) (y : S8x1x512.Idx) :
    (((cfg0 a).win 4).blk t).view.emb y = y := by
  funext k; apply Fin.ext
  have hk : cc0_transform_4 (grid0.coords t) k = 0 := b2_index _ k
  show cc0_transform_4 (grid0.coords t) k * S8x1x512.size k + 1 * (y k).val = (y k).val
  rw [hk, Nat.zero_mul, Nat.zero_add, Nat.one_mul]

/-- A row of the output is in point t's block iff each coordinate is in the block's range on its axis. -/
theorem mem_out (a : (pcfg0 (F := Ideal)).Adm) (t : Fin (cfg0 a).N) (i : S128x100x512.Idx) :
    i ∈ (((cfg0 a).win 5).blk t).view.set ↔ ∀ k : Fin 3, cc0_transform_5 (grid0.coords t) k * S16x100x512.size k ≤ (i k).val
      ∧ (i k).val < cc0_transform_5 (grid0.coords t) k * S16x100x512.size k + S16x100x512.size k := by
  have hs : (((cfg0 a).win 5).blk t).view.set = (((cfg0 a).win 5).rect t).set := View.set_slice_whole main_v5 _
  rw [hs]
  exact Rect.mem_set_unit

/-- Every entry of the output is in the block of the point its trial belongs to: trial b in point b / 16. -/
theorem cover (a : (pcfg0 (F := Ideal)).Adm) (i : S128x100x512.Idx) :
    ∃ t : Fin (cfg0 a).N, ((cfg0 a).win 5).flush t = true ∧ i ∈ (((cfg0 a).win 5).blk t).view.set := by
  have h0 : (i 0).val < 128 := (i 0).isLt
  have h1 : (i 1).val < 100 := (i 1).isLt
  have h2 : (i 2).val < 512 := (i 2).isLt
  have hN : (cfg0 a).N = 8 := N_eq a
  refine ⟨⟨(i 0).val / 16, by rw [hN]; omega⟩, flush0_5 a _, ?_⟩
  rw [mem_out]
  obtain ⟨e0, e1, e2⟩ := out_index ⟨(i 0).val / 16, by rw [N_0]; omega⟩
  intro k
  match k with
  | ⟨0, _⟩ =>
    show cc0_transform_5 (grid0.coords ⟨(i 0).val / 16, _⟩) (0 : Fin 3) * 16 ≤ (i 0).val
      ∧ (i 0).val < cc0_transform_5 (grid0.coords ⟨(i 0).val / 16, _⟩) (0 : Fin 3) * 16 + 16
    rw [e0]; show (i 0).val / 16 * 16 ≤ (i 0).val ∧ (i 0).val < (i 0).val / 16 * 16 + 16; omega
  | ⟨1, _⟩ =>
    show cc0_transform_5 (grid0.coords ⟨(i 0).val / 16, _⟩) (1 : Fin 3) * 100 ≤ (i 1).val
      ∧ (i 1).val < cc0_transform_5 (grid0.coords ⟨(i 0).val / 16, _⟩) (1 : Fin 3) * 100 + 100
    rw [e1]; omega
  | ⟨2, _⟩ =>
    show cc0_transform_5 (grid0.coords ⟨(i 0).val / 16, _⟩) (2 : Fin 3) * 512 ≤ (i 2).val
      ∧ (i 2).val < cc0_transform_5 (grid0.coords ⟨(i 0).val / 16, _⟩) (2 : Fin 3) * 512 + 512
    rw [e2]; omega

/-! ## The blocks read off the arguments -/

/-- The activity block at point t, entry (j, f, n): the activity at trial 16 t + j. -/
theorem xblk_apply (hO : Ok m) (c : Dev nD) (t : Fin (cfgM m hO).N) (j : Fin 16) (f : Fin 100) (n : Fin 512)
    (hb : 16 * t.val + j.val < 128) :
    xblk m hO c t (ix3 j f n)
      = (m ((c.tc : Thread nD τ).loc main_arg0) : S128x100x512.Idx → EReal) (ix3 ⟨16 * t.val + j.val, hb⟩ f n) := by
  have e := x_emb (adm m hO) t j f n hb
  show V m c main_arg0 ((((cfgM m hO).win 0).blk t).view.emb (ix3 j f n)) = _
  rw [e, V_main_arg0]

/-- The first layer's weights as the block holds them: the argument's. -/
theorem w1blk_apply (hO : Ok m) (c : Dev nD) (t : Fin (cfgM m hO).N) (e : Fin 8) (n : Fin 512) (h : Fin 1024) :
    w1blk m hO c t (ix3 e n h) = (m ((c.tc : Thread nD τ).loc main_arg2) : S8x512x1024.Idx → EReal) (ix3 e n h) := by
  have e' := w1_emb (adm m hO) t (ix3 e n h)
  show V m c main_v1 ((((cfgM m hO).win 1).blk t).view.emb (ix3 e n h)) = _
  rw [e']
  exact Arr.w1_apply m c e n h

/-- The first layer's bias. -/
theorem b1blk_apply (hO : Ok m) (c : Dev nD) (t : Fin (cfgM m hO).N) (e : Fin 8) (h : Fin 1024) :
    b1blk m hO c t (ix3 e 0 h) = (m ((c.tc : Thread nD τ).loc main_arg3) : S8x1024.Idx → EReal) (ix2 e h) := by
  have e' := b1_emb (adm m hO) t (ix3 e 0 h)
  show V m c main_v3 ((((cfgM m hO).win 2).blk t).view.emb (ix3 e 0 h)) = _
  rw [e']
  exact Arr.b1_apply m c e h

/-- The second layer's weights. -/
theorem w2blk_apply (hO : Ok m) (c : Dev nD) (t : Fin (cfgM m hO).N) (e : Fin 8) (h : Fin 1024) (p : Fin 512) :
    w2blk m hO c t (ix3 e h p) = (m ((c.tc : Thread nD τ).loc main_arg4) : S8x1024x512.Idx → EReal) (ix3 e h p) := by
  have e' := w2_emb (adm m hO) t (ix3 e h p)
  show V m c main_v2 ((((cfgM m hO).win 3).blk t).view.emb (ix3 e h p)) = _
  rw [e']
  exact Arr.w2_apply m c e h p

/-- The second layer's bias. -/
theorem b2blk_apply (hO : Ok m) (c : Dev nD) (t : Fin (cfgM m hO).N) (e : Fin 8) (p : Fin 512) :
    b2blk m hO c t (ix3 e 0 p) = (m ((c.tc : Thread nD τ).loc main_arg5) : S8x512.Idx → EReal) (ix2 e p) := by
  have e' := b2_emb (adm m hO) t (ix3 e 0 p)
  show V m c main_v4 ((((cfgM m hO).win 4).blk t).view.emb (ix3 e 0 p)) = _
  rw [e']
  exact Arr.b2_apply m c e p

/-! ## A block of the output is a block of the specification -/

/-- The expert the table holds for trial b is the clamp of the trial's id. -/
theorem tbl_expert (b : Fin 128) :
    ((tbl m 0 : S128.Idx → BitVec 32) (ix1 b)).toNat
      = (Cert.Stitch.expert ((m (((0 : Dev nD).tc : Thread nD τ).loc main_arg1) : S128.Idx → BitVec 32) (ix1 b))).val := by
  rw [Tab.tbl_apply]; exact Cert.Stitch.clip_toNat _

/-- Entry (j, f, p) of what point t leaves in the output block is the specification at trial 16 t + j. -/
theorem oblk_apply (hO : Ok m) (hH : Hyps m hO) (c : Dev nD) (t : Fin (cfgM m hO).N) (j : Fin 16) (f : Fin 100) (p : Fin 512)
    (hb : 16 * t.val + j.val < 128) :
    oblk m hO hH c t (ix3 j f p) = Gm m c (ix3 ⟨16 * t.val + j.val, hb⟩ f p) := by
  obtain rfl : c = 0 := Subsingleton.elim _ _
  rw [outs_apply m hO hH 0 t j f p _ hb (tbl_expert m ⟨16 * t.val + j.val, hb⟩)]
  simp only [xblk_apply m hO 0 t j f _ hb, w1blk_apply, b1blk_apply, w2blk_apply, b2blk_apply]
  rfl

/-- WHAT POINT t WRITES BACK is its block of the specification. -/
theorem flushed_eq (hO : Ok m) (hH : Hyps m hO) (c : Dev nD) (t : Fin (cfgM m hO).N) :
    (dats m hO hH 0 c).flushed 5 t = (((cfgM m hO).win 5).blk t).view.read (Elt Ideal) (Gm m c) := by
  show ((cfgM m hO).win 5).cut (grid0.coords t) ((dats m hO hH 0 c).after 5 t) = _
  rw [after0_5]
  refine funext fun (y : S16x100x512.Idx) => ?_
  have ht : t.val < 8 := by have := t.isLt; have hN : (cfgM m hO).N = 8 := N_eq (adm m hO); omega
  obtain ⟨j, f, p, rfl⟩ : ∃ (j : Fin 16) (f : Fin 100) (p : Fin 512), y = ix3 j f p := ⟨y 0, y 1, y 2, eq_ix3 y⟩
  have hb : 16 * t.val + j.val < 128 := by have := j.isLt; omega
  have e := out_emb (adm m hO) t j f p hb
  show oblk m hO hH c t (ix3 j f p) = Gm m c ((((cfgM m hO).win 5).blk t).view.emb (ix3 j f p))
  rw [e]
  exact oblk_apply m hO hH c t j f p hb

/-- The output array after the last write-back. -/
theorem final (hO : Ok m) (hH : Hyps m hO) (c : Dev nD) : (dats m hO hH 0 c).arrAt 5 (cfgM m hO).N = Gm m c :=
  (dats m hO hH 0 c).arrAt_eq_of_cover 5 (Gm m c) (fun t _ => flushed_eq m hO hH c t) (cover (adm m hO))

/-- The run, with the result named: every weakly fair execution ends with the output array at G of the arguments
    and the arguments unchanged. -/
theorem run (hO : Ok m) (hH : Hyps m hO) :
    θ_run defs (onTc (τ := τ) (main (F := Ideal))) ⟨m, fun _ => 0, ρ⟩ (fun r => ∀ c : Dev nD,
      r.2.mem ((c.tc : Thread nD τ).loc main_v5) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 5).trans (final m hO hH c),
      ((h c).1 0).trans (((dats m hO hH 0 c).arrAt_in 0 rfl _).trans ((A_eq m hO hH c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hO hH)

end Cert.KernelIdeal.Final

end
-- ==== Proof.RefValue.lean ====
/-
  The reference program's result, read index by index, is the function G of Spec.lean at the expert map
  b ↦ expert (eid b), for ids that are not negative.

  The program takes, per trial, the expert's slab of each weight array by a gather along axis 0 whose start
  index is the trial's id word after "add 8 if negative"; the gather itself clamps that start into [0, 7]. For
  an id that is not negative the word is unchanged, so the slab read is the one of expert (id). The rest is two
  contractions (sums over the shared axis), the bias rows spread over the time bins, and softsign in between.
-/
import proofs.«414796_j75995151335989_2_alg».proof.Proof.Gen.ReferenceIdeal.Run
import proofs.«414796_j75995151335989_2_alg».proof.Proof.Gen.ReferenceIdeal.Read
import proofs.«414796_j75995151335989_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Taking whole slabs along axis 0: the gather read at an index

The operand is [E, A, B] (or [E, A]), the start indices are an [R, 1] column, the result is [R, A, B] (or [R, A]):
axis 0 of the operand is collapsed (slice size 1) and is the one axis the start index names; the other axes are taken
whole and become the result's offset axes. Result element (r, a, b) is the operand at (s, a, b) with s the start
word idx[r, 0] read signed and clamped into [0, E − 1]; the lemmas take that row s as a number below E together
with the equation saying so. -/

section Slab
variable {α : Type}

/-- Those dimension numbers for a rank-3 operand. -/
abbrev slabDims3 (E A B R : Nat)
    (wf : GatherDims.WF ⟨3, ![E, A, B]⟩ ⟨2, ![R, 1]⟩ ⟨3, ![R, A, B]⟩ [1, 2] [0] [] [0] [] 1 ![1, A, B]) :
    GatherDims ⟨3, ![E, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Those dimension numbers for a rank-2 operand. -/
abbrev slabDims2 (E A R : Nat)
    (wf : GatherDims.WF ⟨2, ![E, A]⟩ ⟨2, ![R, 1]⟩ ⟨2, ![R, A]⟩ [1] [0] [] [0] [] 1 ![1, A]) :
    GatherDims ⟨2, ![E, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

/-- The rank-3 gather at (r, a, b): the operand at (clamped start word of row r, a, b). -/
theorem gather_slab3_apply {E A B R w : Nat}
    (wf : GatherDims.WF ⟨3, ![E, A, B]⟩ ⟨2, ![R, 1]⟩ ⟨3, ![R, A, B]⟩ [1, 2] [0] [] [0] [] 1 ![1, A, B])
    (x : (⟨3, ![E, A, B]⟩ : Shape).Idx → α) (idx : IVec ⟨2, ![R, 1]⟩ w) (r : Fin R) (a : Fin A) (b : Fin B)
    (e : Fin E) (he : e.val = min (idx (ix2 r 0)).toInt.toNat (E - 1)) :
    Host.gather (slabDims3 E A B R wf) x idx (ix3 r a b) = x (ix3 e a b) := by
  unfold Host.gather
  congr 1
  funext c
  refine Fin.ext ?_
  -- the start-indices index the one component of row r's start index is read at
  have hsi : (slabDims3 E A B R wf).siIdx (ix3 r a b) ⟨List.idxOf (0 : Fin 3) (slabDims3 E A B R wf).startIndexMap,
      List.idxOf_lt_length_iff.2 (List.mem_singleton.mpr rfl)⟩ = ix2 r 0 := by
    funext d; refine Fin.ext ?_
    match d with
    | ⟨0, _⟩ => rfl
    | ⟨1, _⟩ => rfl
  match c with
  | ⟨0, _⟩ =>
    -- the collapsed axis: the clamped start, no batching part, no offset part
    show (slabDims3 E A B R wf).start (ix3 r a b) idx (0 : Fin 3) + (slabDims3 E A B R wf).batchCoord (ix3 r a b) (0 : Fin 3)
        + (slabDims3 E A B R wf).offCoord (ix3 r a b) (0 : Fin 3) = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims3 E A B R wf).startIndexMap from List.mem_singleton.mpr rfl), hsi]
    exact he.symm
  | ⟨1, _⟩ =>
    -- an axis taken whole: start 0, no batching part, the result's own coordinate as offset
    show (slabDims3 E A B R wf).start (ix3 r a b) idx (1 : Fin 3) + (slabDims3 E A B R wf).batchCoord (ix3 r a b) (1 : Fin 3)
        + (slabDims3 E A B R wf).offCoord (ix3 r a b) (1 : Fin 3) = a.val
    rw [GatherDims.batchCoord_eq_zero _ _ _ List.not_mem_nil]
    unfold GatherDims.start
    rw [dif_neg (fun hm : (1 : Fin 3) ∈ (slabDims3 E A B R wf).startIndexMap =>
      absurd (List.mem_singleton.mp hm) (show ¬ (1 : Fin 3) = 0 by decide))]
    simp only [Nat.add_zero, Nat.zero_add]
    rfl
  | ⟨2, _⟩ =>
    show (slabDims3 E A B R wf).start (ix3 r a b) idx (2 : Fin 3) + (slabDims3 E A B R wf).batchCoord (ix3 r a b) (2 : Fin 3)
        + (slabDims3 E A B R wf).offCoord (ix3 r a b) (2 : Fin 3) = b.val
    rw [GatherDims.batchCoord_eq_zero _ _ _ List.not_mem_nil]
    unfold GatherDims.start
    rw [dif_neg (fun hm : (2 : Fin 3) ∈ (slabDims3 E A B R wf).startIndexMap =>
      absurd (List.mem_singleton.mp hm) (show ¬ (2 : Fin 3) = 0 by decide))]
    simp only [Nat.add_zero, Nat.zero_add]
    rfl

/-- The rank-2 gather at (r, a): the operand at (clamped start word of row r, a). -/
theorem gather_slab2_apply {E A R w : Nat}
    (wf : GatherDims.WF ⟨2, ![E, A]⟩ ⟨2, ![R, 1]⟩ ⟨2, ![R, A]⟩ [1] [0] [] [0] [] 1 ![1, A])
    (x : (⟨2, ![E, A]⟩ : Shape).Idx → α) (idx : IVec ⟨2, ![R, 1]⟩ w) (r : Fin R) (a : Fin A)
    (e : Fin E) (he : e.val = min (idx (ix2 r 0)).toInt.toNat (E - 1)) :
    Host.gather (slabDims2 E A R wf) x idx (ix2 r a) = x (ix2 e a) := by
  unfold Host.gather
  congr 1
  funext c
  refine Fin.ext ?_
  have hsi : (slabDims2 E A R wf).siIdx (ix2 r a) ⟨List.idxOf (0 : Fin 2) (slabDims2 E A R wf).startIndexMap,
      List.idxOf_lt_length_iff.2 (List.mem_singleton.mpr rfl)⟩ = ix2 r 0 := by
    funext d; refine Fin.ext ?_
    match d with
    | ⟨0, _⟩ => rfl
    | ⟨1, _⟩ => rfl
  match c with
  | ⟨0, _⟩ =>
    show (slabDims2 E A R wf).start (ix2 r a) idx (0 : Fin 2) + (slabDims2 E A R wf).batchCoord (ix2 r a) (0 : Fin 2)
        + (slabDims2 E A R wf).offCoord (ix2 r a) (0 : Fin 2) = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (slabDims2 E A R wf).startIndexMap from List.mem_singleton.mpr rfl), hsi]
    exact he.symm
  | ⟨1, _⟩ =>
    show (slabDims2 E A R wf).start (ix2 r a) idx (1 : Fin 2) + (slabDims2 E A R wf).batchCoord (ix2 r a) (1 : Fin 2)
        + (slabDims2 E A R wf).offCoord (ix2 r a) (1 : Fin 2) = a.val
    rw [GatherDims.batchCoord_eq_zero _ _ _ List.not_mem_nil]
    unfold GatherDims.start
    rw [dif_neg (fun hm : (1 : Fin 2) ∈ (slabDims2 E A R wf).startIndexMap =>
      absurd (List.mem_singleton.mp hm) (show ¬ (1 : Fin 2) = 0 by decide))]
    simp only [Nat.add_zero, Nat.zero_add]
    rfl

end Slab

/-! ## The start-index column

Each of the four gathers has its own copy of the column: the id words, 8 added to a negative one, as a [128, 1]
array. The four copies are the same term. -/

/-- The column's entry for trial b is "add 8 if negative" of the trial's id word. -/
theorem col_apply (x1 : (⟨S128, .i32⟩ : BufTy).Contents (Elt Ideal)) (b : Fin 128) :
    val_main_v5 (F := Ideal) x1 (ix2 b 0)
      = Scalar.select (IntOp.cmpi .slt (x1 (ix1 b)) 0#32) (IntOp.addi (x1 (ix1 b)) 8#32) (x1 (ix1 b)) := by
  have hi : idx_main_v5 (ix2 b (0 : Fin 1)) = ix1 b := by
    funext a; match a with | ⟨0, _⟩ => rfl
  rw [val_main_v5_apply, hi, val_main_v4_apply, val_main_v1_apply, val_main_v3_apply, val_main_v0_apply,
    val_main_v2_apply, val_main_c_apply, val_main_c_0_apply]

/-- For an id that is not negative the entry is the id word itself. -/
theorem col_eq (x1 : (⟨S128, .i32⟩ : BufTy).Contents (Elt Ideal)) (h : ∀ b : Fin 128, IntOp.cmpi .sge (x1 (ix1 b)) 0#32 = 1#1) (b : Fin 128) :
    val_main_v5 (F := Ideal) x1 (ix2 b 0) = x1 (ix1 b) := by
  rw [col_apply, Cert.Stitch.wrap_of_nonneg _ (h b)]

/-- The second, third and fourth copies of the column are the first. -/
theorem col13 (x1 : (⟨S128, .i32⟩ : BufTy).Contents (Elt Ideal)) : val_main_v13 (F := Ideal) x1 = val_main_v5 (F := Ideal) x1 := rfl
theorem col29 (x1 : (⟨S128, .i32⟩ : BufTy).Contents (Elt Ideal)) : val_main_v29 (F := Ideal) x1 = val_main_v5 (F := Ideal) x1 := rfl
theorem col37 (x1 : (⟨S128, .i32⟩ : BufTy).Contents (Elt Ideal)) : val_main_v37 (F := Ideal) x1 = val_main_v5 (F := Ideal) x1 := rfl

/-- The expert of trial b's id is the clamped start of its slab: the id word read signed, clamped into [0, 7]. -/
theorem start_eq (x1 : (⟨S128, .i32⟩ : BufTy).Contents (Elt Ideal)) (h : ∀ b : Fin 128, IntOp.cmpi .sge (x1 (ix1 b)) 0#32 = 1#1) (b : Fin 128) :
    (Cert.Stitch.expert (x1 (ix1 b))).val = min (val_main_v5 (F := Ideal) x1 (ix2 b 0)).toInt.toNat (8 - 1) :=
  (congrArg (fun w : BitVec 32 => min w.toInt.toNat 7) (col_eq x1 h b)).symm

/-! ## The four gathers: trial b reads the slab of its expert -/

/-- First-layer weights. -/
theorem slab_W1 (x1 : (⟨S128, .i32⟩ : BufTy).Contents (Elt Ideal)) (x2 : (⟨S8x512x1024, .f32⟩ : BufTy).Contents (Elt Ideal)) (h : ∀ b : Fin 128, IntOp.cmpi .sge (x1 (ix1 b)) 0#32 = 1#1) (b : Fin 128) (n : Fin 512) (k : Fin 1024) :
    val_main_v6 (F := Ideal) x1 x2 (ix3 b n k) = x2 (ix3 (Cert.Stitch.expert (x1 (ix1 b))) n k) := by
  unfold val_main_v6
  exact gather_slab3_apply (E := 8) (A := 512) (B := 1024) (R := 128)
    Facts₀.gather_S8x512x1024_S128x1_S128x512x1024_12_0_n_n_0_1_15121024_wf x2
    (val_main_v5 (F := Ideal) x1) b n k (Cert.Stitch.expert (x1 (ix1 b))) (start_eq x1 h b)

/-- First-layer bias. -/
theorem slab_b1 (x1 : (⟨S128, .i32⟩ : BufTy).Contents (Elt Ideal)) (x3 : (⟨S8x1024, .f32⟩ : BufTy).Contents (Elt Ideal)) (h : ∀ b : Fin 128, IntOp.cmpi .sge (x1 (ix1 b)) 0#32 = 1#1) (b : Fin 128) (k : Fin 1024) :
    val_main_v14 (F := Ideal) x1 x3 (ix2 b k) = x3 (ix2 (Cert.Stitch.expert (x1 (ix1 b))) k) := by
  unfold val_main_v14
  rw [col13]
  exact gather_slab2_apply (E := 8) (A := 1024) (R := 128)
    Facts₀.gather_S8x1024_S128x1_S128x1024_1_0_n_n_0_1_11024_wf x3
    (val_main_v5 (F := Ideal) x1) b k (Cert.Stitch.expert (x1 (ix1 b))) (start_eq x1 h b)

/-- Second-layer weights. -/
theorem slab_W2 (x1 : (⟨S128, .i32⟩ : BufTy).Contents (Elt Ideal)) (x4 : (⟨S8x1024x512, .f32⟩ : BufTy).Contents (Elt Ideal)) (h : ∀ b : Fin 128, IntOp.cmpi .sge (x1 (ix1 b)) 0#32 = 1#1) (b : Fin 128) (k : Fin 1024) (p : Fin 512) :
    val_main_v30 (F := Ideal) x1 x4 (ix3 b k p) = x4 (ix3 (Cert.Stitch.expert (x1 (ix1 b))) k p) := by
  unfold val_main_v30
  rw [col29]
  exact gather_slab3_apply (E := 8) (A := 1024) (B := 512) (R := 128)
    Facts₀.gather_S8x1024x512_S128x1_S128x1024x512_12_0_n_n_0_1_11024512_wf x4
    (val_main_v5 (F := Ideal) x1) b k p (Cert.Stitch.expert (x1 (ix1 b))) (start_eq x1 h b)

/-- Second-layer bias. -/
theorem slab_b2 (x1 : (⟨S128, .i32⟩ : BufTy).Contents (Elt Ideal)) (x5 : (⟨S8x512, .f32⟩ : BufTy).Contents (Elt Ideal)) (h : ∀ b : Fin 128, IntOp.cmpi .sge (x1 (ix1 b)) 0#32 = 1#1) (b : Fin 128) (p : Fin 512) :
    val_main_v38 (F := Ideal) x1 x5 (ix2 b p) = x5 (ix2 (Cert.Stitch.expert (x1 (ix1 b))) p) := by
  unfold val_main_v38
  rw [col37]
  exact gather_slab2_apply (E := 8) (A := 512) (R := 128)
    Facts₀.gather_S8x512_S128x1_S128x512_1_0_n_n_0_1_1512_wf x5
    (val_main_v5 (F := Ideal) x1) b p (Cert.Stitch.expert (x1 (ix1 b))) (start_eq x1 h b)

/-! ## The two layers -/

/-- The first layer before the nonlinearity: the contraction over the 512 inputs plus the bias row, which is
    spread over the time bins. -/
theorem hidden_apply (x0 : (⟨S128x100x512, .f32⟩ : BufTy).Contents (Elt Ideal)) (x1 : (⟨S128, .i32⟩ : BufTy).Contents (Elt Ideal)) (x2 : (⟨S8x512x1024, .f32⟩ : BufTy).Contents (Elt Ideal)) (x3 : (⟨S8x1024, .f32⟩ : BufTy).Contents (Elt Ideal)) (h : ∀ b : Fin 128, IntOp.cmpi .sge (x1 (ix1 b)) 0#32 = 1#1)
    (b : Fin 128) (f : Fin 100) (k : Fin 1024) :
    val_main_v17 (F := Ideal) x0 x1 x2 x3 (ix3 b f k)
      = Cert.Stitch.hidden x0 x2 x3 (fun b => Cert.Stitch.expert (x1 (ix1 b))) b f k := by
  have hl : ∀ n : Fin 512, lidx_main_v7 (ix3 b f k) n = ix3 b f n := fun n => by
    funext a; match a with | ⟨0, _⟩ => rfl | ⟨1, _⟩ => rfl | ⟨2, _⟩ => rfl
  have hr : ∀ n : Fin 512, ridx_main_v7 (ix3 b f k) n = ix3 b n k := fun n => by
    funext a; match a with | ⟨0, _⟩ => rfl | ⟨1, _⟩ => rfl | ⟨2, _⟩ => rfl
  have hb : idx_main_v15 (idx_main_v16 (ix3 b f k)) = ix2 b k := by
    funext a; match a with | ⟨0, _⟩ => rfl | ⟨1, _⟩ => rfl
  rw [val_main_v17_apply, val_main_v7_apply, val_main_v16_apply, val_main_v15_apply, hb, slab_b1 x1 x3 h b k,
    Ideal.addf_def]
  unfold Cert.Stitch.hidden
  congr 1
  refine Finset.sum_congr rfl fun n _ => ?_
  rw [hl, hr, slab_W1 x1 x2 h b n k]

/-- After the nonlinearity: x / (1 + |x|) times the unit scale. -/
theorem act_apply (x0 : (⟨S128x100x512, .f32⟩ : BufTy).Contents (Elt Ideal)) (x1 : (⟨S128, .i32⟩ : BufTy).Contents (Elt Ideal)) (x2 : (⟨S8x512x1024, .f32⟩ : BufTy).Contents (Elt Ideal)) (x3 : (⟨S8x1024, .f32⟩ : BufTy).Contents (Elt Ideal)) (h : ∀ b : Fin 128, IntOp.cmpi .sge (x1 (ix1 b)) 0#32 = 1#1)
    (b : Fin 128) (f : Fin 100) (k : Fin 1024) :
    val_main_v23 (F := Ideal) x0 x1 x2 x3 (ix3 b f k)
      = Cert.Stitch.softsign (Cert.Stitch.hidden x0 x2 x3 (fun b => Cert.Stitch.expert (x1 (ix1 b))) b f k) := by
  rw [val_main_v23_apply, val_main_v21_apply, val_main_v20_apply, val_main_v18_apply, val_main_v19_apply,
    val_main_v22_apply, val_main_cst_apply, val_main_cst_3_apply, hidden_apply x0 x1 x2 x3 h b f k]
  generalize Cert.Stitch.hidden x0 x2 x3 _ b f k = s
  rfl

/-- The second layer: the contraction over the 1024 hidden units plus the bias row. -/
theorem out_apply (x0 : (⟨S128x100x512, .f32⟩ : BufTy).Contents (Elt Ideal)) (x1 : (⟨S128, .i32⟩ : BufTy).Contents (Elt Ideal)) (x2 : (⟨S8x512x1024, .f32⟩ : BufTy).Contents (Elt Ideal)) (x3 : (⟨S8x1024, .f32⟩ : BufTy).Contents (Elt Ideal)) (x4 : (⟨S8x1024x512, .f32⟩ : BufTy).Contents (Elt Ideal)) (x5 : (⟨S8x512, .f32⟩ : BufTy).Contents (Elt Ideal)) (h : ∀ b : Fin 128, IntOp.cmpi .sge (x1 (ix1 b)) 0#32 = 1#1)
    (b : Fin 128) (f : Fin 100) (p : Fin 512) :
    val_main_v41 (F := Ideal) x0 x1 x2 x3 x4 x5 (ix3 b f p)
      = Cert.Stitch.outAt x0 x2 x3 x4 x5 (fun b => Cert.Stitch.expert (x1 (ix1 b))) b f p := by
  have hl : ∀ k : Fin 1024, lidx_main_v31 (ix3 b f p) k = ix3 b f k := fun k => by
    funext a; match a with | ⟨0, _⟩ => rfl | ⟨1, _⟩ => rfl | ⟨2, _⟩ => rfl
  have hr : ∀ k : Fin 1024, ridx_main_v31 (ix3 b f p) k = ix3 b k p := fun k => by
    funext a; match a with | ⟨0, _⟩ => rfl | ⟨1, _⟩ => rfl | ⟨2, _⟩ => rfl
  have hb : idx_main_v39 (idx_main_v40 (ix3 b f p)) = ix2 b p := by
    funext a; match a with | ⟨0, _⟩ => rfl | ⟨1, _⟩ => rfl
  rw [val_main_v41_apply, val_main_v31_apply, val_main_v40_apply, val_main_v39_apply, hb, slab_b2 x1 x5 h b p,
    Ideal.addf_def]
  unfold Cert.Stitch.outAt
  congr 1
  refine Finset.sum_congr rfl fun k _ => ?_
  rw [hl, hr, act_apply x0 x1 x2 x3 h b f k, slab_W2 x1 x4 h b k p]

/-- The reference's last stage is G at the experts its id words select, when no id is negative. -/
theorem ref_eq (x0 : (⟨S128x100x512, .f32⟩ : BufTy).Contents (Elt Ideal)) (x1 : (⟨S128, .i32⟩ : BufTy).Contents (Elt Ideal))
    (x2 : (⟨S8x512x1024, .f32⟩ : BufTy).Contents (Elt Ideal)) (x3 : (⟨S8x1024, .f32⟩ : BufTy).Contents (Elt Ideal))
    (x4 : (⟨S8x1024x512, .f32⟩ : BufTy).Contents (Elt Ideal)) (x5 : (⟨S8x512, .f32⟩ : BufTy).Contents (Elt Ideal))
    (h : ∀ b : Fin 128, IntOp.cmpi .sge (x1 (ix1 b)) 0#32 = 1#1) :
    val_main_v41 (F := Ideal) x0 x1 x2 x3 x4 x5
      = Cert.Stitch.G x0 x2 x3 x4 x5 (fun b => Cert.Stitch.expert (x1 (ix1 b))) := by
  funext i
  obtain ⟨b, f, p, rfl⟩ : ∃ (b : Fin 128) (f : Fin 100) (p : Fin 512), i = ix3 b f p :=
    ⟨i 0, i 1, i 2, eq_ix3 i⟩
  rw [Cert.Stitch.G_apply]
  exact out_apply x0 x1 x2 x3 x4 x5 h b f p

end Cert.ReferenceIdeal.RefValue

end
-- ==== Proof.PreIds.lean ====
/-
  What the precondition says of the id words: its last conjunct is "every id is at least 0" (signed).
-/
import proofs.«414796_j75995151335989_2_alg».proof.Pre_finite_inputs
import proofs.«414796_j75995151335989_2_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Ids

open Cert.Pre_finite_inputs Idealize.ShloMosaic Idealize.ShloMosaic.ValueIdx

variable {F : FTy → Type} [FloatOps F] [Cert.Pre_finite_inputs.Facts]

/-- The scalar shape has exactly one index. -/
instance : Subsingleton S_.Idx := ⟨fun a b => funext fun d => d.elim0⟩

/-- Under the precondition no id is negative.

    The precondition is a conjunction whose outermost right conjunct is the "all" (a reduction by "and" into a
    scalar) of the elementwise comparison  id ≥ 0  against the scalar 0 spread over the 128 trials. A conjunction
    that is 1 has both sides 1; a reduction by "and" that is 1 had a 1 everywhere; and the spread scalar reads 0
    at every trial. -/
theorem nonneg_of_pre (x0 : FVec F S128x100x512 .f32) (x1 : IVec S128 32) (x2 : FVec F S8x512x1024 .f32)
    (x3 : FVec F S8x1024 .f32) (x4 : FVec F S8x1024x512 .f32) (x5 : FVec F S8x512 .f32)
    (h : Cert.Pre_finite_inputs.fn (F := F) x0 x1 x2 x3 x4 x5 = fun _ => 1#1) :
    ∀ b : Fin 128, IntOp.cmpi .sge (x1 (ix1 b)) 0#32 = 1#1 := by
  intro b
  have h0 := congrFun h ValueIdx.ix0
  dsimp only [Cert.Pre_finite_inputs.fn, Cert.Pre_finite_inputs.fn_part1] at h0
  -- the outermost conjunction, at the scalar's one index
  have h1 := (IntOp.andi_eq_one.1 h0).2
  -- the "all" over the 128 trials
  have h2 := Host.reduce_andi_all _ _ _ _ _ h1 (ix1 b)
  -- the comparison at trial b, its right operand the spread scalar 0
  have h3 : IntOp.cmpi .sge (x1 (ix1 b))
      (broadcastInDim S128 ![] Facts.bcast_S_S128 (constantI S_ 32 0#32) (ix1 b)) = 1#1 := h2
  rw [StableHlo.Predicate.bcast_scalar _ Facts.h_S_] at h3
  exact h3

end Cert.Pre_finite_inputs.Ids

end
-- ==== Proof.lean ====
/-
  The certificate's claims, assembled.

  Both programs send each of 128 trials through the same two-layer map, with the weights of the expert the trial's id
  selects: the kernel clamps the id into [0, 7] on the host and hands the clamped ids to its body as a table; the
  reference adds 8 to a negative id and lets the indexing operation clamp. Under the precondition no id is negative,
  and then both select expert min(id, 7). On the extended reals the two programs apply the same operations with
  the same literals, so their results are one function of the arguments (Spec.lean's G).

  * The kernel's frames hold for every input: the body's range checks are of words of the kernel's own clamped
    table (KTable.lean at the word level, KITable.lean for the idealized program).
  * The idealized kernel's output array is G of the arguments: one trial's arithmetic at an index (KISample.lean),
    the block a grid point leaves (KIBlock.lean), the blocks read back to the arrays and the array they cover
    (KIFinal.lean, over KIArrays.lean and KILoads.lean).
  * The reference's run ends at the same G (RefValue.lean), the ids being non-negative by the precondition
    (PreIds.lean).
  * The ideal pass rewrote nothing, so there is nothing to preserve.
-/
import proofs.«414796_j75995151335989_2_alg».proof.Defs
import proofs.«414796_j75995151335989_2_alg».proof.Proof.Gen.Kernel
import proofs.«414796_j75995151335989_2_alg».proof.Proof.Gen.Kernel.Frame
import proofs.«414796_j75995151335989_2_alg».proof.Proof.Gen.KernelIdeal
import proofs.«414796_j75995151335989_2_alg».proof.Proof.Gen.KernelIdeal.Frame
import proofs.«414796_j75995151335989_2_alg».proof.Proof.Gen.ReferenceIdeal
import proofs.«414796_j75995151335989_2_alg».proof.Proof.Gen.ReferenceIdeal.Run
import proofs.«414796_j75995151335989_2_alg».proof.Proof.Gen.ReferenceIdeal.Read
import proofs.«414796_j75995151335989_2_alg».proof.Proof.Gen.Pre_finite_inputs
import proofs.«414796_j75995151335989_2_alg».proof.Proof.KTable
import proofs.«414796_j75995151335989_2_alg».proof.Proof.KITable
import proofs.«414796_j75995151335989_2_alg».proof.Proof.KIFinal
import proofs.«414796_j75995151335989_2_alg».proof.Proof.RefValue
import proofs.«414796_j75995151335989_2_alg».proof.Proof.PreIds
import Idealize.ShloMosaic.Adequacy
import Idealize.ShloMosaic.Init

noncomputable section

namespace Cert.Proof

open Idealize.ShloMosaic Idealize.ShloMosaic.TcCoe Idealize.SL.Sem

/-- The word-level kernel runs and keeps its arguments: its table's words pass the body's range checks. -/
theorem frame_kernel : Cert.frame_Kernel := fun m ρ _ =>
  Cert.Kernel.Gen.frame m ρ (Cert.Kernel.Tab.ok m) (Cert.Kernel.Tab.hyps m)

/-- So does the idealized kernel. -/
theorem frame_kernelIdeal : Cert.frame_KernelIdeal := fun m ρ _ =>
  Cert.KernelIdeal.Gen.frame m ρ (Cert.KernelIdeal.Tab.ok m) (Cert.KernelIdeal.Tab.hyps m)

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both runs end at G of the arguments: the kernel's by its blocks, the
    reference's by its stages, the experts agreeing because no id is negative. -/
theorem algebraic : Cert.algebraic_KernelIdeal_ReferenceIdeal := by
  intro m ρ m' ρ' hpre hagree
  refine ⟨fun c => Cert.KernelIdeal.Final.Gm m c,
    Cert.KernelIdeal.Final.run m ρ (Cert.KernelIdeal.Tab.ok m) (Cert.KernelIdeal.Tab.hyps m), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  refine (Cert.ReferenceIdeal.Read.val_main_v41_eq (F := Ideal) _ _ _ _ _ _).trans ?_
  exact Cert.ReferenceIdeal.RefValue.ref_eq _ _ _ _ _ _
    (Cert.Pre_finite_inputs.Ids.nonneg_of_pre _ _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
